-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 1 := constantI S_ 1 1#1
  let main_v6 : IVec S_ 1 := (fun x v => Host.reduce IntOp.andi x v reducesTo_S131072_S_d0 h_S_) main_v5 main_c_1
  let main_v7 : IVec S_ 1 := andi main_v3 main_v6
  let main_c_2 : IVec S_ 32 := constantI S_ 32 10#32
  let main_v8 : IVec S131072 32 := broadcastInDim S131072 ![] bcast_S_S131072 main_c_2
  let main_v9 : IVec S131072 1 := cmpi .slt main_arg1 main_v8
  let main_c_3 : IVec S_ 1 := constantI S_ 1 1#1
  let main_v10 : IVec S_ 1 := (fun x v => Host.reduce IntOp.andi x v reducesTo_S131072_S_d0 h_S_) main_v9 main_c_3
  let main_v11 : IVec S_ 1 := andi main_v7 main_v10
  main_v11
-- ==== Kernel.lean ====
abbrev S131072x512 : Shape := ⟨2, ![131072, 512]⟩
abbrev S131072 : Shape := ⟨1, ![131072]⟩
abbrev S131072x1 : Shape := ⟨2, ![131072, 1]⟩
abbrev S2x10x512 : Shape := ⟨3, ![2, 10, 512]⟩
abbrev S2x1x10 : Shape := ⟨3, ![2, 1, 10]⟩
abbrev S4096x512 : Shape := ⟨2, ![4096, 512]⟩
abbrev S4096x1 : Shape := ⟨2, ![4096, 1]⟩
abbrev S1x10x512 : Shape := ⟨3, ![1, 10, 512]⟩
abbrev S1x1x10 : Shape := ⟨3, ![1, 1, 10]⟩
abbrev S10x512 : Shape := ⟨2, ![10, 512]⟩
abbrev S1x10 : Shape := ⟨2, ![1, 10]⟩
abbrev S4096x10 : Shape := ⟨2, ![4096, 10]⟩
abbrev S10 : Shape := ⟨1, ![10]⟩
abbrev S_ : Shape := ⟨0, ![]⟩
abbrev S10x1 : Shape := ⟨2, ![10, 1]⟩
abbrev S131072x10 : Shape := ⟨2, ![131072, 10]⟩
abbrev S2x1x1 : Shape := ⟨3, ![2, 1, 1]⟩
abbrev S2048x512 : Shape := ⟨2, ![2048, 512]⟩
abbrev S2048x1 : Shape := ⟨2, ![2048, 1]⟩
abbrev S2048x10 : Shape := ⟨2, ![2048, 10]⟩
abbrev S1x1x1 : Shape := ⟨3, ![1, 1, 1]⟩
abbrev S1x1 : Shape := ⟨2, ![1, 1]⟩
abbrev S2048 : Shape := ⟨1, ![2048]⟩
abbrev S1 : Shape := ⟨1, ![1]⟩

abbrev nBuf : Space → Nat
  | .hbm => 23
  | .vmem => 18
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S2x10x512, .f32⟩
  | .hbm, ⟨4, _⟩ => ⟨S2x1x10, .f32⟩
  | .hbm, ⟨5, _⟩ => ⟨S_, .f32⟩
  | .hbm, ⟨6, _⟩ => ⟨S10x512, .f32⟩
  | .hbm, ⟨7, _⟩ => ⟨S_, .f32⟩
  | .hbm, ⟨8, _⟩ => ⟨S1x10, .f32⟩
  | .hbm, ⟨9, _⟩ => ⟨S10, .f32⟩
  | .hbm, ⟨10, _⟩ => ⟨S10x1, .f32⟩
  | .hbm, ⟨11, _⟩ => ⟨S10x512, .f32⟩
  | .hbm, ⟨12, _⟩ => ⟨S10x512, .f32⟩
  | .hbm, ⟨13, _⟩ => ⟨S10x512, .f32⟩
  | .hbm, ⟨14, _⟩ => ⟨S_, .f32⟩
  | .hbm, ⟨15, _⟩ => ⟨S10, .f32⟩
  | .hbm, ⟨16, _⟩ => ⟨S1x10, .f32⟩
  | .hbm, ⟨17, _⟩ => ⟨S131072x10, .f32⟩
  | .hbm, ⟨18, _⟩ => ⟨S2x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S1x10x512, .f32⟩
  | .local _ .vmem, ⟨5, _⟩ => ⟨S1x10x512, .f32⟩
  | .local _ .vmem, ⟨6, _⟩ => ⟨S1x1x10, .f32⟩
  | .local _ .vmem, ⟨7, _⟩ => ⟨S1x1x10, .f32⟩
  | .local _ .vmem, ⟨8, _⟩ => ⟨S2048x512, .f32⟩
  | .local _ .vmem, ⟨9, _⟩ => ⟨S2048x512, .f32⟩
  | .local _ .vmem, ⟨10, _⟩ => ⟨S10x512, .f32⟩
  | .local _ .vmem, ⟨11, _⟩ => ⟨S1x10, .f32⟩
  | .local _ .vmem, ⟨12, _⟩ => ⟨S2048x1, .i32⟩
  | .local _ .vmem, ⟨13, _⟩ => ⟨S2048x1, .i32⟩
  | .local _ .vmem, ⟨14, _⟩ => ⟨S2048x10, .f32⟩
  | .local _ .vmem, ⟨15, _⟩ => ⟨S2048x10, .f32⟩
  | .local _ .vmem, ⟨16, _⟩ => ⟨S1x1x1, .f32⟩
  | .local _ .vmem, ⟨17, _⟩ => ⟨S1x1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S131072_S131072x1 : S131072.ShapeCasts S131072x1
  inb_S1x10x512_S1x10x512_0_0_0 : ∀ a, (![0, 0, 0] : Fin 3 → Nat) a + S1x10x512.size a ≤ S1x10x512.size a
  h_S1x10x512 : 0 < S1x10x512.numel
  shapeCasts_S1x10x512_S10x512 : S1x10x512.ShapeCasts S10x512
  shapeCasts_S10x512_S1x10x512 : S10x512.ShapeCasts S1x10x512
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  shapeCasts_S1x10_S1x1x10 : S1x10.ShapeCasts S1x1x10
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x10_d1_w32 : S4096x10.Iotas .tc 32 [1]
  broadcasts_S4096x1_S4096x10 : S4096x1.Broadcasts S4096x10
  natLt_1_32 : 1 < 32
  inb_S4096x512_S4096x512_0_0 : ∀ a, (![0, 0] : Fin 2 → Nat) a + S4096x512.size a ≤ S4096x512.size a
  h_S4096x512 : 0 < S4096x512.numel
  reduces_S4096x10_S10 : S4096x10.Reduces [0] S10
  shapeCasts_S10_S1x10 : S10.ShapeCasts S1x10
  reducesTo_S2x10x512_S10x512_d0 : S2x10x512.ReducesTo [0] S10x512
  h_S_ : 0 < S_.numel
  reducesTo_S2x1x10_S1x10_d0 : S2x1x10.ReducesTo [0] S1x10
  shapeCasts_S1x10_S10 : S1x10.ShapeCasts S10
  bcast_S10_S10x1_0 : S10.BroadcastsInDim S10x1 (![0] : Fin 1 → Fin S10x1.rank)
  bcast_S10x1_S10x512_0_1 : S10x1.BroadcastsInDim S10x512 (![0, 1] : Fin 2 → Fin S10x512.rank)
  reducesTo_S10x512_S10_d1 : S10x512.ReducesTo [1] S10
  bcast_S10_S1x10_1 : S10.BroadcastsInDim S1x10 (![1] : Fin 1 → Fin S1x10.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2048x512_S2048x512_0_0 : ∀ a, (![0, 0] : Fin 2 → Nat) a + S2048x512.size a ≤ S2048x512.size a
  h_S2048x512 : 0 < S2048x512.numel
  inb_S10x512_S10x512_0_0 : ∀ a, (![0, 0] : Fin 2 → Nat) a + S10x512.size a ≤ S10x512.size a
  h_S10x512 : 0 < S10x512.numel
  shapeCasts_S10x512_S10x512 : S10x512.ShapeCasts S10x512
  reduces_S2048x512_S2048 : S2048x512.Reduces [1] S2048
  shapeCasts_S2048_S2048x1 : S2048.ShapeCasts S2048x1
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S2048x1_S2048x10 : S2048x1.Broadcasts S2048x10
  broadcasts_S1x10_S2048x10 : S1x10.Broadcasts S2048x10
  reduces_S2048x10_S2048 : S2048x10.Reduces [1] S2048
  inb_S2048x10_S2048x10_0_0 : ∀ a, (![0, 0] : Fin 2 → Nat) a + S2048x10.size a ≤ S2048x10.size a
  h_S2048x10 : 0 < S2048x10.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x10_d1_w32 : S2048x10.Iotas .tc 32 [1]
  reduces_S2048x1_S1 : S2048x1.Reduces [0] S1
  shapeCasts_S1_S1x1 : S1.ShapeCasts S1x1
  reducesTo_S2x1x1_S_d0_1_2 : S2x1x1.ReducesTo [0, 1, 2] S_
  dot_S4096x10_S4096x512_S10x512_0_0_1_1_n_n_wf : DotDims.WF S4096x10 S4096x512 S10x512 [0] [0] [1] [1] [] []
  dot_S2048x512_S10x512_S2048x10_1_1_0_0_n_n_wf : DotDims.WF S2048x512 S10x512 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x512.size a ≤ S2x10x512.size a
  hwx0_2 : ∀ i : grid0.Coords, EltTy.bits .f32 = 32 ∨ (Rect.block (s := S2x10x512) S1x10x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10.size a ≤ S2x1x10.size a
  hwx0_3 : ∀ i : grid0.Coords, EltTy.bits .f32 = 32 ∨ (Rect.block (s := S2x1x10) S1x1x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x512.size a ≤ S10x512.size a
  hwx1_1 : ∀ i : grid1.Coords, EltTy.bits .f32 = 32 ∨ (Rect.block (s := S10x512) S10x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S131072x1.size a
  hwx1_3 : ∀ i : grid1.Coords, EltTy.bits .i32 = 32 ∨ (Rect.block (s := S131072x1) S2048x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x10.size a ≤ S131072x10.size a
  hwx1_4 : ∀ i : grid1.Coords, EltTy.bits .f32 = 32 ∨ (Rect.block (s := S131072x10) S2048x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S2x1x1.size a
  hwx1_5 : ∀ i : grid1.Coords, EltTy.bits .f32 = 32 ∨ (Rect.block (s := S2x1x1) S1x1x1.size (cc1_transform_5 i) (hinb1_5 i)).WholeWords (EltTy.packing .f32)

variable [Facts₀]

def dot_S4096x10_S4096x512_S10x512_0_0_1_1_n_n : DotDims S4096x10 S4096x512 S10x512 where
  lhsContracting := [0]
  rhsContracting := [0]
  lhsNonContracting := [1]
  rhsNonContracting := [1]
  lhsBatch := []
  rhsBatch := []
  wf := dot_S4096x10_S4096x512_S10x512_0_0_1_1_n_n_wf
def dot_S2048x512_S10x512_S2048x10_1_1_0_0_n_n : DotDims S2048x512 S10x512 S2048x10 where
  lhsContracting := [1]
  rhsContracting := [1]
  lhsNonContracting := [0]
  rhsNonContracting := [0]
  lhsBatch := []
  rhsBatch := []
  wf := dot_S2048x512_S10x512_S2048x10_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x10x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S2048x10.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x512 : Shape := ⟨2, ![131072, 512]⟩
abbrev S131072 : Shape := ⟨1, ![131072]⟩
abbrev S_ : Shape := ⟨0, ![]⟩
abbrev S10x512 : Shape := ⟨2, ![10, 512]⟩
abbrev S131072x1 : Shape := ⟨2, ![131072, 1]⟩
abbrev S10 : Shape := ⟨1, ![10]⟩
abbrev S10x1 : Shape := ⟨2, ![10, 1]⟩
abbrev S1x10 : Shape := ⟨2, ![1, 10]⟩
abbrev S131072x10 : Shape := ⟨2, ![131072, 10]⟩
abbrev S512x10 : Shape := ⟨2, ![512, 10]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S_, .f32⟩
  | .hbm, ⟨3, _⟩ => ⟨S10x512, .f32⟩
  | .hbm, ⟨4, _⟩ => ⟨S131072x1, .i32⟩
  | .hbm, ⟨5, _⟩ => ⟨S10x512, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S10, .f32⟩
  | .hbm, ⟨10, _⟩ => ⟨S131072x1, .i32⟩
  | .hbm, ⟨11, _⟩ => ⟨S10, .f32⟩
  | .hbm, ⟨12, _⟩ => ⟨S10x1, .f32⟩
  | .hbm, ⟨13, _⟩ => ⟨S10x512, .f32⟩
  | .hbm, ⟨14, _⟩ => ⟨S10x512, .f32⟩
  | .hbm, ⟨15, _⟩ => ⟨S131072x512, .f32⟩
  | .hbm, ⟨16, _⟩ => ⟨S_, .f32⟩
  | .hbm, ⟨17, _⟩ => ⟨S131072, .f32⟩
  | .hbm, ⟨18, _⟩ => ⟨S131072x1, .f32⟩
  | .hbm, ⟨19, _⟩ => ⟨S10x512, .f32⟩
  | .hbm, ⟨20, _⟩ => ⟨S_, .f32⟩
  | .hbm, ⟨21, _⟩ => ⟨S10, .f32⟩
  | .hbm, ⟨22, _⟩ => ⟨S1x10, .f32⟩
  | .hbm, ⟨23, _⟩ => ⟨S131072x10, .f32⟩
  | .hbm, ⟨24, _⟩ => ⟨S131072x10, .f32⟩
  | .hbm, ⟨25, _⟩ => ⟨S131072x10, .f32⟩
  | .hbm, ⟨26, _⟩ => ⟨S512x10, .f32⟩
  | .hbm, ⟨27, _⟩ => ⟨S131072x10, .f32⟩
  | .hbm, ⟨28, _⟩ => ⟨S_, .f32⟩
  | .hbm, ⟨29, _⟩ => ⟨S131072x10, .f32⟩
  | .hbm, ⟨30, _⟩ => ⟨S131072x10, .f32⟩
  | .hbm, ⟨31, _⟩ => ⟨S131072x10, .f32⟩
  | .hbm, ⟨32, _⟩ => ⟨S_, .f32⟩
  | .hbm, ⟨33, _⟩ => ⟨S131072x10, .f32⟩
  | .hbm, ⟨34, _⟩ => ⟨S131072x10, .f32⟩
  | .hbm, ⟨35, _⟩ => ⟨S131072x10, .f32⟩
  | .hbm, ⟨36, _⟩ => ⟨S_, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S131072x1, .f32⟩
  | .hbm, ⟨42, _⟩ => ⟨S131072x10, .f32⟩
  | .hbm, ⟨43, _⟩ => ⟨S131072x10, .f32⟩
  | .hbm, ⟨44, _⟩ => ⟨S131072x10, .f32⟩
  | .hbm, ⟨45, _⟩ => ⟨S_, .f32⟩
  | .hbm, ⟨46, _⟩ => ⟨S131072, .f32⟩
  | .hbm, ⟨47, _⟩ => ⟨S131072x1, .f32⟩
  | .hbm, ⟨48, _⟩ => ⟨S131072x1, .f32⟩
  | .hbm, ⟨49, _⟩ => ⟨S131072x10, .f32⟩
  | .hbm, ⟨50, _⟩ => ⟨S131072x10, .f32⟩
  | .hbm, ⟨51, _⟩ => ⟨S131072x1, .i32⟩
  | .hbm, ⟨52, _⟩ => ⟨S_, .i32⟩
  | .hbm, ⟨53, _⟩ => ⟨S131072x1, .i32⟩
  | .hbm, ⟨54, _⟩ => ⟨S131072x1, .i1⟩
  | .hbm, ⟨55, _⟩ => ⟨S_, .i32⟩
  | .hbm, ⟨56, _⟩ => ⟨S131072x1, .i32⟩
  | .hbm, ⟨57, _⟩ => ⟨S131072x1, .i32⟩
  | .hbm, ⟨58, _⟩ => ⟨S131072x1, .i32⟩
  | .hbm, ⟨59, _⟩ => ⟨S131072x1x1, .i32⟩
  | .hbm, ⟨60, _⟩ => ⟨S1, .i32⟩
  | .hbm, ⟨61, _⟩ => ⟨S_, .i32⟩
  | .hbm, ⟨62, _⟩ => ⟨S131072x1x1, .i32⟩
  | .hbm, ⟨63, _⟩ => ⟨S131072x1x1, .i1⟩
  | .hbm, ⟨64, _⟩ => ⟨S1x1x1, .i32⟩
  | .hbm, ⟨65, _⟩ => ⟨S131072x1x1, .i32⟩
  | .hbm, ⟨66, _⟩ => ⟨S131072x1x1, .i1⟩
  | .hbm, ⟨67, _⟩ => ⟨S131072x1x1, .i1⟩
  | .hbm, ⟨68, _⟩ => ⟨S_, .i1⟩
  | .hbm, ⟨69, _⟩ => ⟨S131072x1, .i1⟩
  | .hbm, ⟨70, _⟩ => ⟨S131072x1, .f32⟩
  | .hbm, ⟨71, _⟩ => ⟨S_, .f32⟩
  | .hbm, ⟨72, _⟩ => ⟨S131072x1, .f32⟩
  | .hbm, ⟨73, _⟩ => ⟨S131072x1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_cst : Ref sig .tc := ⟨.hbm, 36, rfl⟩
abbrev main_call0_v0 : Ref sig .tc := ⟨.hbm, 37, rfl⟩
abbrev main_call0_cst_0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_cst_1 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_v27 : Ref sig .tc := ⟨.hbm, 50, rfl⟩
abbrev main_v28 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v29 : Ref sig .tc := ⟨.hbm, 73, rfl⟩
abbrev main_cst_6 : Ref sig .tc := ⟨.hbm, 74, rfl⟩
abbrev main_v30 : Ref sig .tc := ⟨.hbm, 75, rfl⟩
abbrev main_cst_7 : Ref sig .tc := ⟨.hbm, 76, rfl⟩
abbrev main_v31 : Ref sig .tc := ⟨.hbm, 77, rfl⟩
abbrev main_v32 : Ref sig .tc := ⟨.hbm, 78, rfl⟩

abbrev nD : Nat := 1
abbrev τ : Topo := Topo.v7x

variable {F : FTy → Type} [FloatOps F]

class Facts₀ : Prop where
  bcast_S_S10x512 : S_.BroadcastsInDim S10x512 (![] : Fin 0 → Fin S10x512.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S10 : S_.BroadcastsInDim S10 (![] : Fin 0 → Fin S10.rank)
  bcast_S10_S10x1_0 : S10.BroadcastsInDim S10x1 (![0] : Fin 1 → Fin S10x1.rank)
  bcast_S10x1_S10x512_0_1 : S10x1.BroadcastsInDim S10x512 (![0, 1] : Fin 2 → Fin S10x512.rank)
  reducesTo_S131072x512_S131072_d1 : S131072x512.ReducesTo [1] S131072
  h_S_ : 0 < S_.numel
  reducesTo_S10x512_S10_d1 : S10x512.ReducesTo [1] S10
  bcast_S10_S1x10_1 : S10.BroadcastsInDim S1x10 (![1] : Fin 1 → Fin S1x10.rank)
  bcast_S131072x1_S131072x10_0_1 : S131072x1.BroadcastsInDim S131072x10 (![0, 1] : Fin 2 → Fin S131072x10.rank)
  bcast_S1x10_S131072x10_0_1 : S1x10.BroadcastsInDim S131072x10 (![0, 1] : Fin 2 → Fin S131072x10.rank)
  transposes_S10x512_S512x10_1_0 : S10x512.Transposes [1, 0] S512x10
  bcast_S_S131072x10 : S_.BroadcastsInDim S131072x10 (![] : Fin 0 → Fin S131072x10.rank)
  reducesTo_S131072x10_S131072_d1 : S131072x10.ReducesTo [1] S131072
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  reducesTo_S131072x1_S_d0_1 : S131072x1.ReducesTo [0, 1] S_
  scatter_S10x512_S131072x1_S131072x512_1_0_0_1_wf : ScatterDims.WF S10x512 S131072x1 S131072x512 [1] [0] [0] 1
  scatter_S10_S131072x1_S131072_n_0_0_1_wf : ScatterDims.WF S10 S131072x1 S131072 [] [0] [0] 1
  dot_S131072x512_S512x10_S131072x10_1_0_0_1_n_n_wf : DotDims.WF S131072x512 S512x10 S131072x10 [1] [0] [0] [1] [] []
  gather_S131072x10_S131072x1x1_S131072x1_n_1_0_0_1_2_11_wf : GatherDims.WF S131072x10 S131072x1x1 S131072x1 [] [1] [0] [1] [0] 2 ![1, 1]

variable [Facts₀]

def scatter_S10x512_S131072x1_S131072x512_1_0_0_1 : ScatterDims S10x512 S131072x1 S131072x512 where
  updateWindowDims := [1]
  insertedWindowDims := [0]
  scatterDimsToOperandDims := [0]
  indexVectorDim := 1
  wf := scatter_S10x512_S131072x1_S131072x512_1_0_0_1_wf
def scatter_S10_S131072x1_S131072_n_0_0_1 : ScatterDims S10 S131072x1 S131072 where
  updateWindowDims := []
  insertedWindowDims := [0]
  scatterDimsToOperandDims := [0]
  indexVectorDim := 1
  wf := scatter_S10_S131072x1_S131072_n_0_0_1_wf
def dot_S131072x512_S512x10_S131072x10_1_0_0_1_n_n : DotDims S131072x512 S512x10 S131072x10 where
  lhsContracting := [1]
  rhsContracting := [0]
  lhsNonContracting := [0]
  rhsNonContracting := [1]
  lhsBatch := []
  rhsBatch := []
  wf := dot_S131072x512_S512x10_S131072x10_1_0_0_1_n_n_wf
def gather_S131072x10_S131072x1x1_S131072x1_n_1_0_0_1_2_11 : GatherDims S131072x10 S131072x1x1 S131072x1 where
  offsetDims := []
  collapsedSliceDims := [1]
  operandBatchingDims := [0]
  startIndicesBatchingDims := [0]
  startIndexMap := [1]
  indexVectorDim := 2
  sliceSizes := ![1, 1]
  wf := gather_S131072x10_S131072x1x1_S131072x1_n_1_0_0_1_2_11_wf

class Facts : Prop extends Facts₀ where

variable [Facts]
-- ==== Proof.Spec.lean ====
/- The prototypical-network loss as plain mathematics over the extended reals.
   Rows are the 131072 samples, each with 512 features and an integer label; there are 10 classes.
   First pass: the one-hot matrix of the labels, the per-class sums and counts, the class means
   (the prototypes) and their squared norms.  Second pass, at ANY prototypes `P` and squared norms `Q`:
   the clamped squared distances, their negatives (the logits), the row maximum, the log-softmax,
   and the log-probability each row's one-hot picks.  The two programs differ only in how they
   group the rows when they add: the partial sums below are the groupings the tiled program uses. -/
import Idealize.ShloMosaic.PureOps.Ideal
import Idealize.ShloMosaic.PureOps.Ideal.Laws
import Mathlib.Algebra.BigOperators.Group.Finset.Basic

noncomputable section

namespace Cert.Proto

open Idealize.ShloMosaic
open scoped BigOperators

/-- The literal two, the literal minus infinity a running maximum starts from, and the number of rows, as the programs spell them. -/
def two : EReal := Ideal.ofBits .f32 0x40000000#32
def negInf : EReal := Ideal.ofBits .f32 0xFF800000#32
def nRows : EReal := Ideal.ofBits .f32 0x48000000#32

section FirstPass

variable (x : Fin 131072 → Fin 512 → EReal) (l : Fin 131072 → BitVec 32)

/-- Every label is a class number: between 0 and 9, read signed. -/
def LabOk : Prop := ∀ r : Fin 131072, 0 ≤ (l r).toInt ∧ (l r).toInt < 10

/-- The one-hot matrix: 1 where row `r` carries class `c`, else 0. -/
def oh (r : Fin 131072) (c : Fin 10) : EReal := if BitVec.ofNat 32 c.val = l r then 1 else 0

/-- Per-class sum of the rows and per-class count. -/
def sums (c : Fin 10) (k : Fin 512) : EReal := ∑ r : Fin 131072, oh l r c * x r k
def counts (c : Fin 10) : EReal := ∑ r : Fin 131072, oh l r c

/-- The class means and their squared norms. -/
def proto (c : Fin 10) (k : Fin 512) : EReal := Ideal.div (sums x l c k) (counts l c)
def sqp (c : Fin 10) : EReal := ∑ k : Fin 512, proto x l c k * proto x l c k

/-- Row `q` of block `i` of half `j`, when the rows are cut into 2 halves of 16 blocks of 4096. -/
def row0 (j : Fin 2) (i : Fin 16) (q : Fin 4096) : Fin 131072 :=
  ⟨4096 * (16 * j.val + i.val) + q.val, by have := j.isLt; have := i.isLt; have := q.isLt; omega⟩

/-- One half's share of the per-class sums and counts, block after block. -/
def coreSums (j : Fin 2) (c : Fin 10) (k : Fin 512) : EReal :=
  ∑ i : Fin 16, ∑ q : Fin 4096, oh l (row0 j i q) c * x (row0 j i q) k
def coreCounts (j : Fin 2) (c : Fin 10) : EReal :=
  ∑ i : Fin 16, ∑ q : Fin 4096, oh l (row0 j i q) c

end FirstPass

section SecondPass

variable (x : Fin 131072 → Fin 512 → EReal) (l : Fin 131072 → BitVec 32)
variable (P : Fin 10 → Fin 512 → EReal) (Q : Fin 10 → EReal)

def sqe (r : Fin 131072) : EReal := ∑ k : Fin 512, x r k * x r k
def cross (r : Fin 131072) (c : Fin 10) : EReal := ∑ k : Fin 512, x r k * P c k
/-- The squared distance ‖e‖² + ‖p‖² − 2 e·p, clamped at zero, and its negative. -/
def dist (r : Fin 131072) (c : Fin 10) : EReal := max (sqe x r + Q c - two * cross x P r c) 0
def logit (r : Fin 131072) (c : Fin 10) : EReal := -(dist x P Q r c)
/-- The row maximum, the shifted exponentials' sum, and the log-softmax. -/
def rowmax (r : Fin 131072) : EReal := (Finset.univ : Finset (Fin 10)).fold max negInf (logit x P Q r)
def denom (r : Fin 131072) : EReal := ∑ c : Fin 10, Ideal.exp (logit x P Q r c - rowmax x P Q r)
def logp (r : Fin 131072) (c : Fin 10) : EReal := (logit x P Q r c - rowmax x P Q r) - Ideal.log (denom x P Q r)
/-- What the one-hot picks of row `r`'s log-probabilities. -/
def sel (r : Fin 131072) : EReal := ∑ c : Fin 10, logp x P Q r c * oh l r c

/-- Row `q` of block `i` of half `j`, when the rows are cut into 2 halves of 32 blocks of 2048. -/
def row1 (j : Fin 2) (i : Fin 32) (q : Fin 2048) : Fin 131072 :=
  ⟨2048 * (32 * j.val + i.val) + q.val, by have := j.isLt; have := i.isLt; have := q.isLt; omega⟩

/-- One half's share of the loss sum: block after block, minus the block's picked log-probabilities. -/
def coreLoss (j : Fin 2) : EReal := ∑ i : Fin 32, (0 - ∑ q : Fin 2048, sel x l P Q (row1 j i q))

end SecondPass

end Cert.Proto

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Math.lean ====
/- The mathematics that joins the two programs: regrouping the rows' sums by halves and blocks
   changes nothing; where every label is a class number and every feature a real number, each row's
   picked log-probability is a real number, so minus the total is the total of the minuses and the
   two spellings of the mean loss agree. -/
import proofs.«407835_j64536178589961_3_alg».proof.Proof.Spec
import proofs.«407835_j64536178589961_3_alg».proof.Proof.LibERealBatchNorm
import Mathlib.Data.Finset.Fold
import Mathlib.Analysis.SpecialFunctions.Log.Basic

noncomputable section

namespace Cert.Proto

open Idealize.ShloMosaic Cert.ERealBN
open scoped BigOperators

/-! Cutting the rows into halves and blocks is a bijection, so a sum over all rows may be taken
    half by half, block by block. -/

/-- The rows as 2 halves of 16 blocks of 4096. -/
def rowEquiv0 : (Fin 2 × Fin 16 × Fin 4096) ≃ Fin 131072 where
  toFun p := row0 p.1 p.2.1 p.2.2
  invFun r := (⟨r.val / 65536, by have := r.isLt; omega⟩, ⟨r.val / 4096 % 16, by omega⟩,
    ⟨r.val % 4096, by omega⟩)
  left_inv := by
    rintro ⟨j, i, q⟩
    have := j.isLt; have := i.isLt; have := q.isLt
    refine Prod.ext (Fin.ext ?_) (Prod.ext (Fin.ext ?_) (Fin.ext ?_)) <;> simp only [row0] <;> omega
  right_inv := by
    intro r
    have := r.isLt
    refine Fin.ext ?_
    simp only [row0]
    omega

/-- The rows as 2 halves of 32 blocks of 2048. -/
def rowEquiv1 : (Fin 2 × Fin 32 × Fin 2048) ≃ Fin 131072 where
  toFun p := row1 p.1 p.2.1 p.2.2
  invFun r := (⟨r.val / 65536, by have := r.isLt; omega⟩, ⟨r.val / 2048 % 32, by omega⟩,
    ⟨r.val % 2048, by omega⟩)
  left_inv := by
    rintro ⟨j, i, q⟩
    have := j.isLt; have := i.isLt; have := q.isLt
    refine Prod.ext (Fin.ext ?_) (Prod.ext (Fin.ext ?_) (Fin.ext ?_)) <;> simp only [row1] <;> omega
  right_inv := by
    intro r
    have := r.isLt
    refine Fin.ext ?_
    simp only [row1]
    omega

theorem sum_row0 {M : Type*} [AddCommMonoid M] (f : Fin 131072 → M) :
    ∑ j : Fin 2, ∑ i : Fin 16, ∑ q : Fin 4096, f (row0 j i q) = ∑ r : Fin 131072, f r := by
  rw [← Equiv.sum_comp rowEquiv0 f, Fintype.sum_prod_type]
  refine Finset.sum_congr rfl (fun j _ => ?_)
  rw [Fintype.sum_prod_type]
  rfl

theorem sum_row1 {M : Type*} [AddCommMonoid M] (f : Fin 131072 → M) :
    ∑ j : Fin 2, ∑ i : Fin 32, ∑ q : Fin 2048, f (row1 j i q) = ∑ r : Fin 131072, f r := by
  rw [← Equiv.sum_comp rowEquiv1 f, Fintype.sum_prod_type]
  refine Finset.sum_congr rfl (fun j _ => ?_)
  rw [Fintype.sum_prod_type]
  rfl

variable (x : Fin 131072 → Fin 512 → EReal) (l : Fin 131072 → BitVec 32)
variable (P : Fin 10 → Fin 512 → EReal) (Q : Fin 10 → EReal)

/-- The two halves' block-by-block sums, added from zero, are the per-class sums over all rows. -/
theorem coreSums_total (c : Fin 10) (k : Fin 512) : 0 + ∑ j : Fin 2, coreSums x l j c k = sums x l c k := by
  rw [zero_add]
  exact sum_row0 (fun r => oh l r c * x r k)

/-- The same for the counts. -/
theorem coreCounts_total (c : Fin 10) : 0 + ∑ j : Fin 2, coreCounts l j c = counts l c := by
  rw [zero_add]
  exact sum_row0 (fun r => oh l r c)

/-- Two class numbers with the same 32-bit spelling are the same class. -/
theorem ofNat_class_inj {c c' : Fin 10} (h : BitVec.ofNat 32 c'.val = BitVec.ofNat 32 c.val) : c' = c := by
  have h2 := congrArg BitVec.toNat h
  simp only [BitVec.toNat_ofNat] at h2
  have := c.isLt; have := c'.isLt
  exact Fin.ext (by omega)

/-- A row's one-hot picks the log-probability of its own class. -/
theorem sel_eq_logp (r : Fin 131072) (c : Fin 10) (hc : BitVec.ofNat 32 c.val = l r) :
    sel x l P Q r = logp x P Q r c := by
  unfold sel
  rw [Finset.sum_eq_single c]
  · rw [oh, if_pos hc, mul_one]
  · intro c' _ hne
    have hne' : ¬ BitVec.ofNat 32 c'.val = l r := fun h => hne (ofNat_class_inj (h.trans hc.symm))
    rw [oh, if_neg hne', mul_zero]
  · intro h
    exact absurd (Finset.mem_univ c) h

/-- A label that is a class number names a class. -/
theorem LabOk.cls {l : Fin 131072 → BitVec 32} (hl : LabOk l) (r : Fin 131072) : ∃ c : Fin 10, BitVec.ofNat 32 c.val = l r := by
  obtain ⟨h0, h1⟩ := hl r
  have hlt := (l r).isLt
  have h10 : (l r).toNat < 10 := by
    rw [BitVec.toInt_eq_toNat_cond] at h0 h1
    split at h0 <;> omega
  exact ⟨⟨(l r).toNat, h10⟩, by simp⟩

/-- The running maximum already dominates the value it starts from. -/
theorem rowmax_absorb (r : Fin 131072) : max negInf (rowmax x P Q r) = rowmax x P Q r :=
  max_eq_right ((Finset.le_fold_max _).mpr (Or.inl le_rfl))

/-! The float constants the programs spell, as the extended reals their patterns denote. -/

theorem two_eq : two = ((2 : ℝ) : EReal) := by
  unfold two
  simp [Ideal.ofBits, Ideal.ieee, -EReal.coe_mul]; norm_num

theorem negInf_eq : negInf = ⊥ := by
  unfold negInf
  simp [Ideal.ofBits, Ideal.ieee]

theorem nRows_eq : nRows = ((131072 : ℝ) : EReal) := by
  unfold nRows
  simp [Ideal.ofBits, Ideal.ieee, -EReal.coe_mul]; norm_num

/-- An extended real between two real numbers is a real number. -/
theorem isReal_of_between {t : EReal} {a b : ℝ} (h1 : (a : EReal) ≤ t) (h2 : t ≤ (b : EReal)) : IsReal t := by
  refine ⟨t.toReal, (EReal.coe_toReal ?_ ?_).symm⟩
  · intro h
    rw [h] at h2
    exact absurd h2 (not_le.mpr (EReal.coe_lt_top b))
  · intro h
    rw [h] at h1
    exact absurd h1 (not_le.mpr (EReal.bot_lt_coe a))

/-! The first pass: a class that some row carries has a positive count, so its mean is a real vector. -/

/-- The one-hot entries are real numbers. -/
theorem oh_isReal (r : Fin 131072) (c : Fin 10) : IsReal (oh l r c) := by
  unfold oh
  split
  · exact ⟨1, EReal.coe_one.symm⟩
  · exact IsReal.zero

/-- The count of a class that some row carries is a positive real number. -/
theorem counts_pos_real (c : Fin 10) (r0 : Fin 131072) (h0 : BitVec.ofNat 32 c.val = l r0) :
    ∃ n : ℝ, 0 < n ∧ counts l c = (n : EReal) := by
  refine ⟨∑ r : Fin 131072, (if BitVec.ofNat 32 c.val = l r then (1 : ℝ) else 0), ?_, ?_⟩
  · refine Finset.sum_pos' (fun r _ => ?_) ⟨r0, Finset.mem_univ r0, ?_⟩
    · split
      · exact zero_le_one
      · exact le_rfl
    · rw [if_pos h0]
      exact one_pos
  · unfold counts
    rw [← coe_sum]
    refine Finset.sum_congr rfl (fun r _ => ?_)
    unfold oh
    split
    · exact EReal.coe_one.symm
    · exact EReal.coe_zero.symm

/-- The mean of a class that some row carries is a real vector. -/
theorem proto_isReal (hx : ∀ r k, IsReal (x r k)) (c : Fin 10) (r0 : Fin 131072)
    (h0 : BitVec.ofNat 32 c.val = l r0) (k : Fin 512) : IsReal (proto x l c k) := by
  obtain ⟨n, hn, hcn⟩ := counts_pos_real l c r0 h0
  unfold proto
  rw [hcn]
  refine IsReal.div_coe ?_ hn.ne'
  unfold sums
  exact IsReal.sum _ _ (fun r _ => IsReal.mul (oh_isReal l r c) (hx r k))

/-- Its squared norm is a real number. -/
theorem sqp_isReal (hx : ∀ r k, IsReal (x r k)) (c : Fin 10) (r0 : Fin 131072)
    (h0 : BitVec.ofNat 32 c.val = l r0) : IsReal (sqp x l c) := by
  unfold sqp
  exact IsReal.sum _ _ (fun k _ => IsReal.mul (proto_isReal x l hx c r0 h0 k) (proto_isReal x l hx c r0 h0 k))

/-! The second pass, at any prototypes: every logit is at most zero; where one logit of a row is a real
    number, so are the row maximum, the sum of the shifted exponentials (which is positive), and that
    class's log-probability. -/

/-- Minus a distance clamped at zero is at most zero. -/
theorem logit_nonpos (r : Fin 131072) (c : Fin 10) : logit x P Q r c ≤ 0 := by
  unfold logit dist
  rw [EReal.neg_le, neg_zero]
  exact le_max_right _ _

/-- At a real prototype with a real squared norm, the logit of a real row is a real number. -/
theorem logit_isReal (hx : ∀ r k, IsReal (x r k)) (r : Fin 131072) (c : Fin 10)
    (hP : ∀ k, IsReal (P c k)) (hQ : IsReal (Q c)) : IsReal (logit x P Q r c) := by
  unfold logit dist
  have h1 : IsReal (sqe x r) := IsReal.sum _ _ (fun k _ => IsReal.mul (hx r k) (hx r k))
  have h2 : IsReal (cross x P r c) := IsReal.sum _ _ (fun k _ => IsReal.mul (hx r k) (hP k))
  have h3 : IsReal two := ⟨2, two_eq⟩
  obtain ⟨d, hd⟩ := IsReal.max (IsReal.sub (IsReal.add h1 hQ) (IsReal.mul h3 h2)) IsReal.zero
  rw [hd]
  exact ⟨-d, (EReal.coe_neg d).symm⟩

theorem rowmax_nonpos (r : Fin 131072) : rowmax x P Q r ≤ 0 := by
  unfold rowmax
  rw [Finset.fold_max_le]
  refine ⟨?_, fun c _ => logit_nonpos x P Q r c⟩
  rw [negInf_eq]
  exact bot_le

theorem logit_le_rowmax (r : Fin 131072) (c : Fin 10) : logit x P Q r c ≤ rowmax x P Q r :=
  (Finset.le_fold_max _).mpr (Or.inr ⟨c, Finset.mem_univ c, le_rfl⟩)

/-- A row with one real logit has a real maximum: it lies between that logit and zero. -/
theorem rowmax_isReal (r : Fin 131072) (c : Fin 10) (h : IsReal (logit x P Q r c)) :
    IsReal (rowmax x P Q r) := by
  obtain ⟨a, ha⟩ := h
  have h1 := logit_le_rowmax x P Q r c
  rw [ha] at h1
  have h2 := rowmax_nonpos x P Q r
  rw [← EReal.coe_zero] at h2
  exact isReal_of_between h1 h2

/-- The exponential of an extended real at most zero is a nonnegative real number. -/
theorem exp_nonneg_real {t : EReal} (ht : t ≤ 0) : ∃ e : ℝ, 0 ≤ e ∧ Ideal.exp t = (e : EReal) := by
  induction t using EReal.rec with
  | bot => exact ⟨0, le_rfl, by rw [Ideal.exp_bot, EReal.coe_zero]⟩
  | top => exact absurd ht (not_le.mpr EReal.zero_lt_top)
  | coe a => exact ⟨Real.exp a, (Real.exp_pos a).le, Ideal.exp_coe a⟩

theorem shifted_nonpos (r : Fin 131072) (c : Fin 10) : logit x P Q r c - rowmax x P Q r ≤ 0 :=
  EReal.sub_nonpos.mpr (logit_le_rowmax x P Q r c)

/-- The sum of the shifted exponentials of a row with one real logit is a positive real number. -/
theorem denom_pos_real (r : Fin 131072) (c : Fin 10) (h : IsReal (logit x P Q r c)) :
    ∃ D : ℝ, 0 < D ∧ denom x P Q r = (D : EReal) := by
  have he : ∀ c' : Fin 10, ∃ e : ℝ, 0 ≤ e ∧ Ideal.exp (logit x P Q r c' - rowmax x P Q r) = (e : EReal) :=
    fun c' => exp_nonneg_real (shifted_nonpos x P Q r c')
  choose e he0 hee using he
  obtain ⟨m, hm⟩ := rowmax_isReal x P Q r c h
  obtain ⟨a, ha⟩ := h
  refine ⟨∑ c' : Fin 10, e c', ?_, ?_⟩
  · refine Finset.sum_pos' (fun c' _ => he0 c') ⟨c, Finset.mem_univ c, ?_⟩
    have h3 := hee c
    rw [ha, hm, ← EReal.coe_sub, Ideal.exp_coe] at h3
    have h4 : Real.exp (a - m) = e c := by exact_mod_cast h3
    rw [← h4]
    exact Real.exp_pos _
  · unfold denom
    rw [← coe_sum]
    exact Finset.sum_congr rfl (fun c' _ => hee c')

/-- The log-probability of a class whose logit is a real number is a real number. -/
theorem logp_isReal (r : Fin 131072) (c : Fin 10) (h : IsReal (logit x P Q r c)) :
    IsReal (logp x P Q r c) := by
  obtain ⟨D, hD, hDe⟩ := denom_pos_real x P Q r c h
  have hm := rowmax_isReal x P Q r c h
  unfold logp
  rw [hDe, Ideal.log_coe, if_neg (not_le.mpr hD)]
  exact IsReal.sub (IsReal.sub h hm) (IsReal.coe _)

/-- With real features and labels that are class numbers, what each row's one-hot picks is a real number. -/
theorem sel_isReal (hx : ∀ r k, IsReal (x r k)) (hl : LabOk l) (r : Fin 131072) :
    IsReal (sel x l (proto x l) (sqp x l) r) := by
  obtain ⟨c, hc⟩ := hl.cls r
  rw [sel_eq_logp x l _ _ r c hc]
  exact logp_isReal x _ _ r c (logit_isReal x _ _ hx r c (fun k => proto_isReal x l hx c r hc k)
    (sqp_isReal x l hx c r hc))

/-- The two spellings of the mean loss: the halves' block-by-block sums of the negated picks, divided by the
    number of rows, against minus the mean of all the picks. -/
theorem loss_total (hx : ∀ r k, IsReal (x r k)) (hl : LabOk l) :
    Ideal.div (0 + ∑ j : Fin 2, coreLoss x l (proto x l) (sqp x l) j) nRows
      = -(Ideal.div (0 + ∑ r : Fin 131072, sel x l (proto x l) (sqp x l) r) nRows) := by
  have hsel := sel_isReal x l hx hl
  choose s hs using hsel
  have hL : ∑ j : Fin 2, coreLoss x l (proto x l) (sqp x l) j = ((-(∑ r : Fin 131072, s r) : ℝ) : EReal) := by
    unfold coreLoss
    simp_rw [hs, coe_sum, zero_sub, ← EReal.coe_neg, coe_sum]
    congr 1
    rw [← sum_row1 s]
    simp only [Finset.sum_neg_distrib]
  have hR : ∑ r : Fin 131072, sel x l (proto x l) (sqp x l) r = ((∑ r : Fin 131072, s r : ℝ) : EReal) := by
    simp_rw [hs]
    exact coe_sum _ _
  have h0 : (131072 : ℝ) ≠ 0 := by norm_num
  rw [hL, hR, nRows_eq, zero_add, zero_add, Ideal.div_coe h0, Ideal.div_coe h0, ← EReal.coe_mul,
    ← EReal.coe_mul, ← EReal.coe_neg, neg_mul]

end Cert.Proto

end
-- ==== Proof.PreDecode.lean ====
/- What the precondition says of the two arguments: every feature is a real number (its absolute value is below
   plus infinity), and every label, read signed, lies from 0 to 9. -/
import proofs.«407835_j64536178589961_3_alg».proof.Proof.Spec
import proofs.«407835_j64536178589961_3_alg».proof.Proof.LibERealBatchNorm
import proofs.«407835_j64536178589961_3_alg».proof.Pre_finite_inputs
import Idealize.ShloMosaic.Lib.ReduceAll
import Idealize.ShloMosaic.Lib.ValueIdx
import Idealize.ShloMosaic.Lib.Affine
import Idealize.ShloMosaic.Lib.StableHlo.Predicate
import Idealize.ShloMosaic.PureOps.Ideal.Laws

noncomputable section

namespace Cert.PreDecode

open Idealize.ShloMosaic Idealize.ShloMosaic.ValueIdx

/-- The scalar shape has one index. -/
instance : Subsingleton Cert.Pre_finite_inputs.S_.Idx := ⟨fun a b => funext fun d => d.elim0⟩

/-- The pattern the precondition compares against denotes plus infinity. -/
theorem ofBits_posInf : Ideal.ofBits .f32 0x7F800000#32 = ⊤ := by
  simp [Ideal.ofBits, Ideal.ieee]

/-- An extended real whose absolute value is below plus infinity is a real number. -/
theorem isReal_of_abs_lt_top (a : EReal)
    (h : Ideal.cmp .olt (max a (-a)) (Ideal.ofBits .f32 0x7F800000#32) = 1#1) : Cert.ERealBN.IsReal a := by
  rw [ofBits_posInf] at h
  induction a using EReal.rec with
  | bot => simp [Ideal.cmp] at h
  | top => simp [Ideal.cmp] at h
  | coe r => exact ⟨r, rfl⟩

variable [Cert.Pre_finite_inputs.Facts]

theorem decode (x0 : FVec Ideal Cert.Pre_finite_inputs.S131072x512 .f32) (x1 : IVec Cert.Pre_finite_inputs.S131072 32)
    (h : Cert.Pre_finite_inputs.fn (F := Ideal) x0 x1 = fun _ => 1#1) :
    (∀ (r : Fin 131072) (k : Fin 512), Cert.ERealBN.IsReal (x0 (ix2 r k)))
      ∧ Cert.Proto.LabOk (fun r => x1 (ix1 r)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun r k => ?_, fun r => ⟨?_, ?_⟩⟩
  · have e := Host.reduce_andi_all _ _ _ _ _ h1 (ix2 r k)
    exact isReal_of_abs_lt_top _ e
  · have e := Host.reduce_andi_all _ _ _ _ _ h2 (ix1 r)
    have e' : IntOp.cmpi .sge (x1 (ix1 r)) 0#32 = 1#1 := e
    rw [IntOp.cmpi_sge] at e'
    have z : (0#32 : BitVec 32).toInt = 0 := by decide
    rw [z] at e'
    exact e'
  · have e := Host.reduce_andi_all _ _ _ _ _ h3 (ix1 r)
    have e' : IntOp.cmpi .slt (x1 (ix1 r)) 10#32 = 1#1 := e
    rw [IntOp.cmpi_slt] at e'
    have z : (10#32 : BitVec 32).toInt = 10 := by decide
    rw [z] at e'
    exact e'

end Cert.PreDecode

end
-- ==== Proof.Region0.lean ====
/- The first tiled pass, read as values: each half of the grid walks its 16 blocks of 4096 rows, and what it
   leaves in its slot of the two result arrays is that half's share of the per-class sums and counts. -/
import proofs.«407835_j64536178589961_3_alg».proof.Proof.Spec
import proofs.«407835_j64536178589961_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from a half's first block the sums slot is left at what it held plus the block's product. -/
theorem pieceB2 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x10x512 .f32) (h4 : a4.IsWhole)
    (a5 : Memref sig .tc .vmem S1x1x10 .f32) (h5 : a5.IsWhole) (hc : ¬cond0_0 i)
    (x0 : Vec F S4096x512 .f32) (x1 : Vec F S4096x1 .i32) (xo2 : Vec F S1x10x512 .f32) (xo3 : Vec F S1x1x10 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread,
    View.ld_unit_zero (S := S4096x512) hz2, View.ld_unit_zero (S := S4096x1) hz2, View.ld_unit_zero (S := S1x10x512) hz3]

/-- Away from a half's first block the counts slot is left at what it held plus the block's column sums. -/
theorem pieceB3 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x10x512 .f32) (h4 : a4.IsWhole)
    (a5 : Memref sig .tc .vmem S1x1x10 .f32) (h5 : a5.IsWhole) (hc : ¬cond0_0 i)
    (x0 : Vec F S4096x512 .f32) (x1 : Vec F S4096x1 .i32) (xo2 : Vec F S1x10x512 .f32) (xo3 : Vec F S1x1x10 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread,
    View.ld_unit_zero (S := S4096x1) hz2, View.ld_unit_zero (S := S1x1x10) hz3]

/-- At a half's first block the sums slot is zeroed, read back, and left at zero plus the block's product. -/
theorem pieceA2 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x10x512 .f32) (h4 : a4.IsWhole)
    (a5 : Memref sig .tc .vmem S1x1x10 .f32) (h5 : a5.IsWhole) (hc : cond0_0 i)
    (x0 : Vec F S4096x512 .f32) (x1 : Vec F S4096x1 .i32) :
    out0_A_2 c i a2 h2 a3 h3 a4 h4 a5 h5 hc x0 x1 = k0_pay4 x1 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x10x512) hz3, View.readCov_unit_zero (S := S1x10x512) _ hz3]
  simp only [View.readAt_eq_ld, h2.read_unread, h3.read_unread,
    View.ld_unit_zero (S := S4096x512) hz2, View.ld_unit_zero (S := S4096x1) hz2]

/-- At a half's first block the counts slot is zeroed, read back, and left at zero plus the block's column sums. -/
theorem pieceA3 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x10x512 .f32) (h4 : a4.IsWhole)
    (a5 : Memref sig .tc .vmem S1x1x10 .f32) (h5 : a5.IsWhole) (hc : cond0_0 i)
    (x0 : Vec F S4096x512 .f32) (x1 : Vec F S4096x1 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x10) hz3, View.readCov_unit_zero (S := S1x1x10) _ hz3]
  simp only [View.readAt_eq_ld, h3.read_unread, View.ld_unit_zero (S := S4096x1) hz2]

end Pieces

section AtIdeal

/-- A column broadcast along the lanes reads the column's entry of the same row. -/
theorem bcast_col {α : Type} (v : S4096x1.Idx → α) (h : S4096x1.Broadcasts S4096x10) (q : Fin 4096) (cl : Fin 10) :
    broadcastTo S4096x10 v h (ix2 q cl) = v (ix2 q (0 : Fin 1)) := by
  refine broadcastTo_apply v h (ix2 q cl) (ix2 q (0 : Fin 1)) fun ax => ?_
  match ax with
  | ⟨0, _⟩ => rfl
  | ⟨1, _⟩ => rfl

/-- The bit of an equality test, widened and read as a number, is 1 or 0. -/
theorem bit_val (x y : BitVec 32) :
    (FloatOps.sitofp (F := Ideal) .f32 ((IntOp.cmpi .eq x y).setWidth 32) : EReal) = if x = y then 1 else 0 := by
  by_cases h : x = y
  · subst h
    rw [if_pos rfl]
    have e : (IntOp.cmpi .eq x x).setWidth 32 = 1#32 := by simp [IntOp.cmpi]
    rw [e]
    show (((1#32 : BitVec 32).toInt : ℝ) : EReal) = 1
    norm_num
  · rw [if_neg h]
    have hb : (x == y) = false := beq_eq_false_iff_ne.mpr h
    have e : (IntOp.cmpi .eq x y).setWidth 32 = 0#32 := by simp [IntOp.cmpi, hb]
    rw [e]
    show (((0#32 : BitVec 32).toInt : ℝ) : EReal) = 0
    norm_num

/-- The one-hot block at row `q`, class `cl`: 1 where the row's label is the class, else 0. -/
theorem onehot_apply (v3 : Vec Ideal S4096x1 .i32) (q : Fin 4096) (cl : Fin 10) :
    k0_pay3 (F := Ideal) v3 (ix2 q cl) = if BitVec.ofNat 32 cl.val = v3 (ix2 q (0 : Fin 1)) then 1 else 0 := by
  unfold k0_pay3
  refine Eq.trans ?_ (bit_val (BitVec.ofNat 32 cl.val) (v3 (ix2 q (0 : Fin 1))))
  show FloatOps.sitofp (F := Ideal) .f32 ((IntOp.cmpi .eq (iota .tc S4096x10 32 [1] _ (ix2 q cl)) (broadcastTo S4096x10 (shapeCast S4096x1 v3 _) _ (ix2 q cl))).setWidth 32) = _
  rw [iota_single_apply, bcast_col, shapeCast_self]

/-- The four axis readings of the block product's operand indices. -/
theorem lhs_ax0 (j : S10x512.Idx) (q : dot_S4096x10_S4096x512_S10x512_0_0_1_1_n_n.contr.Idx) :
    (dot_S4096x10_S4096x512_S10x512_0_0_1_1_n_n.lhsIdx j q 0).val = (q ⟨0, by decide⟩).val :=
  dot_S4096x10_S4096x512_S10x512_0_0_1_1_n_n.lhsIdx_val_of_single rfl j q
theorem lhs_ax1 (j : S10x512.Idx) (q : dot_S4096x10_S4096x512_S10x512_0_0_1_1_n_n.contr.Idx) :
    (dot_S4096x10_S4096x512_S10x512_0_0_1_1_n_n.lhsIdx j q 1).val = (j 0).val := by
  unfold DotDims.lhsIdx
  rw [dif_neg (show ¬(1 : Fin S4096x10.rank) ∈ dot_S4096x10_S4096x512_S10x512_0_0_1_1_n_n.lhsBatch by decide), dif_pos (show (1 : Fin S4096x10.rank) ∈ dot_S4096x10_S4096x512_S10x512_0_0_1_1_n_n.lhsNonContracting by decide)]
  rfl
theorem rhs_ax0 (j : S10x512.Idx) (q : dot_S4096x10_S4096x512_S10x512_0_0_1_1_n_n.contr.Idx) :
    (dot_S4096x10_S4096x512_S10x512_0_0_1_1_n_n.rhsIdx j q 0).val = (q ⟨0, by decide⟩).val :=
  dot_S4096x10_S4096x512_S10x512_0_0_1_1_n_n.rhsIdx_val_of_single rfl j q
theorem rhs_ax1 (j : S10x512.Idx) (q : dot_S4096x10_S4096x512_S10x512_0_0_1_1_n_n.contr.Idx) :
    (dot_S4096x10_S4096x512_S10x512_0_0_1_1_n_n.rhsIdx j q 1).val = (j 1).val := by
  unfold DotDims.rhsIdx
  rw [dif_neg (show ¬(1 : Fin S4096x512.rank) ∈ dot_S4096x10_S4096x512_S10x512_0_0_1_1_n_n.rhsBatch by decide), dif_pos (show (1 : Fin S4096x512.rank) ∈ dot_S4096x10_S4096x512_S10x512_0_0_1_1_n_n.rhsNonContracting by decide)]
  rfl

/-- The block product into the zero accumulator at class `cl`, feature `k`: the sum over the block's rows. -/
theorem matmul_at (L : FVec Ideal S4096x10 .f32) (R : FVec Ideal S4096x512 .f32) (cl : Fin 10) (k : Fin 512) :
    matmul dot_S4096x10_S4096x512_S10x512_0_0_1_1_n_n none L R (constant (F := Ideal) S10x512 .f32 0x00000000#32) (ix2 cl k)
      = ∑ q : Fin 4096, L (ix2 q cl) * R (ix2 q k) := by
  simp only [matmul]
  rw [Ideal.matmul_constant_zero_apply, ← Equiv.sum_comp (contrEquiv1 dot_S4096x10_S4096x512_S10x512_0_0_1_1_n_n 4096 rfl rfl).symm]
  refine Finset.sum_congr rfl fun q _ => ?_
  have hk := contrEquiv1_symm_val dot_S4096x10_S4096x512_S10x512_0_0_1_1_n_n 4096 rfl rfl q
  have el : dot_S4096x10_S4096x512_S10x512_0_0_1_1_n_n.lhsIdx (ix2 cl k) ((contrEquiv1 dot_S4096x10_S4096x512_S10x512_0_0_1_1_n_n 4096 rfl rfl).symm q) = ix2 q cl := funext fun a => Fin.ext (by
    match a with
    | ⟨0, _⟩ => exact (lhs_ax0 _ _).trans hk
    | ⟨1, _⟩ => exact lhs_ax1 _ _)
  have er : dot_S4096x10_S4096x512_S10x512_0_0_1_1_n_n.rhsIdx (ix2 cl k) ((contrEquiv1 dot_S4096x10_S4096x512_S10x512_0_0_1_1_n_n 4096 rfl rfl).symm q) = ix2 q k := funext fun a => Fin.ext (by
    match a with
    | ⟨0, _⟩ => exact (rhs_ax0 _ _).trans hk
    | ⟨1, _⟩ => exact rhs_ax1 _ _)
  rw [el, er]

/-- The source index of a sum down the rows: row `q` of column `cl`. -/
theorem lift_rows (h : S4096x10.Reduces [0] S10) (cl : Fin 10) (q : Fin 4096) : h.lift (ix1 cl) q = ix2 q cl :=
  funext fun a => Fin.ext (by
    match a with
    | ⟨0, _⟩ => rfl
    | ⟨1, _⟩ => rfl)

/-- The sum down the rows of a block at column `cl`. -/
theorem colsum_at (X : FVec Ideal S4096x10 .f32) (h : S4096x10.Reduces [0] S10) (hφ : FKind.Formats .f32)
    (hacc : (0x00000000#32 : BitVec 32) = FKind.add.neutral .f32 hφ) (cl : Fin 10) :
    multiReduction (F := Ideal) .add [0] S10 X 0x00000000#32 h hφ hacc (ix1 cl) = ∑ q : Fin 4096, X (ix2 q cl) := by
  refine (Ideal.multiReduction_add_single X _ h hφ hacc (ix1 cl)).trans ?_
  refine Finset.sum_congr rfl fun q _ => ?_
  exact congrArg X (lift_rows h cl q)

/-- What the sums slot is left at, entry by entry: what it held plus the block's one-hot-weighted row sum. -/
theorem pay4_apply (v3 : Vec Ideal S4096x1 .i32) (v10 : Vec Ideal S4096x512 .f32) (v12 : Vec Ideal S1x10x512 .f32)
    (u : Fin 1) (cl : Fin 10) (k : Fin 512) :
    k0_pay4 (F := Ideal) v3 v10 v12 (ix3 u cl k)
      = v12 (ix3 (0 : Fin 1) cl k)
        + ∑ q : Fin 4096, (if BitVec.ofNat 32 cl.val = v3 (ix2 q (0 : Fin 1)) then (1 : EReal) else 0) * v10 (ix2 q k) := by
  unfold k0_pay4
  refine (shapeCast_ab_1ab_apply _ _ u cl k).trans ?_
  show shapeCast S10x512 v12 _ (ix2 cl k) + matmul dot_S4096x10_S4096x512_S10x512_0_0_1_1_n_n none (k0_pay3 (F := Ideal) v3) v10 (constant (F := Ideal) S10x512 .f32 0x00000000#32) (ix2 cl k) = _
  rw [shapeCast_1ab_ab_apply, matmul_at]
  refine congrArg (v12 (ix3 (0 : Fin 1) cl k) + ·) (Finset.sum_congr rfl fun q _ => ?_)
  rw [onehot_apply]

/-- What the counts slot is left at, entry by entry: what it held plus the block's one-hot column sum. -/
theorem pay5_apply (v3 : Vec Ideal S4096x1 .i32) (v18 : Vec Ideal S1x1x10 .f32) (u u' : Fin 1) (cl : Fin 10) :
    k0_pay5 (F := Ideal) v3 v18 (ix3 u u' cl)
      = v18 (ix3 (0 : Fin 1) u' cl)
        + ∑ q : Fin 4096, (if BitVec.ofNat 32 cl.val = v3 (ix2 q (0 : Fin 1)) then (1 : EReal) else 0) := by
  unfold k0_pay5
  refine (shapeCast_ab_1ab_apply _ _ u u' cl).trans ?_
  show shapeCast S1x10 v18 _ (ix2 u' cl) + shapeCast S1x10 (multiReduction (F := Ideal) .add [0] S10 (k0_pay3 (F := Ideal) v3) 0x00000000#32 _ _ _) _ (ix2 u' cl) = _
  rw [shapeCast_1ab_ab_apply, shapeCast_a_1a_apply]
  refine congrArg (v18 (ix3 (0 : Fin 1) u' cl) + ·) ?_
  refine (colsum_at (k0_pay3 (F := Ideal) v3) _ _ _ cl).trans ?_
  refine Finset.sum_congr rfl fun q _ => ?_
  rw [onehot_apply]

/-- The zero blocks the reset stores read 0 everywhere. -/
theorem pay1_apply (i : S1x10x512.Idx) : k0_pay1 (F := Ideal) i = 0 := by
  unfold k0_pay1
  obtain ⟨u, cl, k, rfl⟩ : ∃ (u : Fin 1) (cl : Fin 10) (k : Fin 512), i = ix3 u cl k := ⟨i 0, i 1, i 2, eq_ix3 i⟩
  refine (shapeCast_ab_1ab_apply _ _ u cl k).trans ?_
  exact Ideal.ofBits_zero_f32
theorem pay2_apply (i : S1x1x10.Idx) : k0_pay2 (F := Ideal) i = 0 := by
  unfold k0_pay2
  obtain ⟨u, u', cl, rfl⟩ : ∃ (u u' : Fin 1) (cl : Fin 10), i = ix3 u u' cl := ⟨i 0, i 1, i 2, eq_ix3 i⟩
  refine (shapeCast_ab_1ab_apply _ _ u u' cl).trans ?_
  exact Ideal.ofBits_zero_f32

end AtIdeal

variable (V : (c : Dev nD) → (b : Ref sig .tc) → Buf (Elt Ideal) ((c : Thread nD τ).loc b))

/-- The features and the label column as the first pass finds them. -/
abbrev feat (c : Dev nD) : Fin 131072 → Fin 512 → EReal := fun r k => V c main_arg0 (ix2 r k)
abbrev labc (c : Dev nD) : Fin 131072 → BitVec 32 := fun r => V c main_v0 (ix2 r 0)

/-- Where each window sits at point `t`: the inputs at block `t`, the two result slots at half `t / 16`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- Row `q` of block `b` of 4096 rows. -/
def rowAt (b q : ℕ) : Fin 131072 := ⟨(4096 * b + q) % 131072, Nat.mod_lt _ (by norm_num)⟩

/-- The feature block and the label block at point `t`, at their literal types. -/
abbrev eblk (c : Dev nD) (t : Fin cfg0.N) : Vec Ideal S4096x512 .f32 := iblk0 V c 0 t
abbrev lblk (c : Dev nD) (t : Fin cfg0.N) : Vec Ideal S4096x1 .i32 := iblk0 V c 1 t

/-- The feature block at point `t` reads the features' rows `4096 t + q`. -/
theorem eblk_apply (c : Dev nD) (t : Fin cfg0.N) (q : Fin 4096) (k : Fin 512) :
    eblk V c t (ix2 q k) = feat V c (rowAt t.val q.val) k := by
  obtain ⟨e0, e1, -⟩ := idx_facts t
  have hN : t.val < 32 := lt_of_lt_of_eq t.isLt N_0
  show V c main_arg0 (((cfg0.win 0).blk t).view.emb (ix2 q k)) = V c main_arg0 (ix2 (rowAt t.val q.val) k)
  refine congrArg (V c main_arg0) (funext fun a => Fin.ext ?_)
  match a with
  | ⟨0, _⟩ =>
    show win0_0.index t (0 : Fin 2) * 4096 + 1 * q.val = (4096 * t.val + q.val) % 131072
    rw [e0]; have := q.isLt; omega
  | ⟨1, _⟩ =>
    show win0_0.index t (1 : Fin 2) * 512 + 1 * k.val = k.val
    rw [e1]; omega

/-- The label block at point `t` reads the labels of rows `4096 t + q`. -/
theorem lblk_apply (c : Dev nD) (t : Fin cfg0.N) (q : Fin 4096) :
    lblk V c t (ix2 q (0 : Fin 1)) = labc V c (rowAt t.val q.val) := by
  obtain ⟨-, -, e0, e1, -⟩ := idx_facts t
  have hN : t.val < 32 := lt_of_lt_of_eq t.isLt N_0
  show V c main_v0 (((cfg0.win 1).blk t).view.emb (ix2 q (0 : Fin 1))) = V c main_v0 (ix2 (rowAt t.val q.val) (0 : Fin 1))
  refine congrArg (V c main_v0) (funext fun a => Fin.ext ?_)
  match a with
  | ⟨0, _⟩ =>
    show win0_1.index t (0 : Fin 2) * 4096 + 1 * q.val = (4096 * t.val + q.val) % 131072
    rw [e0]; have := q.isLt; omega
  | ⟨1, _⟩ =>
    show win0_1.index t (1 : Fin 2) * 1 + 1 * 0 = 0
    rw [e1]

/-- Block `b`'s share of a class's feature sum and of its count. -/
def term2 (c : Dev nD) (b : ℕ) (cl : Fin 10) (k : Fin 512) : EReal :=
  ∑ q : Fin 4096, Cert.Proto.oh (labc V c) (rowAt b q.val) cl * feat V c (rowAt b q.val) k
def term3 (c : Dev nD) (b : ℕ) (cl : Fin 10) : EReal :=
  ∑ q : Fin 4096, Cert.Proto.oh (labc V c) (rowAt b q.val) cl

/-- At point `t` the sums slot is left at what it held plus block `t`'s share. -/
theorem pay4_pt (c : Dev nD) (t : Fin cfg0.N) (acc : Vec Ideal S1x10x512 .f32) (u : Fin 1) (cl : Fin 10) (k : Fin 512) :
    k0_pay4 (F := Ideal) (lblk V c t) (eblk V c t) acc (ix3 u cl k) = acc (ix3 (0 : Fin 1) cl k) + term2 V c t.val cl k := by
  refine (pay4_apply (lblk V c t) (eblk V c t) acc u cl k).trans ?_
  refine congrArg (acc (ix3 (0 : Fin 1) cl k) + ·) (Finset.sum_congr rfl fun q _ => ?_)
  rw [eblk_apply, lblk_apply]
  rfl

/-- At point `t` the counts slot is left at what it held plus block `t`'s share. -/
theorem pay5_pt (c : Dev nD) (t : Fin cfg0.N) (acc : Vec Ideal S1x1x10 .f32) (u u' : Fin 1) (cl : Fin 10) :
    k0_pay5 (F := Ideal) (lblk V c t) acc (ix3 u u' cl) = acc (ix3 (0 : Fin 1) u' cl) + term3 V c t.val cl := by
  refine (pay5_apply (lblk V c t) acc u u' cl).trans ?_
  refine congrArg (acc (ix3 (0 : Fin 1) u' cl) + ·) (Finset.sum_congr rfl fun q _ => ?_)
  rw [lblk_apply]
  rfl

/-- After point `n` the sums slot holds the shares of its half's blocks so far. -/
theorem sums_inv (c : Dev nD) : ∀ (n : ℕ) (h : n < cfg0.N) (u : Fin 1) (cl : Fin 10) (k : Fin 512),
    (outsAt0 V c n h).1 (ix3 u cl k) = ∑ b ∈ Finset.Ico (n - n % 16) (n + 1), term2 V c b cl k
  | 0, h, u, cl, k => by
    rw [outsAt0_A V c ⟨0, h⟩ rfl]
    dsimp only
    refine (congrFun (pieceA2 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk0 V c 0 ⟨0, h⟩) (iblk0 V c 1 ⟨0, h⟩)) (ix3 u cl k)).trans ?_
    refine (pay4_pt V c ⟨0, h⟩ _ u cl k).trans ?_
    rw [pay1_apply, zero_add]
    simp
  | n + 1, h, u, cl, k => by
    by_cases h0 : (n + 1) % 16 = 0
    · rw [outsAt0_A V c ⟨n + 1, h⟩ h0]
      dsimp only
      refine (congrFun (pieceA2 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) ((hcond0_0 ⟨n + 1, h⟩).mpr h0)
        (iblk0 V c 0 ⟨n + 1, h⟩) (iblk0 V c 1 ⟨n + 1, h⟩)) (ix3 u cl k)).trans ?_
      refine (pay4_pt V c ⟨n + 1, h⟩ _ u cl k).trans ?_
      rw [pay1_apply, zero_add, h0, Nat.sub_zero, Nat.Ico_succ_singleton, Finset.sum_singleton]
    · rw [outsAt0_B V c ⟨n + 1, h⟩ h0]
      dsimp only
      refine (congrFun (pieceB2 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (fun hh => h0 ((hcond0_0 ⟨n + 1, h⟩).mp hh))
        (iblk0 V c 0 ⟨n + 1, h⟩) (iblk0 V c 1 ⟨n + 1, h⟩)
        (outsAt0 V c n (Nat.lt_of_succ_lt h)).1 (outsAt0 V c n (Nat.lt_of_succ_lt h)).2) (ix3 u cl k)).trans ?_
      refine (pay4_pt V c ⟨n + 1, h⟩ _ u cl k).trans ?_
      rw [sums_inv c n (Nat.lt_of_succ_lt h) 0 cl k]
      have e : n + 1 - (n + 1) % 16 = n - n % 16 := by omega
      rw [e]
      exact (Finset.sum_Ico_succ_top (show n - n % 16 ≤ n + 1 by omega) (fun b => term2 V c b cl k)).symm

/-- After point `n` the counts slot holds the shares of its half's blocks so far. -/
theorem counts_inv (c : Dev nD) : ∀ (n : ℕ) (h : n < cfg0.N) (u u' : Fin 1) (cl : Fin 10),
    (outsAt0 V c n h).2 (ix3 u u' cl) = ∑ b ∈ Finset.Ico (n - n % 16) (n + 1), term3 V c b cl
  | 0, h, u, u', cl => by
    rw [outsAt0_A V c ⟨0, h⟩ rfl]
    dsimp only
    refine (congrFun (pieceA3 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk0 V c 0 ⟨0, h⟩) (iblk0 V c 1 ⟨0, h⟩)) (ix3 u u' cl)).trans ?_
    refine (pay5_pt V c ⟨0, h⟩ _ u u' cl).trans ?_
    rw [pay2_apply, zero_add]
    simp
  | n + 1, h, u, u', cl => by
    by_cases h0 : (n + 1) % 16 = 0
    · rw [outsAt0_A V c ⟨n + 1, h⟩ h0]
      dsimp only
      refine (congrFun (pieceA3 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) ((hcond0_0 ⟨n + 1, h⟩).mpr h0)
        (iblk0 V c 0 ⟨n + 1, h⟩) (iblk0 V c 1 ⟨n + 1, h⟩)) (ix3 u u' cl)).trans ?_
      refine (pay5_pt V c ⟨n + 1, h⟩ _ u u' cl).trans ?_
      rw [pay2_apply, zero_add, h0, Nat.sub_zero, Nat.Ico_succ_singleton, Finset.sum_singleton]
    · rw [outsAt0_B V c ⟨n + 1, h⟩ h0]
      dsimp only
      refine (congrFun (pieceB3 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (fun hh => h0 ((hcond0_0 ⟨n + 1, h⟩).mp hh))
        (iblk0 V c 0 ⟨n + 1, h⟩) (iblk0 V c 1 ⟨n + 1, h⟩)
        (outsAt0 V c n (Nat.lt_of_succ_lt h)).1 (outsAt0 V c n (Nat.lt_of_succ_lt h)).2) (ix3 u u' cl)).trans ?_
      refine (pay5_pt V c ⟨n + 1, h⟩ _ u u' cl).trans ?_
      rw [counts_inv c n (Nat.lt_of_succ_lt h) 0 u' cl]
      have e : n + 1 - (n + 1) % 16 = n - n % 16 := by omega
      rw [e]
      exact (Finset.sum_Ico_succ_top (show n - n % 16 ≤ n + 1 by omega) (fun b => term3 V c b cl)).symm

/-- Row `q` of block `16 j + i` is the specification's row of half `j`, block `i`. -/
theorem rowAt_half (j : Fin 2) (i : Fin 16) (q : Fin 4096) : rowAt (16 * j.val + i.val) q.val = Cert.Proto.row0 j i q :=
  Fin.ext (by
    show (4096 * (16 * j.val + i.val) + q.val) % 131072 = 4096 * (16 * j.val + i.val) + q.val
    have := j.isLt; have := i.isLt; have := q.isLt; omega)

/-- The shares of half `j`'s sixteen blocks add up to the half's share of the sums and of the counts. -/
theorem half_sums (c : Dev nD) (j : Fin 2) (cl : Fin 10) (k : Fin 512) :
    ∑ b ∈ Finset.Ico (16 * j.val) (16 * j.val + 16), term2 V c b cl k = Cert.Proto.coreSums (feat V c) (labc V c) j cl k := by
  rw [Finset.sum_Ico_eq_sum_range, Nat.add_sub_cancel_left, Finset.sum_range]
  unfold Cert.Proto.coreSums term2
  refine Finset.sum_congr rfl fun i _ => Finset.sum_congr rfl fun q _ => ?_
  rw [rowAt_half]
theorem half_counts (c : Dev nD) (j : Fin 2) (cl : Fin 10) :
    ∑ b ∈ Finset.Ico (16 * j.val) (16 * j.val + 16), term3 V c b cl = Cert.Proto.coreCounts (labc V c) j cl := by
  rw [Finset.sum_Ico_eq_sum_range, Nat.add_sub_cancel_left, Finset.sum_range]
  unfold Cert.Proto.coreCounts term3
  refine Finset.sum_congr rfl fun i _ => Finset.sum_congr rfl fun q _ => ?_
  rw [rowAt_half]

/-- What the two result arrays end holding, as functions of the whole arrays' coordinates. -/
abbrev G2 (c : Dev nD) : S2x10x512.Idx → EReal := fun i => Cert.Proto.coreSums (feat V c) (labc V c) (i 0) (i 1) (i 2)
abbrev G3 (c : Dev nD) : S2x1x10.Idx → EReal := fun i => Cert.Proto.coreCounts (labc V c) (i 0) (i 2)

/-- At a half's last block the sums slot, entry by entry, is the half's share, read where the slot sits in the array. -/
theorem flush_pt2 (c : Dev nD) (t : Fin cfg0.N) (h15 : t.val % 16 = 15) (y : S1x10x512.Idx) :
    (outsAt0 V c t.val t.isLt).1 y = G2 V c (((cfg0.win 2).blk t).view.emb y) := by
  have hN : t.val < 32 := lt_of_lt_of_eq t.isLt N_0
  obtain ⟨-, -, -, -, e0, e1, e2, -⟩ := idx_facts t
  obtain ⟨u, cl, k, rfl⟩ : ∃ (u : Fin 1) (cl : Fin 10) (k : Fin 512), y = ix3 u cl k := ⟨y 0, y 1, y 2, eq_ix3 y⟩
  have hemb : ((cfg0.win 2).blk t).view.emb (ix3 u cl k) = ix3 (⟨t.val / 16, by omega⟩ : Fin 2) cl k :=
    funext fun a => Fin.ext (by
      match a with
      | ⟨0, _⟩ =>
        show win0_2.index t (0 : Fin 3) * 1 + 1 * u.val = t.val / 16
        rw [e0]; have := u.isLt; omega
      | ⟨1, _⟩ =>
        show win0_2.index t (1 : Fin 3) * 10 + 1 * cl.val = cl.val
        rw [e1]; omega
      | ⟨2, _⟩ =>
        show win0_2.index t (2 : Fin 3) * 512 + 1 * k.val = k.val
        rw [e2]; omega)
  rw [hemb, sums_inv V c t.val t.isLt u cl k]
  show _ = Cert.Proto.coreSums (feat V c) (labc V c) (⟨t.val / 16, by omega⟩ : Fin 2) cl k
  rw [← half_sums V c (⟨t.val / 16, by omega⟩ : Fin 2) cl k]
  have ea : t.val - t.val % 16 = 16 * (t.val / 16) := by omega
  have eb : t.val + 1 = 16 * (t.val / 16) + 16 := by omega
  rw [ea, eb]

/-- The same for the counts slot. -/
theorem flush_pt3 (c : Dev nD) (t : Fin cfg0.N) (h15 : t.val % 16 = 15) (y : S1x1x10.Idx) :
    (outsAt0 V c t.val t.isLt).2 y = G3 V c (((cfg0.win 3).blk t).view.emb y) := by
  have hN : t.val < 32 := lt_of_lt_of_eq t.isLt N_0
  obtain ⟨-, -, -, -, -, -, -, e0, e1, e2⟩ := idx_facts t
  obtain ⟨u, u', cl, rfl⟩ : ∃ (u u' : Fin 1) (cl : Fin 10), y = ix3 u u' cl := ⟨y 0, y 1, y 2, eq_ix3 y⟩
  have hemb : ((cfg0.win 3).blk t).view.emb (ix3 u u' cl) = ix3 (⟨t.val / 16, by omega⟩ : Fin 2) (0 : Fin 1) cl :=
    funext fun a => Fin.ext (by
      match a with
      | ⟨0, _⟩ =>
        show win0_3.index t (0 : Fin 3) * 1 + 1 * u.val = t.val / 16
        rw [e0]; have := u.isLt; omega
      | ⟨1, _⟩ =>
        show win0_3.index t (1 : Fin 3) * 1 + 1 * u'.val = 0
        rw [e1]; have := u'.isLt; omega
      | ⟨2, _⟩ =>
        show win0_3.index t (2 : Fin 3) * 10 + 1 * cl.val = cl.val
        rw [e2]; omega)
  rw [hemb, counts_inv V c t.val t.isLt u u' cl]
  show _ = Cert.Proto.coreCounts (labc V c) (⟨t.val / 16, by omega⟩ : Fin 2) cl
  rw [← half_counts V c (⟨t.val / 16, by omega⟩ : Fin 2) cl]
  have ea : t.val - t.val % 16 = 16 * (t.val / 16) := by omega
  have eb : t.val + 1 = 16 * (t.val / 16) + 16 := by omega
  rw [ea, eb]

/-- What a half's last point writes back is its slot of the whole-array function. -/
theorem flushed2 (c : Dev nD) (t : Fin cfg0.N) (hf : (cfg0.win 2).flush t = true) :
    (dat0 V c).flushed 2 t = ((cfg0.win 2).blk t).view.read (Elt Ideal) (G2 V c) := by
  have h15 : t.val % 16 = 15 := (flush0_2 t).mp hf
  show (cfg0.win 2).cut (grid0.coords t) ((dat0 V c).after 2 t) = _
  rw [after0_2]
  funext y
  exact flush_pt2 V c t h15 y
theorem flushed3 (c : Dev nD) (t : Fin cfg0.N) (hf : (cfg0.win 3).flush t = true) :
    (dat0 V c).flushed 3 t = ((cfg0.win 3).blk t).view.read (Elt Ideal) (G3 V c) := by
  have h15 : t.val % 16 = 15 := (flush0_3 t).mp hf
  show (cfg0.win 3).cut (grid0.coords t) ((dat0 V c).after 3 t) = _
  rw [after0_3]
  funext y
  exact flush_pt3 V c t h15 y

/-- An index of a result array is in point `t`'s slot iff each coordinate is in the slot's range on its axis. -/
theorem mem_blk2 (t : Fin cfg0.N) (i : S2x10x512.Idx) :
    i ∈ ((cfg0.win 2).blk t).view.set ↔ ∀ a : Fin 3, win0_2.index t a * S1x10x512.size a ≤ (i a).val ∧ (i a).val < win0_2.index t a * S1x10x512.size a + S1x10x512.size a := by
  show i ∈ ((View.whole main_v1_0).slice (win0_2.rect t)).set ↔ _
  rw [View.set_slice_whole, Rect.mem_set_unit]
  exact Iff.rfl
theorem mem_blk3 (t : Fin cfg0.N) (i : S2x1x10.Idx) :
    i ∈ ((cfg0.win 3).blk t).view.set ↔ ∀ a : Fin 3, win0_3.index t a * S1x1x10.size a ≤ (i a).val ∧ (i a).val < win0_3.index t a * S1x1x10.size a + S1x1x10.size a := by
  show i ∈ ((View.whole main_v1_1).slice (win0_3.rect t)).set ↔ _
  rw [View.set_slice_whole, Rect.mem_set_unit]
  exact Iff.rfl

/-- The last point of half `j`. -/
def lastPt (j : ℕ) (hj : j < 2) : Fin cfg0.N := ⟨16 * j + 15, by rw [show cfg0.N = 32 from N_0]; omega⟩

/-- Every index of the sums array is in the slot its half's last point writes back. -/
theorem cover2 (i : S2x10x512.Idx) : ∃ t : Fin cfg0.N, (cfg0.win 2).flush t = true ∧ i ∈ ((cfg0.win 2).blk t).view.set := by
  have h0 : (i 0).val < 2 := (i 0).isLt
  have h1 : (i 1).val < 10 := (i 1).isLt
  have h2 : (i 2).val < 512 := (i 2).isLt
  refine ⟨lastPt (i 0).val h0, (flush0_2 _).mpr (by show (16 * (i 0).val + 15) % 16 = 15; omega), ?_⟩
  obtain ⟨-, -, -, -, e0, e1, e2, -⟩ := idx_facts (lastPt (i 0).val h0)
  have ev : (lastPt (i 0).val h0).val = 16 * (i 0).val + 15 := rfl
  rw [mem_blk2]
  intro a
  match a with
  | ⟨0, _⟩ =>
    show win0_2.index (lastPt (i 0).val h0) (0 : Fin 3) * 1 ≤ (i 0).val ∧ (i 0).val < win0_2.index (lastPt (i 0).val h0) (0 : Fin 3) * 1 + 1
    rw [e0, ev]; omega
  | ⟨1, _⟩ =>
    show win0_2.index (lastPt (i 0).val h0) (1 : Fin 3) * 10 ≤ (i 1).val ∧ (i 1).val < win0_2.index (lastPt (i 0).val h0) (1 : Fin 3) * 10 + 10
    rw [e1]; omega
  | ⟨2, _⟩ =>
    show win0_2.index (lastPt (i 0).val h0) (2 : Fin 3) * 512 ≤ (i 2).val ∧ (i 2).val < win0_2.index (lastPt (i 0).val h0) (2 : Fin 3) * 512 + 512
    rw [e2]; omega

/-- Every index of the counts array is in the slot its half's last point writes back. -/
theorem cover3 (i : S2x1x10.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 10 := (i 2).isLt
  refine ⟨lastPt (i 0).val h0, (flush0_3 _).mpr (by show (16 * (i 0).val + 15) % 16 = 15; omega), ?_⟩
  obtain ⟨-, -, -, -, -, -, -, e0, e1, e2⟩ := idx_facts (lastPt (i 0).val h0)
  have ev : (lastPt (i 0).val h0).val = 16 * (i 0).val + 15 := rfl
  rw [mem_blk3]
  intro a
  match a with
  | ⟨0, _⟩ =>
    show win0_3.index (lastPt (i 0).val h0) (0 : Fin 3) * 1 ≤ (i 0).val ∧ (i 0).val < win0_3.index (lastPt (i 0).val h0) (0 : Fin 3) * 1 + 1
    rw [e0, ev]; omega
  | ⟨1, _⟩ =>
    show win0_3.index (lastPt (i 0).val h0) (1 : Fin 3) * 1 ≤ (i 1).val ∧ (i 1).val < win0_3.index (lastPt (i 0).val h0) (1 : Fin 3) * 1 + 1
    rw [e1]; omega
  | ⟨2, _⟩ =>
    show win0_3.index (lastPt (i 0).val h0) (2 : Fin 3) * 10 ≤ (i 2).val ∧ (i 2).val < win0_3.index (lastPt (i 0).val h0) (2 : Fin 3) * 10 + 10
    rw [e2]; omega

/-- The two result arrays after the pass. -/
theorem final2 (c : Dev nD) : (dat0 V c).arrAt 2 cfg0.N = G2 V c :=
  (dat0 V c).arrAt_eq_of_cover 2 (G2 V c) (flushed2 V c) cover2
theorem final3 (c : Dev nD) : (dat0 V c).arrAt 3 cfg0.N = G3 V c :=
  (dat0 V c).arrAt_eq_of_cover 3 (G3 V c) (flushed3 V c) cover3

/-- Half `j`'s slot of the sums array after the pass. -/
theorem sums_arr (c : Dev nD) (j : Fin 2) (cl : Fin 10) (k : Fin 512) :
    (dat0 V c).arrAt 2 cfg0.N (ix3 j cl k) = Cert.Proto.coreSums (feat V c) (labc V c) j cl k :=
  congrFun (final2 V c) (ix3 j cl k)

/-- Half `j`'s slot of the counts array after the pass. -/
theorem counts_arr (c : Dev nD) (j : Fin 2) (cl : Fin 10) :
    (dat0 V c).arrAt 3 cfg0.N (ix3 j 0 cl) = Cert.Proto.coreCounts (labc V c) j cl :=
  congrFun (final3 V c) (ix3 j 0 cl)

end Cert.KernelIdeal.Region0

end
-- ==== Proof.Region1.lean ====
/- The second tiled pass, read as values: each grid point takes a block of 2048 rows, writes that block of the
   logits array, and adds minus the block's picked log-probabilities to its half's running loss sum, which is
   what the half's slot of the loss array holds after the pass. -/
import proofs.«407835_j64536178589961_3_alg».proof.Proof.Spec
import proofs.«407835_j64536178589961_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that resets, the logits block left is the clamped negated distances of the loaded blocks. -/
theorem piece_A_4 (c : Dev nD) (i : grid1.Coords) (a2 : Memref sig .tc .vmem S2048x512 .f32) (h2 : a2.IsWhole) (a3 : Memref sig .tc .vmem S10x512 .f32) (h3 : a3.IsWhole) (a4 : Memref sig .tc .vmem S1x10 .f32) (h4 : a4.IsWhole) (a5 : Memref sig .tc .vmem S2048x1 .i32) (h5 : a5.IsWhole) (a6 : Memref sig .tc .vmem S2048x10 .f32) (h6 : a6.IsWhole) (a7 : Memref sig .tc .vmem S1x1x1 .f32) (h7 : a7.IsWhole) (hc : cond1_0 i)
    (x0 : Vec F S2048x512 .f32) (x1 : Vec F S10x512 .f32) (x2 : Vec F S1x10 .f32) (x3 : Vec F S2048x1 .i32) :
    out1_A_4 c i a2 h2 a3 h3 a4 h4 a5 h5 a6 h6 a7 h7 hc x0 x1 x2 x3 = k1_pay3 x0 x1 x2 := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_unit_zero hz2]
  simp only [View.readAt_eq_ld, h2.read_unread, h3.read_unread, h4.read_unread, View.ld_unit_zero (S := S2048x512) hz2,
    View.ld_unit_zero (S := S10x512) hz2, View.ld_unit_zero (S := S1x10) hz2]

/-- At a point that carries on, the same. -/
theorem piece_B_4 (c : Dev nD) (i : grid1.Coords) (a2 : Memref sig .tc .vmem S2048x512 .f32) (h2 : a2.IsWhole) (a3 : Memref sig .tc .vmem S10x512 .f32) (h3 : a3.IsWhole) (a4 : Memref sig .tc .vmem S1x10 .f32) (h4 : a4.IsWhole) (a5 : Memref sig .tc .vmem S2048x1 .i32) (h5 : a5.IsWhole) (a6 : Memref sig .tc .vmem S2048x10 .f32) (h6 : a6.IsWhole) (a7 : Memref sig .tc .vmem S1x1x1 .f32) (h7 : a7.IsWhole) (hc : ¬cond1_0 i)
    (x0 : Vec F S2048x512 .f32) (x1 : Vec F S10x512 .f32) (x2 : Vec F S1x10 .f32) (x3 : Vec F S2048x1 .i32) (xo5 : Vec F S1x1x1 .f32) :
    out1_B_4 c i a2 h2 a3 h3 a4 h4 a5 h5 a6 h6 a7 h7 hc x0 x1 x2 x3 xo5 = k1_pay3 x0 x1 x2 := by
  unfold out1_B_4
  rw [View.read_writes_eq_canon _ _ _ (cover1_B_4 c i a2 h2 a3 h3 a4 h4 a5 h5 a6 h6 a7 h7 hc x0 x1 x2 x3 xo5)]
  unfold kernelRun1_B
  dsimp only
  sl_unfold_words
  rw [View.canon_unit_zero hz2]
  simp only [View.readAt_eq_ld, h2.read_unread, h3.read_unread, h4.read_unread, View.ld_unit_zero (S := S2048x512) hz2,
    View.ld_unit_zero (S := S10x512) hz2, View.ld_unit_zero (S := S1x10) hz2]

/-- At a point that resets, the loss slot left is the update of the zero just stored. -/
theorem piece_A_5 (c : Dev nD) (i : grid1.Coords) (a2 : Memref sig .tc .vmem S2048x512 .f32) (h2 : a2.IsWhole) (a3 : Memref sig .tc .vmem S10x512 .f32) (h3 : a3.IsWhole) (a4 : Memref sig .tc .vmem S1x10 .f32) (h4 : a4.IsWhole) (a5 : Memref sig .tc .vmem S2048x1 .i32) (h5 : a5.IsWhole) (a6 : Memref sig .tc .vmem S2048x10 .f32) (h6 : a6.IsWhole) (a7 : Memref sig .tc .vmem S1x1x1 .f32) (h7 : a7.IsWhole) (hc : cond1_0 i)
    (x0 : Vec F S2048x512 .f32) (x1 : Vec F S10x512 .f32) (x2 : Vec F S1x10 .f32) (x3 : Vec F S2048x1 .i32) :
    out1_A_5 c i a2 h2 a3 h3 a4 h4 a5 h5 a6 h6 a7 h7 hc x0 x1 x2 x3 = k1_pay1 (k1_pay4 x0 x1 x2) (k1_pay5 x3) (k1_pay2 (F := F)) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, View.ld_unit_zero (S := S2048x512) hz2,
    View.ld_unit_zero (S := S10x512) hz2, View.ld_unit_zero (S := S1x10) hz2, View.ld_unit_zero (S := S2048x1) hz2]

/-- At a point that carries on, the loss slot left is the update of what the point before left. -/
theorem piece_B_5 (c : Dev nD) (i : grid1.Coords) (a2 : Memref sig .tc .vmem S2048x512 .f32) (h2 : a2.IsWhole) (a3 : Memref sig .tc .vmem S10x512 .f32) (h3 : a3.IsWhole) (a4 : Memref sig .tc .vmem S1x10 .f32) (h4 : a4.IsWhole) (a5 : Memref sig .tc .vmem S2048x1 .i32) (h5 : a5.IsWhole) (a6 : Memref sig .tc .vmem S2048x10 .f32) (h6 : a6.IsWhole) (a7 : Memref sig .tc .vmem S1x1x1 .f32) (h7 : a7.IsWhole) (hc : ¬cond1_0 i)
    (x0 : Vec F S2048x512 .f32) (x1 : Vec F S10x512 .f32) (x2 : Vec F S1x10 .f32) (x3 : Vec F S2048x1 .i32) (xo5 : Vec F S1x1x1 .f32) :
    out1_B_5 c i a2 h2 a3 h3 a4 h4 a5 h5 a6 h6 a7 h7 hc x0 x1 x2 x3 xo5 = k1_pay1 (k1_pay4 x0 x1 x2) (k1_pay5 x3) xo5 := by
  unfold out1_B_5
  rw [View.read_writes_eq_canon _ _ _ (cover1_B_5 c i a2 h2 a3 h3 a4 h4 a5 h5 a6 h6 a7 h7 hc x0 x1 x2 x3 xo5)]
  unfold kernelRun1_B
  dsimp only
  sl_unfold_words
  rw [View.canon_unit_zero hz3]
  simp only [View.readAt_eq_ld, h2.read_unread, h3.read_unread, h4.read_unread, h5.read_unread, h7.read_unread, View.ld_unit_zero (S := S2048x512) hz2,
    View.ld_unit_zero (S := S10x512) hz2, View.ld_unit_zero (S := S1x10) hz2, View.ld_unit_zero (S := S2048x1) hz2, View.ld_unit_zero (S := S1x1x1) hz3]

end Pieces

section Payloads

/-! ### Layout operations of the block shapes, read at coordinates -/

/-- A column broadcast along the lanes reads the column's entry of the row. -/
theorem bcol_apply {α : Type} (w : S2048x1.Idx → α) (q : Fin 2048) (cl : Fin 10) :
    broadcastTo S2048x10 w broadcasts_S2048x1_S2048x10 (ix2 q cl) = w (ix2 q (0 : Fin 1)) :=
  broadcastTo_apply w broadcasts_S2048x1_S2048x10 (ix2 q cl) (ix2 q (0 : Fin 1)) (fun a => by
    match a with
    | ⟨0, _⟩ => exact (if_neg (show ¬((2048 : ℕ) = 1) by decide)).symm
    | ⟨1, _⟩ => exact (if_pos rfl).symm)

/-- A vector cast to a column reads its entry of the row. -/
theorem ccol_apply {α : Type} (v : S2048.Idx → α) (q : Fin 2048) (u : Fin 1) :
    shapeCast S2048x1 v shapeCasts_S2048_S2048x1 (ix2 q u) = v (ix1 q) :=
  shapeCast_apply v shapeCasts_S2048_S2048x1 (ix2 q u) (ix1 q) (by
    have hu : u.val = 0 := by omega
    rw [Shape.rowMajor_val_one, Shape.rowMajor_val_two]
    show q.val = q.val * 1 + u.val
    omega)

/-- The one-row vector of squared norms broadcast over the rows reads its entry of the class. -/
theorem brow_apply {α : Type} (v : S1x10.Idx → α) (q : Fin 2048) (cl : Fin 10) :
    broadcastTo S2048x10 (shapeCast S1x10 v shapeCasts_S1x10_S1x10) broadcasts_S1x10_S2048x10 (ix2 q cl) = v (ix2 (0 : Fin 1) cl) := by
  rw [shapeCast_self]
  exact broadcastTo_1b_ab_apply v broadcasts_S1x10_S2048x10 q cl

/-- The index a lane reduction of a [2048,512] block inserts. -/
theorem lift512 (q : Fin 2048) (k : Fin 512) : reduces_S2048x512_S2048.lift (ix1 q) k = ix2 q k :=
  funext fun a => Fin.ext (by
    match a with
    | ⟨0, _⟩ => rfl
    | ⟨1, _⟩ => rfl)

/-- The index a lane reduction of a [2048,10] block inserts. -/
theorem lift10 (q : Fin 2048) (k : Fin 10) : reduces_S2048x10_S2048.lift (ix1 q) k = ix2 q k :=
  funext fun a => Fin.ext (by
    match a with
    | ⟨0, _⟩ => rfl
    | ⟨1, _⟩ => rfl)

/-- The index the row reduction of a [2048,1] column inserts. -/
theorem liftcol (w : Fin 1) (q : Fin 2048) : reduces_S2048x1_S1.lift (ix1 w) q = ix2 q w :=
  funext fun a => Fin.ext (by
    match a with
    | ⟨0, _⟩ => rfl
    | ⟨1, _⟩ => rfl)

/-- A lane sum of a [2048,10] block is the sum over the ten classes. -/
theorem lanesum10 (Y : FVec Ideal S2048x10 .f32) (q : Fin 2048) :
    multiReduction (F := Ideal) .add [1] S2048 Y 0x00000000#32 reduces_S2048x10_S2048 (.inl rfl) rfl (ix1 q)
      = ∑ cl : Fin 10, Y (ix2 q cl) :=
  (Ideal.multiReduction_add_single Y 0x00000000#32 reduces_S2048x10_S2048 (.inl rfl) rfl (ix1 q)).trans
    (Finset.sum_congr rfl fun k _ => congrArg Y (lift10 q k))

/-- A lane sum of a [2048,512] block is the sum over the 512 features. -/
theorem lanesum512 (Y : FVec Ideal S2048x512 .f32) (q : Fin 2048) :
    multiReduction (F := Ideal) .add [1] S2048 Y 0x00000000#32 reduces_S2048x512_S2048 (.inl rfl) rfl (ix1 q)
      = ∑ k : Fin 512, Y (ix2 q k) :=
  (Ideal.multiReduction_add_single Y 0x00000000#32 reduces_S2048x512_S2048 (.inl rfl) rfl (ix1 q)).trans
    (Finset.sum_congr rfl fun k _ => congrArg Y (lift512 q k))

/-- The row sum of a [2048,1] column is the sum over the 2048 rows. -/
theorem rowsum (Y : FVec Ideal S2048x1 .f32) (w : Fin 1) :
    multiReduction (F := Ideal) .add [0] S1 Y 0x00000000#32 reduces_S2048x1_S1 (.inl rfl) rfl (ix1 w)
      = ∑ q : Fin 2048, Y (ix2 q w) :=
  (Ideal.multiReduction_add_single Y 0x00000000#32 reduces_S2048x1_S1 (.inl rfl) rfl (ix1 w)).trans
    (Finset.sum_congr rfl fun k _ => congrArg Y (liftcol w k))

/-- A lane maximum of a [2048,10] block is the running maximum over the ten classes from minus infinity. -/
theorem lanemax10 (Y : FVec Ideal S2048x10 .f32) (q : Fin 2048) :
    multiReduction (F := Ideal) .maximumf [1] S2048 Y 0xFF800000#32 reduces_S2048x10_S2048 (.inl rfl) rfl (ix1 q)
      = (Finset.univ : Finset (Fin 10)).fold max Cert.Proto.negInf (fun cl => Y (ix2 q cl)) :=
  (Ideal.multiReduction_maximumf_single Y 0xFF800000#32 reduces_S2048x10_S2048 (.inl rfl) rfl (ix1 q)).trans
    (congrArg ((Finset.univ : Finset (Fin 10)).fold max Cert.Proto.negInf) (funext fun k => congrArg Y (lift10 q k)))

/-! ### The product of the block with the prototypes -/

theorem lhs_dot_0 (i : S2048x10.Idx) (k : dot_S2048x512_S10x512_S2048x10_1_1_0_0_n_n.contr.Idx) :
    (dot_S2048x512_S10x512_S2048x10_1_1_0_0_n_n.lhsIdx i k 0).val = (i 0).val := by
  unfold DotDims.lhsIdx
  rw [dif_neg (show ¬(0 : Fin S2048x512.rank) ∈ dot_S2048x512_S10x512_S2048x10_1_1_0_0_n_n.lhsBatch by decide), dif_pos (show (0 : Fin S2048x512.rank) ∈ dot_S2048x512_S10x512_S2048x10_1_1_0_0_n_n.lhsNonContracting by decide)]
  rfl
theorem lhs_dot_1 (i : S2048x10.Idx) (k : dot_S2048x512_S10x512_S2048x10_1_1_0_0_n_n.contr.Idx) :
    (dot_S2048x512_S10x512_S2048x10_1_1_0_0_n_n.lhsIdx i k 1).val = (k ⟨0, by decide⟩).val :=
  dot_S2048x512_S10x512_S2048x10_1_1_0_0_n_n.lhsIdx_val_of_single rfl i k
theorem rhs_dot_0 (i : S2048x10.Idx) (k : dot_S2048x512_S10x512_S2048x10_1_1_0_0_n_n.contr.Idx) :
    (dot_S2048x512_S10x512_S2048x10_1_1_0_0_n_n.rhsIdx i k 0).val = (i 1).val := by
  unfold DotDims.rhsIdx
  rw [dif_neg (show ¬(0 : Fin S10x512.rank) ∈ dot_S2048x512_S10x512_S2048x10_1_1_0_0_n_n.rhsBatch by decide), dif_pos (show (0 : Fin S10x512.rank) ∈ dot_S2048x512_S10x512_S2048x10_1_1_0_0_n_n.rhsNonContracting by decide)]
  rfl
theorem rhs_dot_1 (i : S2048x10.Idx) (k : dot_S2048x512_S10x512_S2048x10_1_1_0_0_n_n.contr.Idx) :
    (dot_S2048x512_S10x512_S2048x10_1_1_0_0_n_n.rhsIdx i k 1).val = (k ⟨0, by decide⟩).val :=
  dot_S2048x512_S10x512_S2048x10_1_1_0_0_n_n.rhsIdx_val_of_single rfl i k

/-- The product at (row, class) is the sum over the features of the row's entries times the class's. -/
theorem cross_apply (x0 : FVec Ideal S2048x512 .f32) (x1 : FVec Ideal S10x512 .f32) (q : Fin 2048) (cl : Fin 10) :
    matmul (F := Ideal) (φ₁ := .f32) (φ₂ := .f32) dot_S2048x512_S10x512_S2048x10_1_1_0_0_n_n none x0 (shapeCast S10x512 x1 shapeCasts_S10x512_S10x512) (constant (F := Ideal) S2048x10 .f32 0x00000000#32) (ix2 q cl)
      = ∑ k : Fin 512, x0 (ix2 q k) * x1 (ix2 cl k) := by
  rw [shapeCast_self]
  refine (Ideal.matmul_constant_zero_apply dot_S2048x512_S10x512_S2048x10_1_1_0_0_n_n none x0 x1 (ix2 q cl)).trans ?_
  refine (Equiv.sum_comp (contrEquiv1 dot_S2048x512_S10x512_S2048x10_1_1_0_0_n_n 512 rfl rfl).symm _).symm.trans ?_
  refine Finset.sum_congr rfl fun k _ => ?_
  have hk := contrEquiv1_symm_val dot_S2048x512_S10x512_S2048x10_1_1_0_0_n_n 512 rfl rfl k
  have el : dot_S2048x512_S10x512_S2048x10_1_1_0_0_n_n.lhsIdx (ix2 q cl) ((contrEquiv1 dot_S2048x512_S10x512_S2048x10_1_1_0_0_n_n 512 rfl rfl).symm k) = ix2 q k := funext fun a => Fin.ext (by
    match a with
    | ⟨0, _⟩ => exact lhs_dot_0 _ _
    | ⟨1, _⟩ => exact (lhs_dot_1 _ _).trans hk)
  have er : dot_S2048x512_S10x512_S2048x10_1_1_0_0_n_n.rhsIdx (ix2 q cl) ((contrEquiv1 dot_S2048x512_S10x512_S2048x10_1_1_0_0_n_n 512 rfl rfl).symm k) = ix2 cl k := funext fun a => Fin.ext (by
    match a with
    | ⟨0, _⟩ => exact rhs_dot_0 _ _
    | ⟨1, _⟩ => exact (rhs_dot_1 _ _).trans hk)
  rw [el, er]

end Payloads

section Values

variable (X : Fin 131072 → Fin 512 → EReal) (l : Fin 131072 → BitVec 32)
variable (P : Fin 10 → Fin 512 → EReal) (Q : Fin 10 → EReal)

/-! ### The logits of a block -/

/-- The logits payload at (row, class): minus the clamped squared distance of the block's row to the class's prototype. -/
theorem pay3_apply (x0 : Vec Ideal S2048x512 .f32) (x1 : Vec Ideal S10x512 .f32) (x2 : Vec Ideal S1x10 .f32) (q : Fin 2048) (cl : Fin 10) :
    k1_pay3 (F := Ideal) x0 x1 x2 (ix2 q cl)
      = -(max ((∑ k : Fin 512, x0 (ix2 q k) * x0 (ix2 q k)) + x2 (ix2 (0 : Fin 1) cl)
          - Cert.Proto.two * ∑ k : Fin 512, x0 (ix2 q k) * x1 (ix2 cl k)) 0) := by
  have hA : broadcastTo S2048x10 (shapeCast S2048x1 (multiReduction (F := Ideal) .add [1] S2048 (mulf x0 x0) 0x00000000#32 reduces_S2048x512_S2048 (.inl rfl) rfl) shapeCasts_S2048_S2048x1) broadcasts_S2048x1_S2048x10 (ix2 q cl)
      = ∑ k : Fin 512, x0 (ix2 q k) * x0 (ix2 q k) :=
    (bcol_apply _ q cl).trans ((ccol_apply _ q 0).trans (lanesum512 (mulf x0 x0) q))
  have hB := brow_apply x2 q cl
  have hM := cross_apply x0 x1 q cl
  unfold k1_pay3
  exact (congrArg₂ (fun a m : EReal => Ideal.ofBits .f32 0x00000000#32 - max (a - Ideal.ofBits .f32 0x40000000#32 * m) (Ideal.ofBits .f32 0x00000000#32))
    (congrArg₂ (fun a b : EReal => a + b) hA hB) hM).trans (by rw [Ideal.ofBits_zero_f32, zero_sub]; rfl)

/-- Where the loaded blocks are a row block of the features, the prototypes and their squared norms, it is the row's logit. -/
theorem pay3_logit (x0 : Vec Ideal S2048x512 .f32) (x1 : Vec Ideal S10x512 .f32) (x2 : Vec Ideal S1x10 .f32) (q : Fin 2048) (r : Fin 131072)
    (hX : ∀ k, x0 (ix2 q k) = X r k) (hP : ∀ cl k, x1 (ix2 cl k) = P cl k) (hQ : ∀ cl, x2 (ix2 (0 : Fin 1) cl) = Q cl) (cl : Fin 10) :
    k1_pay3 (F := Ideal) x0 x1 x2 (ix2 q cl) = Cert.Proto.logit X P Q r cl := by
  rw [pay3_apply]
  unfold Cert.Proto.logit Cert.Proto.dist Cert.Proto.sqe Cert.Proto.cross
  simp only [hX, hP, hQ]

/-! ### The log-softmax of a block of logits -/

/-- The row maxima, spread over the lanes. -/
def rmx (L : FVec Ideal S2048x10 .f32) : FVec Ideal S2048x10 .f32 :=
  broadcastTo S2048x10 (shapeCast S2048x1 (multiReduction (F := Ideal) .maximumf [1] S2048 L 0xFF800000#32 reduces_S2048x10_S2048 (.inl rfl) rfl) shapeCasts_S2048_S2048x1) broadcasts_S2048x1_S2048x10

theorem rmx_apply (L : FVec Ideal S2048x10 .f32) (q : Fin 2048) (cl : Fin 10) :
    rmx L (ix2 q cl) = (Finset.univ : Finset (Fin 10)).fold max Cert.Proto.negInf (fun c' => L (ix2 q c')) :=
  (bcol_apply _ q cl).trans ((ccol_apply _ q 0).trans (lanemax10 L q))

/-- The log-softmax as the kernel computes it from a block of logits. -/
def lsm (L : FVec Ideal S2048x10 .f32) : FVec Ideal S2048x10 .f32 :=
  subf (subf L (rmx L)) (broadcastTo S2048x10 (log (shapeCast S2048x1 (multiReduction (F := Ideal) .add [1] S2048 (exp (subf L (rmx L))) 0x00000000#32 reduces_S2048x10_S2048 (.inl rfl) rfl) shapeCasts_S2048_S2048x1)) broadcasts_S2048x1_S2048x10)

theorem pay4_eq (x0 : Vec Ideal S2048x512 .f32) (x1 : Vec Ideal S10x512 .f32) (x2 : Vec Ideal S1x10 .f32) :
    k1_pay4 (F := Ideal) x0 x1 x2 = lsm (k1_pay3 x0 x1 x2) := rfl

theorem lsm_apply (L : FVec Ideal S2048x10 .f32) (q : Fin 2048) (cl : Fin 10) :
    lsm L (ix2 q cl) = (L (ix2 q cl) - rmx L (ix2 q cl)) - Ideal.log (∑ c' : Fin 10, Ideal.exp (L (ix2 q c') - rmx L (ix2 q c'))) := by
  have hD : broadcastTo S2048x10 (log (shapeCast S2048x1 (multiReduction (F := Ideal) .add [1] S2048 (exp (subf L (rmx L))) 0x00000000#32 reduces_S2048x10_S2048 (.inl rfl) rfl) shapeCasts_S2048_S2048x1)) broadcasts_S2048x1_S2048x10 (ix2 q cl)
      = Ideal.log (∑ c' : Fin 10, Ideal.exp (L (ix2 q c') - rmx L (ix2 q c'))) :=
    (bcol_apply _ q cl).trans (congrArg Ideal.log ((ccol_apply _ q 0).trans (lanesum10 (exp (subf L (rmx L))) q)))
  unfold lsm
  exact congrArg (fun d : EReal => (L (ix2 q cl) - rmx L (ix2 q cl)) - d) hD

theorem rmx_rowmax (L : FVec Ideal S2048x10 .f32) (q : Fin 2048) (r : Fin 131072)
    (hL : ∀ c', L (ix2 q c') = Cert.Proto.logit X P Q r c') (cl : Fin 10) : rmx L (ix2 q cl) = Cert.Proto.rowmax X P Q r :=
  (rmx_apply L q cl).trans (congrArg ((Finset.univ : Finset (Fin 10)).fold max Cert.Proto.negInf) (funext hL))

/-- Of a row's logits it is the row's log-probabilities. -/
theorem lsm_logp (L : FVec Ideal S2048x10 .f32) (q : Fin 2048) (r : Fin 131072)
    (hL : ∀ c', L (ix2 q c') = Cert.Proto.logit X P Q r c') (cl : Fin 10) : lsm L (ix2 q cl) = Cert.Proto.logp X P Q r cl := by
  rw [lsm_apply]
  unfold Cert.Proto.logp Cert.Proto.denom
  simp only [rmx_rowmax X P Q L q r hL, hL]

/-! ### The one-hot of a block of labels and the loss update -/

/-- The word a comparison for equality widens to, read as a number. -/
theorem onehot_word (a b : BitVec 32) :
    (FloatOps.sitofp (F := Ideal) .f32 ((IntOp.cmpi .eq a b).setWidth 32) : EReal) = if a = b then 1 else 0 := by
  by_cases h : a = b
  · have hb : (a == b) = true := by simpa using h
    rw [if_pos h]
    show ((((BitVec.ofBool (a == b)).setWidth 32).toInt : ℝ) : EReal) = 1
    rw [hb, show ((BitVec.ofBool true).setWidth 32).toInt = 1 from by decide]
    simp
  · have hb : (a == b) = false := by simpa using h
    rw [if_neg h]
    show ((((BitVec.ofBool (a == b)).setWidth 32).toInt : ℝ) : EReal) = 0
    rw [hb, show ((BitVec.ofBool false).setWidth 32).toInt = 0 from by decide]
    simp

/-- The one-hot block of a block of labels. -/
def ohv (v36 : IVec S2048x1 32) : FVec Ideal S2048x10 .f32 :=
  sitofp .f32 (extui 32 (cmpi .eq (iota .tc S2048x10 32 [1] iota_S2048x10_d1_w32) (broadcastTo S2048x10 v36 broadcasts_S2048x1_S2048x10)) natLt_1_32)

theorem ohv_apply (v36 : IVec S2048x1 32) (q : Fin 2048) (cl : Fin 10) :
    ohv v36 (ix2 q cl) = if BitVec.ofNat 32 cl.val = v36 (ix2 q (0 : Fin 1)) then 1 else 0 := by
  have h1 : iota .tc S2048x10 32 [1] iota_S2048x10_d1_w32 (ix2 q cl) = BitVec.ofNat 32 cl.val :=
    iota_single_apply .tc S2048x10 32 1 iota_S2048x10_d1_w32 (ix2 q cl)
  have h2 := bcol_apply v36 q cl
  show FloatOps.sitofp (F := Ideal) .f32 ((IntOp.cmpi .eq (iota .tc S2048x10 32 [1] iota_S2048x10_d1_w32 (ix2 q cl)) (broadcastTo S2048x10 v36 broadcasts_S2048x1_S2048x10 (ix2 q cl))).setWidth 32) = _
  rw [h1, h2]
  exact onehot_word _ _

/-- The zero the slot is reset to. -/
theorem pay2_apply (u v w : Fin 1) : k1_pay2 (F := Ideal) (ix3 u v w) = 0 := by
  unfold k1_pay2
  exact (shapeCast_ab_1ab_apply _ shapeCasts_S1x1_S1x1x1 u v w).trans Ideal.ofBits_zero_f32

/-- The loss update: the slot plus zero minus the block's sum of the log-probabilities the one-hot picks. -/
theorem pay1_apply (v33 : FVec Ideal S2048x10 .f32) (v36 : IVec S2048x1 32) (v45 : Vec Ideal S1x1x1 .f32) (u v w : Fin 1) :
    k1_pay1 (F := Ideal) v33 v36 v45 (ix3 u v w)
      = v45 (ix3 (0 : Fin 1) v w) + (0 - ∑ q : Fin 2048, ∑ cl : Fin 10, v33 (ix2 q cl) * (if BitVec.ofNat 32 cl.val = v36 (ix2 q (0 : Fin 1)) then 1 else 0)) := by
  have hacc : shapeCast S1x1 v45 shapeCasts_S1x1x1_S1x1 (ix2 v w) = v45 (ix3 (0 : Fin 1) v w) := shapeCast_1ab_ab_apply v45 _ v w
  have hsum : shapeCast S1x1 (multiReduction (F := Ideal) .add [0] S1 (shapeCast S2048x1 (multiReduction (F := Ideal) .add [1] S2048 (mulf v33 (ohv v36)) 0x00000000#32 reduces_S2048x10_S2048 (.inl rfl) rfl) shapeCasts_S2048_S2048x1) 0x00000000#32 reduces_S2048x1_S1 (.inl rfl) rfl) shapeCasts_S1_S1x1 (ix2 v w)
      = ∑ q : Fin 2048, ∑ cl : Fin 10, v33 (ix2 q cl) * (if BitVec.ofNat 32 cl.val = v36 (ix2 q (0 : Fin 1)) then 1 else 0) :=
    (shapeCast_a_1a_apply _ _ v w).trans ((rowsum _ w).trans (Finset.sum_congr rfl fun q _ =>
      (ccol_apply _ q w).trans ((lanesum10 (mulf v33 (ohv v36)) q).trans (Finset.sum_congr rfl fun cl _ =>
        congrArg (fun o : EReal => v33 (ix2 q cl) * o) (ohv_apply v36 q cl)))))
  unfold k1_pay1
  refine (shapeCast_ab_1ab_apply _ shapeCasts_S1x1_S1x1x1 u v w).trans ?_
  exact (congrArg₂ (fun a s : EReal => a + (Ideal.ofBits .f32 0x00000000#32 - s)) hacc hsum).trans (by rw [Ideal.ofBits_zero_f32])

/-- Where the loaded blocks are a row block of the features and labels, the prototypes and their squared norms, the update adds
    zero minus the sum of the rows' picked log-probabilities. -/
theorem pay1_sel (x0 : Vec Ideal S2048x512 .f32) (x1 : Vec Ideal S10x512 .f32) (x2 : Vec Ideal S1x10 .f32) (x3 : Vec Ideal S2048x1 .i32)
    (acc : Vec Ideal S1x1x1 .f32) (ρ : Fin 2048 → Fin 131072)
    (hX : ∀ q k, x0 (ix2 q k) = X (ρ q) k) (hP : ∀ cl k, x1 (ix2 cl k) = P cl k) (hQ : ∀ cl, x2 (ix2 (0 : Fin 1) cl) = Q cl)
    (hl : ∀ q, x3 (ix2 q (0 : Fin 1)) = l (ρ q)) (u v w : Fin 1) :
    k1_pay1 (F := Ideal) (k1_pay4 x0 x1 x2) (k1_pay5 x3) acc (ix3 u v w)
      = acc (ix3 (0 : Fin 1) v w) + (0 - ∑ q : Fin 2048, Cert.Proto.sel X l P Q (ρ q)) := by
  have e5 : k1_pay5 (F := Ideal) x3 = x3 := shapeCast_self x3 _
  have e4 : ∀ q cl, k1_pay4 (F := Ideal) x0 x1 x2 (ix2 q cl) = Cert.Proto.logp X P Q (ρ q) cl := fun q cl =>
    lsm_logp X P Q (k1_pay3 x0 x1 x2) q (ρ q) (fun c' => pay3_logit X P Q x0 x1 x2 q (ρ q) (hX q) hP hQ c') cl
  rw [pay1_apply, e5]
  unfold Cert.Proto.sel Cert.Proto.oh
  simp only [e4, hl]

end Values

variable (V : (c : Dev nD) → (b : Ref sig .tc) → Buf (Elt Ideal) ((c : Thread nD τ).loc b))

/-- The features, the prototypes, their squared norms and the label column as the second pass finds them. -/
abbrev feat (c : Dev nD) : Fin 131072 → Fin 512 → EReal := fun r k => V c main_arg0 (ix2 r k)
abbrev prot (c : Dev nD) : Fin 10 → Fin 512 → EReal := fun cl k => V c main_v7 (ix2 cl k)
abbrev pnorm (c : Dev nD) : Fin 10 → EReal := fun cl => V c main_v10 (ix2 0 cl)
abbrev labc (c : Dev nD) : Fin 131072 → BitVec 32 := fun r => V c main_v0 (ix2 r 0)

section Blocks

/-- Row `q` of row block `t` of the 64 blocks of 2048 rows. -/
def rowN (t : Fin cfg1.N) (q : Fin 2048) : Fin 131072 :=
  ⟨2048 * t.val + q.val, by have := lt_of_lt_of_eq t.isLt (show cfg1.N = 64 from N_1); have := q.isLt; omega⟩

/-- The block index maps at a point: the row blocks move with the point, the prototypes and norms stay, the loss slot is the half. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 3) = t.val / 32 ∧ win1_5.index t (1 : Fin 3) = 0 ∧ win1_5.index t (2 : Fin 3) = 0 :=
  (by decide +kernel : ∀ t : Fin grid1.N, _)

/-- The features block at a point is the point's rows of the features. -/
theorem blk0_apply (c : Dev nD) (t : Fin cfg1.N) (q : Fin 2048) (k : Fin 512) :
    (iblk1 V c 0 t : Vec Ideal S2048x512 .f32) (ix2 q k) = feat V c (rowN t q) k := by
  show V c main_arg0 (((cfg1.win 0).blk t).view.emb (ix2 q k)) = V c main_arg0 (ix2 (rowN t q) k)
  refine congrArg (V c main_arg0) (funext fun a => Fin.ext ?_)
  match a with
  | ⟨0, _⟩ => show win1_0.index t (0 : Fin 2) * 2048 + 1 * q.val = 2048 * t.val + q.val; rw [(idx1 t).1]; omega
  | ⟨1, _⟩ => show win1_0.index t (1 : Fin 2) * 512 + 1 * k.val = k.val; rw [(idx1 t).2.1]; omega

/-- The prototypes block at a point is the prototypes. -/
theorem blk1_apply (c : Dev nD) (t : Fin cfg1.N) (cl : Fin 10) (k : Fin 512) :
    (iblk1 V c 1 t : Vec Ideal S10x512 .f32) (ix2 cl k) = prot V c cl k := by
  show V c main_v7 (((cfg1.win 1).blk t).view.emb (ix2 cl k)) = V c main_v7 (ix2 cl k)
  refine congrArg (V c main_v7) (funext fun a => Fin.ext ?_)
  match a with
  | ⟨0, _⟩ => show win1_1.index t (0 : Fin 2) * 10 + 1 * cl.val = cl.val; rw [(idx1 t).2.2.1]; omega
  | ⟨1, _⟩ => show win1_1.index t (1 : Fin 2) * 512 + 1 * k.val = k.val; rw [(idx1 t).2.2.2.1]; omega

/-- The squared norms block at a point is the squared norms. -/
theorem blk2_apply (c : Dev nD) (t : Fin cfg1.N) (cl : Fin 10) :
    (iblk1 V c 2 t : Vec Ideal S1x10 .f32) (ix2 (0 : Fin 1) cl) = pnorm V c cl := by
  show V c main_v10 (((cfg1.win 2).blk t).view.emb (ix2 (0 : Fin 1) cl)) = V c main_v10 (ix2 (0 : Fin 1) cl)
  refine congrArg (V c main_v10) (funext fun a => Fin.ext ?_)
  match a with
  | ⟨0, _⟩ => show win1_2.index t (0 : Fin 2) * 1 + 1 * 0 = 0; rw [(idx1 t).2.2.2.2.1]
  | ⟨1, _⟩ => show win1_2.index t (1 : Fin 2) * 10 + 1 * cl.val = cl.val; rw [(idx1 t).2.2.2.2.2.1]; omega

/-- The labels block at a point is the point's rows of the label column. -/
theorem blk3_apply (c : Dev nD) (t : Fin cfg1.N) (q : Fin 2048) :
    (iblk1 V c 3 t : Vec Ideal S2048x1 .i32) (ix2 q (0 : Fin 1)) = labc V c (rowN t q) := by
  show V c main_v0 (((cfg1.win 3).blk t).view.emb (ix2 q (0 : Fin 1))) = V c main_v0 (ix2 (rowN t q) (0 : Fin 1))
  refine congrArg (V c main_v0) (funext fun a => Fin.ext ?_)
  match a with
  | ⟨0, _⟩ => show win1_3.index t (0 : Fin 2) * 2048 + 1 * q.val = 2048 * t.val + q.val; rw [(idx1 t).2.2.2.2.2.2.1]; omega
  | ⟨1, _⟩ => show win1_3.index t (1 : Fin 2) * 1 + 1 * 0 = 0; rw [(idx1 t).2.2.2.2.2.2.2.1]

end Blocks

section Invariant

/-- After every point the logits block holds the logits payload of the point's blocks. -/
theorem out4_eq (c : Dev nD) (t : Fin cfg1.N) :
    (outsAt1 V c t.val t.isLt).1 = k1_pay3 (iblk1 V c 0 t) (iblk1 V c 1 t) (iblk1 V c 2 t) := by
  by_cases h0 : t.val % 32 = 0
  · rw [outsAt1_A V c t h0]
    dsimp only
    exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
  · rw [outsAt1_B V c t h0]
    dsimp only
    exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2

/-- So at (row, class) it holds the logit of the point's row. -/
theorem out4_apply (c : Dev nD) (t : Fin cfg1.N) (q : Fin 2048) (cl : Fin 10) :
    (outsAt1 V c t.val t.isLt).1 (ix2 q cl) = Cert.Proto.logit (feat V c) (prot V c) (pnorm V c) (rowN t q) cl := by
  rw [out4_eq]
  exact pay3_logit (feat V c) (prot V c) (pnorm V c) (iblk1 V c 0 t) (iblk1 V c 1 t) (iblk1 V c 2 t) q (rowN t q)
    (fun k => blk0_apply V c t q k) (fun cl k => blk1_apply V c t cl k) (fun cl => blk2_apply V c t cl) cl

theorem out4_at (c : Dev nD) (t : Fin cfg1.N) (y : S2048x10.Idx) :
    (outsAt1 V c t.val t.isLt).1 y = Cert.Proto.logit (feat V c) (prot V c) (pnorm V c) (rowN t (y 0)) (y 1) := by
  obtain ⟨q, cl, rfl⟩ : ∃ (q : Fin 2048) (cl : Fin 10), y = ix2 q cl := ⟨y 0, y 1, eq_ix2 y⟩
  exact out4_apply V c t q cl

/-- Zero minus the sum of the picked log-probabilities of the rows of block `n` (nothing past the last block). -/
def bterm (c : Dev nD) (n : ℕ) : EReal :=
  if h : n < cfg1.N then 0 - ∑ q : Fin 2048, Cert.Proto.sel (feat V c) (labc V c) (prot V c) (pnorm V c) (rowN ⟨n, h⟩ q) else 0

theorem bterm_of_lt (c : Dev nD) (n : ℕ) (h : n < cfg1.N) :
    bterm V c n = 0 - ∑ q : Fin 2048, Cert.Proto.sel (feat V c) (labc V c) (prot V c) (pnorm V c) (rowN ⟨n, h⟩ q) := dif_pos h

/-- The running loss sum after point `n`: the terms of the blocks of `n`'s half from its first up to `n`. -/
def lossPart (c : Dev nD) (n : ℕ) : EReal := ∑ i ∈ Finset.range (n % 32 + 1), bterm V c (n - n % 32 + i)

/-- The update at a point adds the point's block term to the slot. -/
theorem upd5 (c : Dev nD) (t : Fin cfg1.N) (acc : Vec Ideal S1x1x1 .f32) (u v w : Fin 1) :
    k1_pay1 (F := Ideal) (k1_pay4 (iblk1 V c 0 t) (iblk1 V c 1 t) (iblk1 V c 2 t)) (k1_pay5 (iblk1 V c 3 t)) acc (ix3 u v w)
      = acc (ix3 (0 : Fin 1) v w) + bterm V c t.val := by
  rw [bterm_of_lt V c t.val t.isLt]
  exact pay1_sel (feat V c) (labc V c) (prot V c) (pnorm V c) (iblk1 V c 0 t) (iblk1 V c 1 t) (iblk1 V c 2 t) (iblk1 V c 3 t) acc (rowN t)
    (fun q k => blk0_apply V c t q k) (fun cl k => blk1_apply V c t cl k) (fun cl => blk2_apply V c t cl) (fun q => blk3_apply V c t q) u v w

/-- After every point the loss slot holds the running loss sum. -/
theorem out5_apply (c : Dev nD) (n : ℕ) :
    ∀ (h : n < cfg1.N) (u v w : Fin 1), (outsAt1 V c n h).2 (ix3 u v w) = lossPart V c n := by
  induction n using Nat.strong_induction_on with
  | _ n ih =>
    intro h u v w
    by_cases h0 : n % 32 = 0
    · rw [outsAt1_A V c ⟨n, h⟩ h0]
      dsimp only
      refine (congrFun (piece_A_5 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩)) (ix3 u v w)).trans ?_
      refine (upd5 V c ⟨n, h⟩ (k1_pay2 (F := Ideal)) u v w).trans ?_
      rw [pay2_apply, zero_add]
      show bterm V c n = lossPart V c n
      unfold lossPart
      rw [h0, Finset.sum_range_one]
      rfl
    · have hpos : 0 < n := Nat.pos_of_ne_zero (fun e => h0 (by rw [e]))
      rw [outsAt1_B V c ⟨n, h⟩ h0]
      dsimp only
      refine (congrFun (piece_B_5 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (fun hh => h0 ((hcond1_0 ⟨n, h⟩).mp hh)) (iblk1 V c 0 ⟨n, h⟩) (iblk1 V c 1 ⟨n, h⟩) (iblk1 V c 2 ⟨n, h⟩) (iblk1 V c 3 ⟨n, h⟩) (outsAt1 V c (n - 1) (Nat.lt_of_le_of_lt (Nat.sub_le _ _) h)).2) (ix3 u v w)).trans ?_
      refine (upd5 V c ⟨n, h⟩ (outsAt1 V c (n - 1) (Nat.lt_of_le_of_lt (Nat.sub_le _ _) h)).2 u v w).trans ?_
      rw [ih (n - 1) (by omega) (Nat.lt_of_le_of_lt (Nat.sub_le _ _) h) 0 v w]
      show lossPart V c (n - 1) + bterm V c n = lossPart V c n
      unfold lossPart
      have e1 : (n - 1) % 32 + 1 = n % 32 := by omega
      have e2 : n - 1 - (n - 1) % 32 = n - n % 32 := by omega
      have e3 : n - n % 32 + n % 32 = n := by omega
      rw [e1, e2, Finset.sum_range_succ, e3]

theorem out5_at (c : Dev nD) (n : ℕ) (h : n < cfg1.N) (y : S1x1x1.Idx) : (outsAt1 V c n h).2 y = lossPart V c n := by
  obtain ⟨u, v, w, rfl⟩ : ∃ (u v w : Fin 1), y = ix3 u v w := ⟨y 0, y 1, y 2, eq_ix3 y⟩
  exact out5_apply V c n h u v w

/-- After the last point of a half the running sum is the half's share of the loss sum. -/
theorem lossPart_last (c : Dev nD) (j : Fin 2) :
    lossPart V c (32 * j.val + 31) = Cert.Proto.coreLoss (feat V c) (labc V c) (prot V c) (pnorm V c) j := by
  unfold lossPart Cert.Proto.coreLoss
  have e1 : (32 * j.val + 31) % 32 + 1 = 32 := by omega
  have e2 : 32 * j.val + 31 - (32 * j.val + 31) % 32 = 32 * j.val := by omega
  rw [e1, e2, Finset.sum_range]
  refine Finset.sum_congr rfl fun i _ => ?_
  have hlt : 32 * j.val + i.val < cfg1.N := by
    rw [show cfg1.N = 64 from N_1]; have := j.isLt; have := i.isLt; omega
  rw [bterm_of_lt V c _ hlt]
  rfl

end Invariant

section Arrays

/-- The logits array after the pass, as one function of the arrays the pass finds. -/
def G4 (c : Dev nD) : S131072x10.Idx → EReal := fun i => Cert.Proto.logit (feat V c) (prot V c) (pnorm V c) (i 0) (i 1)

/-- The loss array after the pass, as one function of the arrays the pass finds. -/
def G5 (c : Dev nD) : S2x1x1.Idx → EReal := fun i => Cert.Proto.coreLoss (feat V c) (labc V c) (prot V c) (pnorm V c) (i 0)

/-- What a point writes back of the logits is its block of that function. -/
theorem flushed4_eq (c : Dev nD) (t : Fin cfg1.N) :
    (dat1 V c).flushed 4 t = ((cfg1.win 4).blk t).view.read (Elt Ideal) (G4 V c) := by
  obtain ⟨-, -, -, -, -, -, -, -, i40, i41, -⟩ := idx1 t
  show (cfg1.win 4).cut (grid1.coords t) ((dat1 V c).after 4 t) = _
  rw [after1_4]
  funext y
  refine (out4_at V c t ((cfg1.win 4).xinj (grid1.coords t) y)).trans ?_
  have e0 : rowN t (((cfg1.win 4).xinj (grid1.coords t) y) 0) = (((cfg1.win 4).blk t).view.emb y) 0 := Fin.ext (by
    show 2048 * t.val + (y 0).val = win1_4.index t (0 : Fin 2) * 2048 + 1 * (y 0).val
    rw [i40]; omega)
  have e1 : ((cfg1.win 4).xinj (grid1.coords t) y) 1 = (((cfg1.win 4).blk t).view.emb y) 1 := Fin.ext (by
    show (y 1).val = win1_4.index t (1 : Fin 2) * 10 + 1 * (y 1).val
    rw [i41]; omega)
  exact congrArg₂ (Cert.Proto.logit (feat V c) (prot V c) (pnorm V c)) e0 e1

/-- An index of the logits array is in a point's block when each coordinate is in the block's range. -/
theorem mem_blk4 (t : Fin cfg1.N) (i : S131072x10.Idx) :
    i ∈ ((cfg1.win 4).blk t).view.set ↔ ∀ a : Fin 2, win1_4.index t a * S2048x10.size a ≤ (i a).val ∧ (i a).val < win1_4.index t a * S2048x10.size a + S2048x10.size a := by
  show i ∈ ((View.whole main_v11_0).slice (win1_4.rect t)).set ↔ _
  rw [View.set_slice_whole, Rect.mem_set_unit]
  exact Iff.rfl

/-- Every row of the logits array is in the block of the point whose number is the row's block. -/
theorem cover4 (i : S131072x10.Idx) : ∃ t : Fin cfg1.N, (cfg1.win 4).flush t = true ∧ i ∈ ((cfg1.win 4).blk t).view.set := by
  have hi0 : (i 0).val < 131072 := (i 0).isLt
  have hi1 : (i 1).val < 10 := (i 1).isLt
  obtain ⟨t, ht⟩ : ∃ t : Fin cfg1.N, t.val = (i 0).val / 2048 :=
    ⟨⟨(i 0).val / 2048, by rw [show cfg1.N = 64 from N_1]; omega⟩, rfl⟩
  obtain ⟨-, -, -, -, -, -, -, -, i40, i41, -⟩ := idx1 t
  refine ⟨t, flush1_4 t, ?_⟩
  rw [mem_blk4]
  intro a
  match a with
  | ⟨0, _⟩ =>
    show win1_4.index t (0 : Fin 2) * 2048 ≤ (i 0).val ∧ (i 0).val < win1_4.index t (0 : Fin 2) * 2048 + 2048
    rw [i40]; omega
  | ⟨1, _⟩ =>
    show win1_4.index t (1 : Fin 2) * 10 ≤ (i 1).val ∧ (i 1).val < win1_4.index t (1 : Fin 2) * 10 + 10
    rw [i41]; omega

/-- So the logits array ends holding that function. -/
theorem final4 (c : Dev nD) : (dat1 V c).arrAt 4 cfg1.N = G4 V c :=
  (dat1 V c).arrAt_eq_of_cover 4 (G4 V c) (fun t _ => flushed4_eq V c t) cover4

/-- What the last point of a half writes back of the loss is its slot of that function. -/
theorem flushed5_eq (c : Dev nD) (t : Fin cfg1.N) (hf : (cfg1.win 5).flush t = true) :
    (dat1 V c).flushed 5 t = ((cfg1.win 5).blk t).view.read (Elt Ideal) (G5 V c) := by
  have hN : t.val < 64 := lt_of_lt_of_eq t.isLt (show cfg1.N = 64 from N_1)
  have h31 : t.val % 32 = 31 := (flush1_5 t).mp hf
  obtain ⟨-, -, -, -, -, -, -, -, -, -, i50, -, -⟩ := idx1 t
  show (cfg1.win 5).cut (grid1.coords t) ((dat1 V c).after 5 t) = _
  rw [after1_5]
  funext y
  refine (out5_at V c t.val t.isLt ((cfg1.win 5).xinj (grid1.coords t) y)).trans ?_
  have hy : (y 0).val < 1 := (y 0).isLt
  have e0 : (⟨t.val / 32, by omega⟩ : Fin 2) = (((cfg1.win 5).blk t).view.emb y) 0 := Fin.ext (by
    show t.val / 32 = win1_5.index t (0 : Fin 3) * 1 + 1 * (y 0).val
    rw [i50]; omega)
  have e : lossPart V c t.val = Cert.Proto.coreLoss (feat V c) (labc V c) (prot V c) (pnorm V c) ⟨t.val / 32, by omega⟩ := by
    rw [← lossPart_last V c ⟨t.val / 32, by omega⟩]
    exact congrArg (lossPart V c) (by dsimp only; omega)
  rw [e]
  exact congrArg (Cert.Proto.coreLoss (feat V c) (labc V c) (prot V c) (pnorm V c)) e0

/-- An index of the loss array is in a point's slot when each coordinate is in the slot's range. -/
theorem mem_blk5 (t : Fin cfg1.N) (i : S2x1x1.Idx) :
    i ∈ ((cfg1.win 5).blk t).view.set ↔ ∀ a : Fin 3, win1_5.index t a * S1x1x1.size a ≤ (i a).val ∧ (i a).val < win1_5.index t a * S1x1x1.size a + S1x1x1.size a := by
  show i ∈ ((View.whole main_v11_1).slice (win1_5.rect t)).set ↔ _
  rw [View.set_slice_whole, Rect.mem_set_unit]
  exact Iff.rfl

/-- Each half's slot is written back at the half's last point. -/
theorem cover5 (i : S2x1x1.Idx) : ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 1 := (i 2).isLt
  obtain ⟨t, ht⟩ : ∃ t : Fin cfg1.N, t.val = 32 * (i 0).val + 31 :=
    ⟨⟨32 * (i 0).val + 31, by rw [show cfg1.N = 64 from N_1]; omega⟩, rfl⟩
  obtain ⟨-, -, -, -, -, -, -, -, -, -, i50, i51, i52⟩ := idx1 t
  refine ⟨t, (flush1_5 t).mpr (by omega), ?_⟩
  rw [mem_blk5]
  intro a
  match a with
  | ⟨0, _⟩ =>
    show win1_5.index t (0 : Fin 3) * 1 ≤ (i 0).val ∧ (i 0).val < win1_5.index t (0 : Fin 3) * 1 + 1
    rw [i50]; omega
  | ⟨1, _⟩ =>
    show win1_5.index t (1 : Fin 3) * 1 ≤ (i 1).val ∧ (i 1).val < win1_5.index t (1 : Fin 3) * 1 + 1
    rw [i51]; omega
  | ⟨2, _⟩ =>
    show win1_5.index t (2 : Fin 3) * 1 ≤ (i 2).val ∧ (i 2).val < win1_5.index t (2 : Fin 3) * 1 + 1
    rw [i52]; omega

/-- So the loss array ends holding that function. -/
theorem final5 (c : Dev nD) : (dat1 V c).arrAt 5 cfg1.N = G5 V c :=
  (dat1 V c).arrAt_eq_of_cover 5 (G5 V c) (flushed5_eq V c) cover5

end Arrays

/-- The logits array after the pass. -/
theorem logits_arr (c : Dev nD) (r : Fin 131072) (cl : Fin 10) :
    (dat1 V c).arrAt 4 cfg1.N (ix2 r cl) = Cert.Proto.logit (feat V c) (prot V c) (pnorm V c) r cl :=
  (congrFun (final4 V c) (ix2 r cl)).trans rfl

/-- Half `j`'s slot of the loss array after the pass. -/
theorem loss_arr (c : Dev nD) (j : Fin 2) :
    (dat1 V c).arrAt 5 cfg1.N (ix3 j 0 0) = Cert.Proto.coreLoss (feat V c) (labc V c) (prot V c) (pnorm V c) j :=
  (congrFun (final5 V c) (ix3 j 0 0)).trans rfl

end Cert.KernelIdeal.Region1

end
-- ==== Proof.KHost.lean ====
/- The tiled program's host glue, read as values. Between and after its two tiled passes the program reshapes the labels
   into a column, adds the two halves' sums and counts, divides them into the class means, takes the means' squared
   norms, and at the end adds the two halves' loss sums and divides by the number of rows. Read index by index at the
   extended reals, and joined with what the two passes leave, the program's two results are the logits of the class
   means and the halves' loss sums over the number of rows. -/
import proofs.«407835_j64536178589961_3_alg».proof.Proof.Spec
import proofs.«407835_j64536178589961_3_alg».proof.Proof.Math
import proofs.«407835_j64536178589961_3_alg».proof.Proof.Region0
import proofs.«407835_j64536178589961_3_alg».proof.Proof.Region1
import proofs.«407835_j64536178589961_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostV

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen
open scoped BigOperators

/-! ## The host operations, one at a time, read at an index -/

/-- The sum over the two halves of a [2,10,512] array. -/
theorem halves_sum_apply (y : FVec Ideal S2x10x512 .f32) (z : FVec Ideal S_ .f32)
    (h : S2x10x512.ReducesTo [0] S10x512) (hu : 0 < S_.numel) (cl : Fin 10) (k : Fin 512) :
    (Host.reduceAdd y z h hu : FVec Ideal S10x512 .f32) (ix2 cl k) = (z (Shape.Idx.first hu) : EReal) + ∑ j : Fin 2, (y (ix3 j cl k) : EReal) := by
  simp only [Host.reduceAdd, Ideal.hostReduceAdd_def]
  rw [Ideal.hostReduceAdd_single h (by decide)]
  refine congrArg (_ + ·) (Finset.sum_congr rfl fun j _ => ?_)
  exact congrArg y (funext fun a => Fin.ext (by match a with | ⟨0, _⟩ => rfl | ⟨1, _⟩ => rfl | ⟨2, _⟩ => rfl))

/-- The sum over the two halves of a [2,1,10] array. -/
theorem halves_count_apply (y : FVec Ideal S2x1x10 .f32) (z : FVec Ideal S_ .f32)
    (h : S2x1x10.ReducesTo [0] S1x10) (hu : 0 < S_.numel) (cl : Fin 10) :
    (Host.reduceAdd y z h hu : FVec Ideal S1x10 .f32) (ix2 0 cl) = (z (Shape.Idx.first hu) : EReal) + ∑ j : Fin 2, (y (ix3 j 0 cl) : EReal) := by
  simp only [Host.reduceAdd, Ideal.hostReduceAdd_def]
  rw [Ideal.hostReduceAdd_single h (by decide)]
  refine congrArg (_ + ·) (Finset.sum_congr rfl fun j _ => ?_)
  exact congrArg y (funext fun a => Fin.ext (by match a with | ⟨0, _⟩ => rfl | ⟨1, _⟩ => rfl | ⟨2, _⟩ => rfl))

/-- The sum along the features of a [10,512] array. -/
theorem feature_sum_apply (y : FVec Ideal S10x512 .f32) (z : FVec Ideal S_ .f32)
    (h : S10x512.ReducesTo [1] S10) (hu : 0 < S_.numel) (cl : Fin 10) :
    (Host.reduceAdd y z h hu : FVec Ideal S10 .f32) (ix1 cl) = (z (Shape.Idx.first hu) : EReal) + ∑ k : Fin 512, (y (ix2 cl k) : EReal) := by
  simp only [Host.reduceAdd, Ideal.hostReduceAdd_def]
  rw [Ideal.hostReduceAdd_single h (by decide)]
  refine congrArg (_ + ·) (Finset.sum_congr rfl fun j _ => ?_)
  exact congrArg y (funext fun a => Fin.ext (by match a with | ⟨0, _⟩ => rfl | ⟨1, _⟩ => rfl))

/-- A [1,10] row recast as a vector, spread down a column and across the features: entry (cl, k) is the row's entry cl. -/
theorem count_spread_apply (y : FVec Ideal S1x10 .f32) (h1 : S1x10.ShapeCasts S10)
    (h2 : S10.BroadcastsInDim S10x1 (![0] : Fin 1 → Fin S10x1.rank)) (h3 : S10x1.BroadcastsInDim S10x512 (![0, 1] : Fin 2 → Fin S10x512.rank))
    (cl : Fin 10) (k : Fin 512) :
    broadcastInDim S10x512 ![0, 1] h3 (broadcastInDim S10x1 ![0] h2 (shapeCast S10 y h1)) (ix2 cl k) = y (ix2 0 cl) := by
  refine (broadcastInDim_apply _ h3 _ (ix2 cl k) (ix2 cl 0) (fun a => match a with
    | ⟨0, _⟩ => by show cl.val = if (10 : Nat) = 1 then 0 else cl.val; rw [if_neg (by decide)]
    | ⟨1, _⟩ => by show (0 : Nat) = if (1 : Nat) = 1 then 0 else k.val; rw [if_pos rfl])).trans ?_
  refine (broadcastInDim_apply _ h2 _ (ix2 cl 0) (ix1 cl) (fun a => match a with
    | ⟨0, _⟩ => by show cl.val = if (10 : Nat) = 1 then 0 else cl.val; rw [if_neg (by decide)])).trans ?_
  exact shapeCast_apply y h1 (ix1 cl) (ix2 0 cl) (by
    rw [Shape.rowMajor_val_two, Shape.rowMajor_val_one]; show 0 * 10 + cl.val = cl.val; omega)

/-- A vector of 10 laid out as a [1,10] row. -/
theorem row_of_vec_apply (y : FVec Ideal S10 .f32) (h : S10.BroadcastsInDim S1x10 (![1] : Fin 1 → Fin S1x10.rank)) (cl : Fin 10) :
    broadcastInDim S1x10 ![1] h y (ix2 0 cl) = y (ix1 cl) :=
  broadcastInDim_apply _ h y (ix2 0 cl) (ix1 cl) (fun a => match a with
    | ⟨0, _⟩ => by show cl.val = if (10 : Nat) = 1 then 0 else cl.val; rw [if_neg (by decide)])

/-- The labels laid out as a column. -/
theorem col_of_vec_apply {α : Type} (y : S131072.Idx → α) (h : S131072.ShapeCasts S131072x1) (r : Fin 131072) :
    shapeCast S131072x1 y h (ix2 r 0) = y (ix1 r) :=
  shapeCast_apply y h (ix2 r 0) (ix1 r) (by
    rw [Shape.rowMajor_val_two, Shape.rowMajor_val_one]; show r.val = r.val * 1 + 0; omega)

/-- An index of a [2,1,1] array is its half. -/
def halfEquiv : S2x1x1.Idx ≃ Fin 2 where
  toFun i := ⟨(i 0).val, (i 0).isLt⟩
  invFun j := ix3 j 0 0
  left_inv i := by
    funext a
    match a with
    | ⟨0, _⟩ => rfl
    | ⟨1, _⟩ => exact Fin.ext (by have h : (i 1).val < 1 := (i 1).isLt; show (0 : Nat) = (i 1).val; omega)
    | ⟨2, _⟩ => exact Fin.ext (by have h : (i 2).val < 1 := (i 2).isLt; show (0 : Nat) = (i 2).val; omega)
  right_inv j := rfl

/-- The sum of all of a [2,1,1] array: its two halves. -/
theorem total_sum_apply (L : FVec Ideal S2x1x1 .f32) (z : FVec Ideal S_ .f32) (h : S2x1x1.ReducesTo [0, 1, 2] S_) (hu : 0 < S_.numel) :
    (Host.reduceAdd L z h hu : FVec Ideal S_ .f32) ix0 = (z (Shape.Idx.first hu) : EReal) + ∑ j : Fin 2, (L (ix3 j 0 0) : EReal) := by
  simp only [Host.reduceAdd, Ideal.hostReduceAdd_def]
  rw [Ideal.hostReduceAdd_total h (fun b => b.elim0)]
  exact congrArg (_ + ·) (Fintype.sum_equiv halfEquiv (fun i => L i) (fun j => L (ix3 j 0 0)) (fun i => congrArg L (halfEquiv.left_inv i).symm))

variable (m : (ℓ : Loc nD τ sig) → Buf (Elt Ideal) ℓ) (ρ : Dev nD → PrngReg)

/-- The features and the labels as launched. -/
abbrev feat (c : Dev nD) : Fin 131072 → Fin 512 → EReal := fun r k => m ((c : Thread nD τ).loc main_arg0) (ix2 r k)
abbrev labs (c : Dev nD) : Fin 131072 → BitVec 32 := fun r => m ((c : Thread nD τ).loc main_arg1) (ix1 r)

/-! ## What the first pass is entered with, and what it leaves -/

theorem V1_arg0 (c : Dev nD) : V1 m ρ c main_arg0 = m ((c : Thread nD τ).loc main_arg0) := by
  show StableHlo.after hostOps0 (W0 m ρ c) (Proc.devRef .tc main_arg0) = _
  after_results_simp

theorem V1_v0 (c : Dev nD) (r : Fin 131072) : V1 m ρ c main_v0 (ix2 r 0) = m ((c : Thread nD τ).loc main_arg1) (ix1 r) := by
  show StableHlo.after hostOps0 (W0 m ρ c) (Proc.devRef .tc main_v0) (ix2 r 0) = _
  after_results_simp
  exact col_of_vec_apply _ _ r

theorem feat0_eq (c : Dev nD) : Region0.feat (V1 m ρ) c = feat m c :=
  funext fun r => funext fun k => congrFun (V1_arg0 m ρ c) (ix2 r k)

theorem labc0_eq (c : Dev nD) : Region0.labc (V1 m ρ) c = labs m c := funext fun r => V1_v0 m ρ c r

theorem W2_sums (c : Dev nD) (j : Fin 2) (cl : Fin 10) (k : Fin 512) :
    W2 m ρ c (Proc.devRef .tc main_v1_0) (ix3 j cl k) = Cert.Proto.coreSums (feat m c) (labs m c) j cl k := by
  refine (congrFun (W2_arr m ρ c 2) (ix3 j cl k)).trans ((Region0.sums_arr (V1 m ρ) c j cl k).trans ?_)
  rw [feat0_eq, labc0_eq]

theorem W2_counts (c : Dev nD) (j : Fin 2) (cl : Fin 10) :
    W2 m ρ c (Proc.devRef .tc main_v1_1) (ix3 j 0 cl) = Cert.Proto.coreCounts (labs m c) j cl := by
  refine (congrFun (W2_arr m ρ c 3) (ix3 j 0 cl)).trans ((Region0.counts_arr (V1 m ρ) c j cl).trans ?_)
  rw [labc0_eq]

theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (V1_arg0 m ρ c))

theorem W2_v0 (c : Dev nD) : W2 m ρ c (Proc.devRef .tc main_v0) = V1 m ρ c main_v0 :=
  (W2_arr m ρ c 1).trans (((dat0 (V1 m ρ) c).arrAt_in 1 rfl _).trans (A_eq0 (V1 m ρ) c 1))

/-! ## What the second pass is entered with -/

theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

theorem V3_v0 (c : Dev nD) (r : Fin 131072) : V3 m ρ c main_v0 (ix2 r 0) = m ((c : Thread nD τ).loc main_arg1) (ix1 r) := by
  show StableHlo.after hostOps1 (W2 m ρ c) (Proc.devRef .tc main_v0) (ix2 r 0) = _
  after_results_simp
  exact (congrFun (W2_v0 m ρ c) (ix2 r 0)).trans (V1_v0 m ρ c r)

theorem V3_v7 (c : Dev nD) (cl : Fin 10) (k : Fin 512) :
    V3 m ρ c main_v7 (ix2 cl k) = Cert.Proto.proto (feat m c) (labs m c) cl k := by
  show StableHlo.after hostOps1 (W2 m ρ c) (Proc.devRef .tc main_v7) (ix2 cl k) = _
  after_results_simp
  have hs := W2_sums m ρ c
  have hc := W2_counts m ρ c
  generalize W2 m ρ c (Proc.devRef .tc main_v1_0) = A at hs ⊢
  generalize W2 m ρ c (Proc.devRef .tc main_v1_1) = B at hc ⊢
  show Ideal.div ((Host.reduceAdd (F := Ideal) A (constant S_ .f32 0x00000000#32) _ _ : FVec Ideal S10x512 .f32) (ix2 cl k))
    (broadcastInDim S10x512 ![0, 1] _ (broadcastInDim S10x1 ![0] _ (shapeCast S10 (Host.reduceAdd (F := Ideal) B (constant S_ .f32 0x00000000#32) _ _ : FVec Ideal S1x10 .f32) _)) (ix2 cl k)) = _
  rw [halves_sum_apply, count_spread_apply, halves_count_apply]
  simp only [hs, hc]
  show Ideal.div (Ideal.ofBits .f32 0x00000000#32 + _) (Ideal.ofBits .f32 0x00000000#32 + _) = _
  rw [Ideal.ofBits_zero_f32, Cert.Proto.coreSums_total, Cert.Proto.coreCounts_total]
  rfl

theorem V3_v10 (c : Dev nD) (cl : Fin 10) :
    V3 m ρ c main_v10 (ix2 0 cl) = Cert.Proto.sqp (feat m c) (labs m c) cl := by
  show StableHlo.after hostOps1 (W2 m ρ c) (Proc.devRef .tc main_v10) (ix2 0 cl) = _
  have h7 : ∀ cl k, StableHlo.after hostOps1 (W2 m ρ c) (Proc.devRef .tc main_v7) (ix2 cl k) = Cert.Proto.proto (feat m c) (labs m c) cl k := V3_v7 m ρ c
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at h7 ⊢
  generalize (Host.divf (Host.reduceAdd (F := Ideal) (W2 m ρ c (Proc.devRef .tc main_v1_0)) _ _ _) _ : FVec Ideal S10x512 .f32) = T7 at h7 ⊢
  rw [row_of_vec_apply, feature_sum_apply]
  show Ideal.ofBits .f32 0x00000000#32 + ∑ k : Fin 512, T7 (ix2 cl k) * T7 (ix2 cl k) = _
  simp only [h7]
  rw [Ideal.ofBits_zero_f32, zero_add]
  rfl

/-! ## What the second pass leaves, and the results -/

theorem feat1_eq (c : Dev nD) : Region1.feat (V3 m ρ) c = feat m c :=
  funext fun r => funext fun k => congrFun (V3_arg0 m ρ c) (ix2 r k)
theorem labc1_eq (c : Dev nD) : Region1.labc (V3 m ρ) c = labs m c := funext fun r => V3_v0 m ρ c r
theorem prot1_eq (c : Dev nD) : Region1.prot (V3 m ρ) c = Cert.Proto.proto (feat m c) (labs m c) :=
  funext fun cl => funext fun k => V3_v7 m ρ c cl k
theorem pnorm1_eq (c : Dev nD) : Region1.pnorm (V3 m ρ) c = Cert.Proto.sqp (feat m c) (labs m c) :=
  funext fun cl => V3_v10 m ρ c cl

/-- The logits result. -/
theorem W5_logits (c : Dev nD) (r : Fin 131072) (cl : Fin 10) :
    W5 m ρ c (Proc.devRef .tc main_v11_0) (ix2 r cl)
      = Cert.Proto.logit (feat m c) (Cert.Proto.proto (feat m c) (labs m c)) (Cert.Proto.sqp (feat m c) (labs m c)) r cl := by
  show StableHlo.after hostOps2 (W4 m ρ c) (Proc.devRef .tc main_v11_0) (ix2 r cl) = _
  after_results_simp
  refine (congrFun (W4_arr m ρ c 4) (ix2 r cl)).trans ((Region1.logits_arr (V3 m ρ) c r cl).trans ?_)
  rw [feat1_eq, prot1_eq, pnorm1_eq]

theorem W4_loss (c : Dev nD) (j : Fin 2) :
    W4 m ρ c (Proc.devRef .tc main_v11_1) (ix3 j 0 0)
      = Cert.Proto.coreLoss (feat m c) (labs m c) (Cert.Proto.proto (feat m c) (labs m c)) (Cert.Proto.sqp (feat m c) (labs m c)) j := by
  refine (congrFun (W4_arr m ρ c 5) (ix3 j 0 0)).trans ((Region1.loss_arr (V3 m ρ) c j).trans ?_)
  rw [feat1_eq, labc1_eq, prot1_eq, pnorm1_eq]

/-- The loss result. -/
theorem W5_loss (c : Dev nD) :
    W5 m ρ c (Proc.devRef .tc main_v13) ix0
      = Ideal.div (0 + ∑ j : Fin 2, Cert.Proto.coreLoss (feat m c) (labs m c) (Cert.Proto.proto (feat m c) (labs m c)) (Cert.Proto.sqp (feat m c) (labs m c)) j) Cert.Proto.nRows := by
  show StableHlo.after hostOps2 (W4 m ρ c) (Proc.devRef .tc main_v13) ix0 = _
  after_results_simp
  have hl := W4_loss m ρ c
  generalize W4 m ρ c (Proc.devRef .tc main_v11_1) = L at hl ⊢
  show Ideal.div ((Host.reduceAdd (F := Ideal) L (constant S_ .f32 0x00000000#32) _ _ : FVec Ideal S_ .f32) ix0) (Ideal.ofBits .f32 0x48000000#32) = _
  rw [total_sum_apply]
  show Ideal.div (Ideal.ofBits .f32 0x00000000#32 + _) _ = _
  rw [Ideal.ofBits_zero_f32]
  simp only [hl]
  rfl

end Cert.KernelIdeal.HostV

end
-- ==== Proof.RefRun.lean ====
/- The reference program's run, read back stage by stage: every weakly fair execution terminates with the two results
   at the composition of the program's operations applied to the arguments' launch contents, the arguments unchanged. -/
import proofs.«407835_j64536178589961_3_alg».proof.Proof.RefOps
import proofs.«407835_j64536178589961_3_alg».proof.Proof.RefRead
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The contents after two lines run one after the other: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A stretch of the program, given by its position in the whole line, written out as the list of its operations,
    and each operation's result read at the buffer asked for. -/
macro "stretch" : tactic =>
  `(tactic| (simp only [List.take_succ_cons, List.take_zero, List.drop_succ_cons, List.drop_zero]; after_results_simp))

/-- Contents moved to a buffer's own type and back are the contents. -/
theorem ofBuf_toBuf {T : BufTy} (x : TRef sig T) (v : T.Contents (Elt F)) : x.ofBuf (x.toBuf v) = v := by
  obtain ⟨r, h, hd, hu⟩ := x
  subst h
  rfl

/-! The nine stretches. Each is stated for ANY contents `W` before it that hold the arguments `x0`, `x1` and the
    earlier stages it reads; it gives the stages later stretches read, and hands on the ones it does not touch. -/

/-- Operations 1 to 13: the class sums, the class counts, and their quotient, the prototypes (stage `main_v9`). -/
theorem stretch1 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1) :
    after ((ops (F := F)).take 13) W (Proc.devRef .tc main_v9) = ReadP.val_main_v9 x0 x1
    ∧ after ((ops (F := F)).take 13) W (Proc.devRef .tc main_arg0) = x0
    ∧ after ((ops (F := F)).take 13) W (Proc.devRef .tc main_arg1) = x1 := by
  refine ⟨?_, ?_, ?_⟩
  · stretch; simp only [h0, h1]; rfl
  · stretch; exact h0
  · stretch; exact h1

/-- Operations 14 to 24: the squared norms of the rows and of the prototypes, broadcast and added (stage `main_v18`). -/
theorem stretch2 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h9 : W (Proc.devRef .tc main_v9) = ReadP.val_main_v9 x0 x1) :
    after (((ops (F := F)).drop 13).take 11) W (Proc.devRef .tc main_v18) = ReadP.val_main_v18 x0 x1
    ∧ after (((ops (F := F)).drop 13).take 11) W (Proc.devRef .tc main_v9) = ReadP.val_main_v9 x0 x1
    ∧ after (((ops (F := F)).drop 13).take 11) W (Proc.devRef .tc main_arg0) = x0
    ∧ after (((ops (F := F)).drop 13).take 11) W (Proc.devRef .tc main_arg1) = x1 := by
  refine ⟨?_, ?_, ?_, ?_⟩
  · stretch; simp only [h0, h9]; rfl
  · stretch; exact h9
  · stretch; exact h0
  · stretch; exact h1

/-- Operations 25 to 34: the inner products with the prototypes, the squared distances clamped at zero, negated: the logits (stage `main_v26`). -/
theorem stretch3 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h9 : W (Proc.devRef .tc main_v9) = ReadP.val_main_v9 x0 x1)
    (h18 : W (Proc.devRef .tc main_v18) = ReadP.val_main_v18 x0 x1) :
    after (((ops (F := F)).drop 24).take 10) W (Proc.devRef .tc main_v26) = ReadP.val_main_v26 x0 x1
    ∧ after (((ops (F := F)).drop 24).take 10) W (Proc.devRef .tc main_arg0) = x0
    ∧ after (((ops (F := F)).drop 24).take 10) W (Proc.devRef .tc main_arg1) = x1 := by
  refine ⟨?_, ?_, ?_⟩
  · stretch; simp only [h0, h9, h18]; rfl
  · stretch; exact h0
  · stretch; exact h1

/-- Operations 35 to 42: the row maxima of the logits, and the logits less their row's maximum (stage `main_call0_v5`). -/
theorem stretch4 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h26 : W (Proc.devRef .tc main_v26) = ReadP.val_main_v26 x0 x1) :
    after (((ops (F := F)).drop 34).take 8) W (Proc.devRef .tc main_call0_v5) = ReadP.val_main_call0_v5 x0 x1
    ∧ after (((ops (F := F)).drop 34).take 8) W (Proc.devRef .tc main_v26) = ReadP.val_main_v26 x0 x1
    ∧ after (((ops (F := F)).drop 34).take 8) W (Proc.devRef .tc main_arg0) = x0
    ∧ after (((ops (F := F)).drop 34).take 8) W (Proc.devRef .tc main_arg1) = x1 := by
  have h26' : (TRef.of (sig := sig) (T := ⟨S131072x10, .f32⟩) main_v26).ofBuf (W (Proc.devRef .tc main_v26))
      = ReadP.val_main_v26 x0 x1 := (eq_of_heq (cast_heq _ _)).trans h26
  refine ⟨?_, ?_, ?_, ?_⟩
  · stretch; simp only [ofBuf_toBuf, h26']
    refine eq_of_heq ((cast_heq _ _).trans (heq_of_eq ?_))
    rfl
  · stretch; exact h26
  · stretch; exact h0
  · stretch; exact h1

/-- Operations 43 to 49: the exponentials, their row sums, the logarithms, subtracted: the log-softmax (stage `main_v27`). -/
theorem stretch5 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h26 : W (Proc.devRef .tc main_v26) = ReadP.val_main_v26 x0 x1)
    (hc5 : W (Proc.devRef .tc main_call0_v5) = ReadP.val_main_call0_v5 x0 x1) :
    after (((ops (F := F)).drop 42).take 7) W (Proc.devRef .tc main_v27) = ReadP.val_main_v27 x0 x1
    ∧ after (((ops (F := F)).drop 42).take 7) W (Proc.devRef .tc main_v26) = ReadP.val_main_v26 x0 x1
    ∧ after (((ops (F := F)).drop 42).take 7) W (Proc.devRef .tc main_arg0) = x0
    ∧ after (((ops (F := F)).drop 42).take 7) W (Proc.devRef .tc main_arg1) = x1 := by
  refine ⟨?_, ?_, ?_, ?_⟩
  · stretch; simp only [hc5]; rfl
  · stretch; exact h26
  · stretch; exact h0
  · stretch; exact h1

/-- Operations 50 to 58: the labels as a column, a negative label moved up by the number of classes, reshaped: the
    gather's indices (stage `main_call1_v5`). -/
theorem stretch6 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h26 : W (Proc.devRef .tc main_v26) = ReadP.val_main_v26 x0 x1)
    (h27 : W (Proc.devRef .tc main_v27) = ReadP.val_main_v27 x0 x1) :
    after (((ops (F := F)).drop 49).take 9) W (Proc.devRef .tc main_call1_v5) = ReadP.val_main_call1_v5 x1
    ∧ after (((ops (F := F)).drop 49).take 9) W (Proc.devRef .tc main_v27) = ReadP.val_main_v27 x0 x1
    ∧ after (((ops (F := F)).drop 49).take 9) W (Proc.devRef .tc main_v26) = ReadP.val_main_v26 x0 x1
    ∧ after (((ops (F := F)).drop 49).take 9) W (Proc.devRef .tc main_arg0) = x0
    ∧ after (((ops (F := F)).drop 49).take 9) W (Proc.devRef .tc main_arg1) = x1 := by
  refine ⟨?_, ?_, ?_, ?_, ?_⟩
  · stretch; simp only [h1]; rfl
  · stretch; exact h27
  · stretch; exact h26
  · stretch; exact h0
  · stretch; exact h1

/-- Operations 59 to 68: whether an index lies within the classes (stage `main_call1_v12`). -/
theorem stretch7 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h26 : W (Proc.devRef .tc main_v26) = ReadP.val_main_v26 x0 x1)
    (h27 : W (Proc.devRef .tc main_v27) = ReadP.val_main_v27 x0 x1)
    (hd5 : W (Proc.devRef .tc main_call1_v5) = ReadP.val_main_call1_v5 x1) :
    after (((ops (F := F)).drop 58).take 10) W (Proc.devRef .tc main_call1_v12) = ReadP.val_main_call1_v12 x1
    ∧ after (((ops (F := F)).drop 58).take 10) W (Proc.devRef .tc main_call1_v5) = ReadP.val_main_call1_v5 x1
    ∧ after (((ops (F := F)).drop 58).take 10) W (Proc.devRef .tc main_v27) = ReadP.val_main_v27 x0 x1
    ∧ after (((ops (F := F)).drop 58).take 10) W (Proc.devRef .tc main_v26) = ReadP.val_main_v26 x0 x1
    ∧ after (((ops (F := F)).drop 58).take 10) W (Proc.devRef .tc main_arg0) = x0
    ∧ after (((ops (F := F)).drop 58).take 10) W (Proc.devRef .tc main_arg1) = x1 := by
  have hd5' : (TRef.of (sig := sig) (T := ⟨S131072x1x1, .i32⟩) main_call1_v5).ofBuf (W (Proc.devRef .tc main_call1_v5))
      = ReadP.val_main_call1_v5 x1 := (eq_of_heq (cast_heq _ _)).trans hd5
  refine ⟨?_, ?_, ?_, ?_, ?_, ?_⟩
  · stretch; simp only [ofBuf_toBuf, hd5']
    refine eq_of_heq ((cast_heq _ _).trans (heq_of_eq ?_))
    rfl
  · stretch; exact hd5
  · stretch; exact h27
  · stretch; exact h26
  · stretch; exact h0
  · stretch; exact h1

/-- Operations 69 to 72: the log-softmax gathered at the labels, not-a-number where the index is out of range (stage `main_v29`). -/
theorem stretch8 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h26 : W (Proc.devRef .tc main_v26) = ReadP.val_main_v26 x0 x1)
    (h27 : W (Proc.devRef .tc main_v27) = ReadP.val_main_v27 x0 x1)
    (hd5 : W (Proc.devRef .tc main_call1_v5) = ReadP.val_main_call1_v5 x1)
    (hd12 : W (Proc.devRef .tc main_call1_v12) = ReadP.val_main_call1_v12 x1) :
    after (((ops (F := F)).drop 68).take 4) W (Proc.devRef .tc main_v29) = ReadP.val_main_v29 x0 x1
    ∧ after (((ops (F := F)).drop 68).take 4) W (Proc.devRef .tc main_v26) = ReadP.val_main_v26 x0 x1
    ∧ after (((ops (F := F)).drop 68).take 4) W (Proc.devRef .tc main_arg0) = x0
    ∧ after (((ops (F := F)).drop 68).take 4) W (Proc.devRef .tc main_arg1) = x1 := by
  have h27' : (TRef.of (sig := sig) (T := ⟨S131072x10, .f32⟩) main_v27).ofBuf (W (Proc.devRef .tc main_v27))
      = ReadP.val_main_v27 x0 x1 := (eq_of_heq (cast_heq _ _)).trans h27
  have hd5' : (TRef.of (sig := sig) (T := ⟨S131072x1x1, .i32⟩) main_call1_v5).ofBuf (W (Proc.devRef .tc main_call1_v5))
      = ReadP.val_main_call1_v5 x1 := (eq_of_heq (cast_heq _ _)).trans hd5
  have hd12' : (TRef.of (sig := sig) (T := ⟨S131072x1, .i1⟩) main_call1_v12).ofBuf (W (Proc.devRef .tc main_call1_v12))
      = ReadP.val_main_call1_v12 x1 := (eq_of_heq (cast_heq _ _)).trans hd12
  refine ⟨?_, ?_, ?_, ?_⟩
  · stretch; simp only [ofBuf_toBuf, h27', hd5', hd12']
    refine eq_of_heq ((cast_heq _ _).trans (heq_of_eq ?_))
    rfl
  · stretch; exact h26
  · stretch; exact h0
  · stretch; exact h1

/-- Operations 73 to 77: summed over the rows, divided by their number, negated: the loss (stage `main_v32`). -/
theorem stretch9 (W : Valuation τ sig (Elt F)) (x0 : (⟨S131072x512, .f32⟩ : BufTy).Contents (Elt F)) (x1 : (⟨S131072, .i32⟩ : BufTy).Contents (Elt F))
    (h0 : W (Proc.devRef .tc main_arg0) = x0) (h1 : W (Proc.devRef .tc main_arg1) = x1)
    (h26 : W (Proc.devRef .tc main_v26) = ReadP.val_main_v26 x0 x1)
    (h29 : W (Proc.devRef .tc main_v29) = ReadP.val_main_v29 x0 x1) :
    after ((ops (F := F)).drop 72) W (Proc.devRef .tc main_v32) = ReadP.val_main_v32 x0 x1
    ∧ after ((ops (F := F)).drop 72) W (Proc.devRef .tc main_v26) = ReadP.val_main_v26 x0 x1
    ∧ after ((ops (F := F)).drop 72) W (Proc.devRef .tc main_arg0) = x0
    ∧ after ((ops (F := F)).drop 72) W (Proc.devRef .tc main_arg1) = x1 := by
  refine ⟨?_, ?_, ?_, ?_⟩
  · stretch; simp only [h29]; rfl
  · stretch; exact h26
  · stretch; exact h0
  · stretch; exact h1

/-- The whole line is the nine stretches in a row. -/
theorem ops_cut : (ops (F := F)) = ops.take 13 ++ ((ops.drop 13).take 11 ++ ((ops.drop 24).take 10 ++ ((ops.drop 34).take 8
    ++ ((ops.drop 42).take 7 ++ ((ops.drop 49).take 9 ++ ((ops.drop 58).take 10 ++ ((ops.drop 68).take 4 ++ ops.drop 72))))))) := rfl

/-- After the whole line, from any contents `V`: the loss and the logits at their stages of the arguments' contents, the arguments as they were. -/
theorem after_ops (V : Valuation τ sig (Elt F)) :
    after ops V (Proc.devRef .tc main_v32) = ReadP.val_main_v32 (V (Proc.devRef .tc main_arg0)) (V (Proc.devRef .tc main_arg1))
    ∧ after ops V (Proc.devRef .tc main_v26) = ReadP.val_main_v26 (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  obtain ⟨a9, a0, a1⟩ := stretch1 V _ _ rfl rfl
  obtain ⟨b18, b9, b0, b1⟩ := stretch2 (after ((ops (F := F)).take 13) V) _ _ a0 a1 a9
  obtain ⟨c26, c0, c1⟩ := stretch3 (after (((ops (F := F)).drop 13).take 11) (after ((ops (F := F)).take 13) V)) _ _ b0 b1 b9 b18
  obtain ⟨d5, d26, d0, d1⟩ := stretch4 _ _ _ c0 c1 c26
  obtain ⟨e27, e26, e0, e1⟩ := stretch5 _ _ _ d0 d1 d26 d5
  obtain ⟨f5, f27, f26, f0, f1⟩ := stretch6 _ _ _ e0 e1 e26 e27
  obtain ⟨g12, g5, g27, g26, g0, g1⟩ := stretch7 _ _ _ f0 f1 f26 f27 f5
  obtain ⟨i29, i26, i0, i1⟩ := stretch8 _ _ _ g0 g1 g26 g27 g5 g12
  obtain ⟨h32, h26, h0, h1⟩ := stretch9 _ _ _ i0 i1 i26 i29
  rw [ops_cut]
  simp only [after_app]
  exact ⟨h32, h26, h0, h1⟩

/-- On every device, for any float values, from any memory with zero counters: every weakly fair execution of the program
    terminates with the loss and the logits at their stages of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = Cert.ReferenceIdeal.ReadP.val_main_v32 (F := F) (m ((c.tc : Thread nD τ).loc main_arg0)) (m ((c.tc : Thread nD τ).loc main_arg1))
      ∧ r.2.mem ((c.tc : Thread nD τ).loc main_v26)
          = Cert.ReferenceIdeal.ReadP.val_main_v26 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v32).trans (after_ops (launchContents m c)).1,
       (h c main_v26).trans (after_ops (launchContents m c)).2.1,
       (h c main_arg0).trans (after_ops (launchContents m c)).2.2.1,
       (h c main_arg1).trans (after_ops (launchContents m c)).2.2.2⟩)
    (run_seq scopedRefs_eq scopedSems_eq defs main (fun _ => ops) main_eq (fun _ => ops_sub) m ρ)

end Cert.ReferenceIdeal.RefRun

end
-- ==== Proof.RefValue.lean ====
/- The reference program's two results, read as values: its logits array is the clamped squared distances to the
   class means, negated, and its loss is minus the mean over the rows of the log-probability each row's label picks —
   where every label is a class number, the log-probability the row's one-hot picks. -/
import proofs.«407835_j64536178589961_3_alg».proof.Proof.Spec
import proofs.«407835_j64536178589961_3_alg».proof.Proof.Math
import proofs.«407835_j64536178589961_3_alg».proof.Proof.RefRead
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.ReferenceIdeal.RefValue

open Idealize.ShloMosaic Idealize.ShloMosaic.ValueIdx
open Cert.ReferenceIdeal Cert.ReferenceIdeal.Gen
open scoped BigOperators

variable (x0 : (⟨S131072x512, .f32⟩ : BufTy).Contents (Elt Ideal)) (x1 : (⟨S131072, .i32⟩ : BufTy).Contents (Elt Ideal))

/-- The features and the labels as the reference's arguments hold them. -/
abbrev feat : Fin 131072 → Fin 512 → EReal := fun r k => x0 (ix2 r k)
abbrev labs : Fin 131072 → BitVec 32 := fun r => x1 (ix1 r)

abbrev dimsSums := scatter_S10x512_S131072x1_S131072x512_1_0_0_1

theorem D2_start0 (j : S131072x512.Idx) (idx : IVec S131072x1 32) :
    dimsSums.start j idx 0 = (idx (ix2 (j 0) 0)).toInt := by
  unfold ScatterDims.start
  rw [dif_pos (by decide)]
  congr 2
  funext b
  match b with
  | ⟨0, _⟩ => rfl
  | ⟨1, _⟩ => rfl

theorem D2_start1 (j : S131072x512.Idx) (idx : IVec S131072x1 32) :
    dimsSums.start j idx 1 = 0 := by
  unfold ScatterDims.start
  rw [dif_neg (by decide)]

theorem D2_window0 (j : S131072x512.Idx) : dimsSums.window j 0 = 0 := by
  unfold ScatterDims.window
  rw [dif_neg (by decide)]

theorem D2_window1 (j : S131072x512.Idx) : dimsSums.window j 1 = (j 1).val := by
  unfold ScatterDims.window
  rw [dif_pos (by decide)]
  rfl

theorem D2_result (j : S131072x512.Idx) (idx : IVec S131072x1 32) (c : Fin 10)
    (h : (idx (ix2 (j 0) 0)).toInt = (c.val : Int)) :
    dimsSums.resultIdx? j idx = some (ix2 c (j 1)) := by
  have hall : ∀ a, 0 ≤ dimsSums.start j idx a + dimsSums.window j a ∧ dimsSums.start j idx a + dimsSums.window j a < S10x512.size a := by
    intro a
    match a with
    | ⟨0, _⟩ =>
      have e0 := D2_start0 j idx
      have w0 := D2_window0 j
      have hs : S10x512.size 0 = 10 := rfl
      have hc := c.isLt
      show 0 ≤ dimsSums.start j idx 0 + dimsSums.window j 0 ∧ dimsSums.start j idx 0 + dimsSums.window j 0 < S10x512.size 0
      rw [e0, w0, h, hs]
      omega
    | ⟨1, _⟩ =>
      have e1 := D2_start1 j idx
      have w1 := D2_window1 j
      have hs : S10x512.size 1 = 512 := rfl
      have hj : (j 1).val < 512 := (j 1).isLt
      show 0 ≤ dimsSums.start j idx 1 + dimsSums.window j 1 ∧ dimsSums.start j idx 1 + dimsSums.window j 1 < S10x512.size 1
      rw [e1, w1, hs]
      omega
  unfold ScatterDims.resultIdx?
  rw [dif_pos hall]
  congr 1
  funext a
  refine Fin.ext ?_
  match a with
  | ⟨0, _⟩ =>
    show (dimsSums.start j idx 0 + dimsSums.window j 0).toNat = c.val
    rw [D2_start0, D2_window0, h]
    omega
  | ⟨1, _⟩ =>
    show (dimsSums.start j idx 1 + dimsSums.window j 1).toNat = (j 1).val
    rw [D2_start1, D2_window1]
    omega

theorem toInt_cls (c : Fin 10) : (BitVec.ofNat 32 c.val).toInt = (c.val : Int) := by
  revert c; decide

theorem cls_inj {c c' : Fin 10} (h : BitVec.ofNat 32 c.val = BitVec.ofNat 32 c'.val) : c = c' := by
  have := congrArg BitVec.toInt h
  rw [toInt_cls, toInt_cls] at this
  exact Fin.ext (by omega)

/-- With the row's label the class `c`, the one-hot at class `cl` is the indicator of `cl = c`. -/
theorem oh_eq (l : Fin 131072 → BitVec 32) (r : Fin 131072) (c cl : Fin 10) (hc : BitVec.ofNat 32 c.val = l r) :
    Cert.Proto.oh l r cl = if cl = c then 1 else 0 := by
  unfold Cert.Proto.oh
  rw [← hc]
  by_cases h : cl = c
  · rw [if_pos h, if_pos (by rw [h])]
  · rw [if_neg h, if_neg (fun e => h (cls_inj e))]

theorem v1_at (r : Fin 131072) : ReadP.val_main_v1 (F := Ideal) x1 (ix2 r 0) = x1 (ix1 r) := by
  rw [ReadP.val_main_v1_apply]
  exact congrArg x1 (funext fun a => Fin.ext (by match a with | ⟨0, _⟩ => rfl))

theorem zero_v0 (i : S10x512.Idx) : ReadP.val_main_v0 (F := Ideal) i = 0 := by
  rw [ReadP.val_main_v0_apply, ReadP.val_main_cst_apply, Ideal.ofBits_def, Ideal.ofBits_zero_f32]

/-- The per-class sums the scatter leaves. -/
theorem sums_ref (hl : Cert.Proto.LabOk (labs x1)) (cl : Fin 10) (k : Fin 512) :
    ReadP.val_main_v2 (F := Ideal) x0 x1 (ix2 cl k) = Cert.Proto.sums (feat x0) (labs x1) cl k := by
  unfold ReadP.val_main_v2 Host.scatterAdd
  rw [Ideal.hostScatterAdd_def]
  unfold Ideal.hostScatterAdd
  rw [zero_v0, zero_add]
  have hidx := v1_at x1
  generalize ReadP.val_main_v1 (F := Ideal) x1 = idx at hidx
  rw [Finset.sum_filter, sum_idx2]
  unfold Cert.Proto.sums
  refine Finset.sum_congr rfl fun r _ => ?_
  obtain ⟨c, hc⟩ := Cert.Proto.LabOk.cls hl r
  have hc' : BitVec.ofNat 32 c.val = x1 (ix1 r) := hc
  have hr : ∀ k' : Fin 512, dimsSums.resultIdx? (ix2 r k') idx = some (ix2 c k') := fun k' =>
    D2_result (ix2 r k') idx c (by
      show (idx (ix2 r 0)).toInt = _
      rw [hidx r, ← hc', toInt_cls])
  rw [oh_eq (labs x1) r c cl hc]
  by_cases h : cl = c
  · subst h
    rw [if_pos rfl, one_mul]
    rw [Finset.sum_eq_single k]
    · rw [if_pos (hr k)]
    · intro k' _ hk'
      rw [if_neg]
      rw [hr k']
      intro e
      have := congrArg (fun i : S10x512.Idx => i 1) (Option.some.inj e)
      exact hk' this
    · intro hk; exact absurd (Finset.mem_univ k) hk
  · rw [if_neg h, zero_mul]
    refine Finset.sum_eq_zero fun k' _ => ?_
    rw [if_neg]
    rw [hr k']
    intro e
    have := congrArg (fun i : S10x512.Idx => i 0) (Option.some.inj e)
    exact h this.symm

abbrev dimsCounts := scatter_S10_S131072x1_S131072_n_0_0_1

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

theorem D1_start0 (j : S131072.Idx) (idx : IVec S131072x1 32) :
    dimsCounts.start j idx 0 = (idx (ix2 (j 0) 0)).toInt := by
  unfold ScatterDims.start
  rw [dif_pos (by decide)]
  congr 2
  funext b
  match b with
  | ⟨0, _⟩ => rfl
  | ⟨1, _⟩ => rfl

theorem D1_window0 (j : S131072.Idx) : dimsCounts.window j 0 = 0 := by
  unfold ScatterDims.window
  rw [dif_neg (by decide)]

theorem D1_result (j : S131072.Idx) (idx : IVec S131072x1 32) (c : Fin 10)
    (h : (idx (ix2 (j 0) 0)).toInt = (c.val : Int)) :
    dimsCounts.resultIdx? j idx = some (ix1 c) := by
  have hall : ∀ a, 0 ≤ dimsCounts.start j idx a + dimsCounts.window j a ∧ dimsCounts.start j idx a + dimsCounts.window j a < S10.size a := by
    intro a
    match a with
    | ⟨0, _⟩ =>
      have e0 := D1_start0 j idx
      have w0 := D1_window0 j
      have hs : S10.size 0 = 10 := rfl
      have hc := c.isLt
      show 0 ≤ dimsCounts.start j idx 0 + dimsCounts.window j 0 ∧ dimsCounts.start j idx 0 + dimsCounts.window j 0 < S10.size 0
      rw [e0, w0, h, hs]
      omega
  unfold ScatterDims.resultIdx?
  rw [dif_pos hall]
  congr 1
  funext a
  refine Fin.ext ?_
  match a with
  | ⟨0, _⟩ =>
    show (dimsCounts.start j idx 0 + dimsCounts.window j 0).toNat = c.val
    rw [D1_start0, D1_window0, h]
    omega

theorem v5_at (r : Fin 131072) : ReadP.val_main_v5 (F := Ideal) x1 (ix2 r 0) = x1 (ix1 r) := by
  rw [ReadP.val_main_v5_apply]
  exact congrArg x1 (funext fun a => Fin.ext (by match a with | ⟨0, _⟩ => rfl))

theorem zero_v4 (i : S10.Idx) : ReadP.val_main_v4 (F := Ideal) i = 0 := by
  rw [ReadP.val_main_v4_apply, ReadP.val_main_cst_1_apply, Ideal.ofBits_def, Ideal.ofBits_zero_f32]

theorem ofBits_one' : Ideal.ofBits .f32 0x3F800000#32 = 1 := by
  rw [Cert.ERealBN.ofBits_one, EReal.coe_one]

theorem one_v3 (i : S131072.Idx) : ReadP.val_main_v3 (F := Ideal) i = 1 := by
  rw [ReadP.val_main_v3_apply, ReadP.val_main_cst_0_apply, Ideal.ofBits_def, ofBits_one']

/-- The per-class counts the second scatter leaves. -/
theorem counts_ref (hl : Cert.Proto.LabOk (labs x1)) (cl : Fin 10) :
    ReadP.val_main_v6 (F := Ideal) x1 (ix1 cl) = Cert.Proto.counts (labs x1) cl := by
  unfold ReadP.val_main_v6 Host.scatterAdd
  rw [Ideal.hostScatterAdd_def]
  unfold Ideal.hostScatterAdd
  rw [zero_v4, zero_add]
  have hidx := v5_at x1
  generalize ReadP.val_main_v5 (F := Ideal) x1 = idx at hidx
  rw [Finset.sum_filter]
  unfold Cert.Proto.counts
  rw [sum_idx1]
  refine Finset.sum_congr rfl fun r _ => ?_
  obtain ⟨c, hc⟩ := Cert.Proto.LabOk.cls hl r
  have hc' : BitVec.ofNat 32 c.val = x1 (ix1 r) := hc
  have hr : dimsCounts.resultIdx? (ix1 r) idx = some (ix1 c) :=
    D1_result (ix1 r) idx c (by
      show (idx (ix2 r 0)).toInt = _
      rw [hidx r, ← hc', toInt_cls])
  rw [oh_eq (labs x1) r c cl hc, hr, one_v3]
  by_cases h : cl = c
  · subst h
    rw [if_pos rfl, if_pos rfl]
  · rw [if_neg h, if_neg]
    intro e
    have := congrArg (fun i : S10.Idx => i 0) (Option.some.inj e)
    exact h this.symm

/-- The class means. -/
theorem proto_ref (hl : Cert.Proto.LabOk (labs x1)) (cl : Fin 10) (k : Fin 512) :
    ReadP.val_main_v9 (F := Ideal) x0 x1 (ix2 cl k) = Cert.Proto.proto (feat x0) (labs x1) cl k := by
  rw [ReadP.val_main_v9_apply, Ideal.hostDivf_def, sums_ref x0 x1 hl, ReadP.val_main_v8_apply, ReadP.val_main_v7_apply]
  have e : ReadP.idx_main_v7 (ReadP.idx_main_v8 (ix2 cl k)) = ix1 cl :=
    funext fun a => Fin.ext (by match a with | ⟨0, _⟩ => rfl)
  rw [e, counts_ref x1 hl]
  rfl

/-- A row's squared norm, as the reference lays it out along the classes. -/
theorem sqe_ref (r : Fin 131072) (cl : Fin 10) :
    ReadP.val_main_v16 (F := Ideal) x0 (ix2 r cl) = Cert.Proto.sqe (feat x0) r := by
  rw [ReadP.val_main_v16_apply, ReadP.val_main_v12_apply, ReadP.val_main_v11_apply, ReadP.val_main_cst_2_apply,
    Ideal.ofBits_def, Ideal.ofBits_zero_f32, zero_add]
  unfold Cert.Proto.sqe
  refine Finset.sum_congr rfl fun k _ => ?_
  rw [ReadP.val_main_v10_apply, Ideal.mulf_def]
  have e : ReadP.idx_main_v11 (ReadP.idx_main_v12 (ReadP.idx_main_v16 (ix2 r cl))) k = ix2 r k :=
    funext fun a => Fin.ext (by match a with | ⟨0, _⟩ => rfl | ⟨1, _⟩ => rfl)
  rw [e]

/-- A class mean's squared norm, as the reference lays it out along the rows. -/
theorem sqp_ref (hl : Cert.Proto.LabOk (labs x1)) (r : Fin 131072) (cl : Fin 10) :
    ReadP.val_main_v17 (F := Ideal) x0 x1 (ix2 r cl) = Cert.Proto.sqp (feat x0) (labs x1) cl := by
  rw [ReadP.val_main_v17_apply, ReadP.val_main_v15_apply, ReadP.val_main_v14_apply, ReadP.val_main_cst_3_apply,
    Ideal.ofBits_def, Ideal.ofBits_zero_f32, zero_add]
  unfold Cert.Proto.sqp
  refine Finset.sum_congr rfl fun k _ => ?_
  rw [ReadP.val_main_v13_apply, Ideal.mulf_def]
  have e : ReadP.idx_main_v14 (ReadP.idx_main_v15 (ReadP.idx_main_v17 (ix2 r cl))) k = ix2 cl k :=
    funext fun a => Fin.ext (by match a with | ⟨0, _⟩ => rfl | ⟨1, _⟩ => rfl)
  rw [e, proto_ref x0 x1 hl]

/-- A row's inner product with a class mean. -/
theorem cross_ref (hl : Cert.Proto.LabOk (labs x1)) (r : Fin 131072) (cl : Fin 10) :
    ReadP.val_main_v20 (F := Ideal) x0 x1 (ix2 r cl)
      = Cert.Proto.cross (feat x0) (Cert.Proto.proto (feat x0) (labs x1)) r cl := by
  rw [ReadP.val_main_v20_apply]
  unfold Cert.Proto.cross
  refine Finset.sum_congr rfl fun k _ => ?_
  rw [ReadP.val_main_v19_apply]
  have el : ReadP.lidx_main_v20 (ix2 r cl) k = ix2 r k :=
    funext fun a => Fin.ext (by match a with | ⟨0, _⟩ => rfl | ⟨1, _⟩ => rfl)
  have er : ReadP.idx_main_v19 (ReadP.ridx_main_v20 (ix2 r cl) k) = ix2 cl k :=
    funext fun a => Fin.ext (by match a with | ⟨0, _⟩ => rfl | ⟨1, _⟩ => rfl)
  rw [el, er, proto_ref x0 x1 hl]

/-- The reference's logits. -/
theorem logits_ref (hl : Cert.Proto.LabOk (labs x1)) (r : Fin 131072) (cl : Fin 10) :
    Cert.ReferenceIdeal.ReadP.val_main_v26 (F := Ideal) x0 x1 (ix2 r cl)
      = Cert.Proto.logit (feat x0) (Cert.Proto.proto (feat x0) (labs x1)) (Cert.Proto.sqp (feat x0) (labs x1)) r cl := by
  rw [ReadP.val_main_v26_apply, ReadP.val_main_v25_apply, ReadP.val_main_v23_apply, ReadP.val_main_v18_apply,
    ReadP.val_main_v22_apply, sqe_ref x0, sqp_ref x0 x1 hl, cross_ref x0 x1 hl,
    ReadP.val_main_v21_apply, ReadP.val_main_cst_4_apply, ReadP.val_main_v24_apply, ReadP.val_main_cst_5_apply]
  simp only [Ideal.ofBits_def, Ideal.ofBits_zero_f32, Ideal.addf_def, Ideal.subf_def, Ideal.mulf_def, Ideal.maximumf_def]
  rfl

theorem red_10 : S131072x10.Reduces [1] S131072 := by decide

/-- The running maximum over the classes, from minus infinity. -/
theorem rowmax0_ref (hl : Cert.Proto.LabOk (labs x1)) (r : Fin 131072) :
    ReadP.val_main_call0_v0 (F := Ideal) x0 x1 (ix1 r)
      = Cert.Proto.rowmax (feat x0) (Cert.Proto.proto (feat x0) (labs x1)) (Cert.Proto.sqp (feat x0) (labs x1)) r := by
  unfold ReadP.val_main_call0_v0
  have hv := logits_ref x0 x1 hl r
  generalize ReadP.val_main_v26 (F := Ideal) x0 x1 = y at hv
  rw [Host.reduce_eq_fold_single _ _ _ reducesTo_S131072x10_S131072_d1 red_10 h_S_]
  unfold Cert.Proto.rowmax
  have e : (y ∘ red_10.lift (ix1 r)) = Cert.Proto.logit (feat x0) (Cert.Proto.proto (feat x0) (labs x1)) (Cert.Proto.sqp (feat x0) (labs x1)) r := by
    funext c
    rw [← hv c]
    show y (red_10.lift (ix1 r) c) = y (ix2 r c)
    congr 1
    funext a
    refine Fin.ext ?_
    rw [Shape.Reduces.lift_val]
    match a with
    | ⟨0, _⟩ => rfl
    | ⟨1, _⟩ => rfl
  rw [e]
  rfl

/-- The row maximum the log-softmax subtracts. -/
theorem rowmax_ref (hl : Cert.Proto.LabOk (labs x1)) (r : Fin 131072) :
    ReadP.val_main_call0_v2 (F := Ideal) x0 x1 (ix1 r)
      = Cert.Proto.rowmax (feat x0) (Cert.Proto.proto (feat x0) (labs x1)) (Cert.Proto.sqp (feat x0) (labs x1)) r := by
  rw [ReadP.val_main_call0_v2_apply, rowmax0_ref x0 x1 hl, ReadP.val_main_call0_v1_apply,
    ReadP.val_main_call0_cst_0_apply, Ideal.maximumf_def, Ideal.ofBits_def]
  exact Cert.Proto.rowmax_absorb _ _ _ r

/-- The logits shifted by their row maximum. -/
theorem shifted_ref (hl : Cert.Proto.LabOk (labs x1)) (r : Fin 131072) (cl : Fin 10) :
    ReadP.val_main_call0_v5 (F := Ideal) x0 x1 (ix2 r cl)
      = Cert.Proto.logit (feat x0) (Cert.Proto.proto (feat x0) (labs x1)) (Cert.Proto.sqp (feat x0) (labs x1)) r cl
        - Cert.Proto.rowmax (feat x0) (Cert.Proto.proto (feat x0) (labs x1)) (Cert.Proto.sqp (feat x0) (labs x1)) r := by
  rw [ReadP.val_main_call0_v5_apply, logits_ref x0 x1 hl, ReadP.val_main_call0_v4_apply, ReadP.val_main_call0_v3_apply]
  have e : ReadP.idx_main_call0_v3 (ReadP.idx_main_call0_v4 (ix2 r cl)) = ix1 r :=
    funext fun a => Fin.ext (by match a with | ⟨0, _⟩ => rfl)
  rw [e, rowmax_ref x0 x1 hl, Ideal.subf_def]

/-- The sum of the shifted exponentials. -/
theorem denom_ref (hl : Cert.Proto.LabOk (labs x1)) (r : Fin 131072) :
    ReadP.val_main_call0_v7 (F := Ideal) x0 x1 (ix1 r)
      = Cert.Proto.denom (feat x0) (Cert.Proto.proto (feat x0) (labs x1)) (Cert.Proto.sqp (feat x0) (labs x1)) r := by
  rw [ReadP.val_main_call0_v7_apply, ReadP.val_main_call0_cst_1_apply, Ideal.ofBits_def, Ideal.ofBits_zero_f32, zero_add]
  unfold Cert.Proto.denom
  refine Finset.sum_congr rfl fun c _ => ?_
  rw [ReadP.val_main_call0_v6_apply, Ideal.hostUnary_exp_def]
  have e : ReadP.idx_main_call0_v7 (ix1 r) c = ix2 r c :=
    funext fun a => Fin.ext (by match a with | ⟨0, _⟩ => rfl | ⟨1, _⟩ => rfl)
  rw [e, shifted_ref x0 x1 hl]

/-- The log-softmax. -/
theorem logp_ref (hl : Cert.Proto.LabOk (labs x1)) (r : Fin 131072) (cl : Fin 10) :
    ReadP.val_main_v27 (F := Ideal) x0 x1 (ix2 r cl)
      = Cert.Proto.logp (feat x0) (Cert.Proto.proto (feat x0) (labs x1)) (Cert.Proto.sqp (feat x0) (labs x1)) r cl := by
  rw [ReadP.val_main_v27_apply, shifted_ref x0 x1 hl, ReadP.val_main_call0_v10_apply, ReadP.val_main_call0_v9_apply,
    ReadP.val_main_call0_v8_apply]
  have e : ReadP.idx_main_call0_v8 (ReadP.idx_main_call0_v10 (ix2 r cl)) = ix1 r :=
    funext fun a => Fin.ext (by match a with | ⟨0, _⟩ => rfl)
  rw [e, denom_ref x0 x1 hl, Ideal.hostUnary_log_def, Ideal.subf_def]
  rfl

/-- A class number is not negative, so the take keeps it as it is … -/
theorem take_word (c : Fin 10) :
    Scalar.select (IntOp.cmpi .slt (BitVec.ofNat 32 c.val) 0#32) (IntOp.addi (BitVec.ofNat 32 c.val) 10#32)
      (BitVec.ofNat 32 c.val) = BitVec.ofNat 32 c.val := by
  revert c; decide

/-- … and finds it between 0 and 9. -/
theorem take_ok (c : Fin 10) :
    IntOp.andi (IntOp.cmpi .sge (BitVec.ofNat 32 c.val) 0#32) (IntOp.cmpi .sle (BitVec.ofNat 32 c.val) 9#32) = 1#1 := by
  revert c; decide

theorem v28_at (r : Fin 131072) : ReadP.val_main_v28 (F := Ideal) x1 (ix2 r 0) = x1 (ix1 r) := by
  rw [ReadP.val_main_v28_apply]
  exact congrArg x1 (funext fun a => Fin.ext (by match a with | ⟨0, _⟩ => rfl))

/-- The index the take reads for a row whose label is the class `c`: the label. -/
theorem take_idx (r : Fin 131072) (c : Fin 10) (hc : BitVec.ofNat 32 c.val = x1 (ix1 r)) :
    ReadP.val_main_call1_v5 (F := Ideal) x1 (ix3 r 0 0) = BitVec.ofNat 32 c.val := by
  rw [ReadP.val_main_call1_v5_apply]
  have e : ReadP.idx_main_call1_v5 (ix3 r (0 : Fin 1) (0 : Fin 1)) = ix2 r 0 :=
    funext fun a => Fin.ext (by
      match a with
      | ⟨0, _⟩ => show ((r.val * 1 + 0) * 1 + 0) / 1 = r.val; omega
      | ⟨1, _⟩ => rfl)
  rw [e, ReadP.val_main_call1_v4_apply, ReadP.val_main_call1_v1_apply, ReadP.val_main_call1_v3_apply, v28_at, ← hc,
    ReadP.val_main_call1_v0_apply, ReadP.val_main_call1_c_apply, ReadP.val_main_call1_v2_apply,
    ReadP.val_main_call1_c_0_apply]
  exact take_word c

theorem red_and : S131072x1x1.Reduces [2] S131072x1 := by decide

/-- A conjunction of ones, from one, is one. -/
theorem fold_andi_one {ι : Type} [DecidableEq ι] (s : Finset ι) (f : ι → BitVec 1) (h : ∀ k ∈ s, f k = 1#1) :
    s.fold IntOp.andi 1#1 f = 1#1 := by
  induction s using Finset.induction_on with
  | empty => rfl
  | insert a s ha ih =>
    rw [Finset.fold_insert ha, h a (Finset.mem_insert_self a s), ih (fun k hk => h k (Finset.mem_insert_of_mem hk))]
    rfl

/-- Every label being a class number, the take's range test passes on every row. -/
theorem inrange_ref (hl : Cert.Proto.LabOk (labs x1)) (r : Fin 131072) :
    ReadP.val_main_call1_v12 (F := Ideal) x1 (ix2 r 0) = 1#1 := by
  obtain ⟨c, hc⟩ := Cert.Proto.LabOk.cls hl r
  have hc' : BitVec.ofNat 32 c.val = x1 (ix1 r) := hc
  have h11 : ReadP.val_main_call1_v11 (F := Ideal) x1 (ix3 r 0 0) = 1#1 := by
    rw [ReadP.val_main_call1_v11_apply, ReadP.val_main_call1_v7_apply, ReadP.val_main_call1_v10_apply,
      take_idx x1 r c hc', ReadP.val_main_call1_v6_apply, ReadP.val_main_call1_c_2_apply,
      ReadP.val_main_call1_v9_apply, ReadP.val_main_call1_v8_apply, ReadP.val_main_call1_c_1_apply]
    exact take_ok c
  unfold ReadP.val_main_call1_v12
  generalize ReadP.val_main_call1_v11 (F := Ideal) x1 = y at h11
  rw [Host.reduce_eq_fold_single _ _ _ reducesTo_S131072x1x1_S131072x1_d2 red_and h_S_]
  show Finset.fold IntOp.andi (1#1) _ _ = 1#1
  refine fold_andi_one _ _ (fun k _ => ?_)
  have hk : k.val < 1 := k.isLt
  have e : red_and.lift (ix2 r 0) k = ix3 r 0 0 := by
    funext a
    refine Fin.ext ?_
    rw [Shape.Reduces.lift_val]
    match a with
    | ⟨0, _⟩ => rfl
    | ⟨1, _⟩ => rfl
    | ⟨2, _⟩ => show k.val = 0; omega
  show y (red_and.lift (ix2 r 0) k) = 1#1
  rw [e, h11]

abbrev dimsTake := gather_S131072x10_S131072x1x1_S131072x1_n_1_0_0_1_2_11

/-- The take reads, on row `r`, the column its start index names: the row's own batch coordinate, and the class the
    index holds (clamping a class number changes nothing). -/
theorem G_operand (r : Fin 131072) (idx : IVec S131072x1x1 32) (c : Fin 10)
    (h : (idx (ix3 r 0 0)).toInt = (c.val : Int)) : dimsTake.operandIdx (ix2 r 0) idx = ix2 r c := by
  funext a
  refine Fin.ext ?_
  match a with
  | ⟨0, _⟩ =>
    show dimsTake.start (ix2 r 0) idx 0 + dimsTake.batchCoord (ix2 r 0) 0 + dimsTake.offCoord (ix2 r 0) 0 = r.val
    rw [dimsTake.start_batching _ idx 0 (by decide), dimsTake.offCoord_eq_zero _ 0 (by decide)]
    unfold GatherDims.batchCoord
    rw [dif_pos (by decide), Nat.zero_add, Nat.add_zero]
    rfl
  | ⟨1, _⟩ =>
    show dimsTake.start (ix2 r 0) idx 1 + dimsTake.batchCoord (ix2 r 0) 1 + dimsTake.offCoord (ix2 r 0) 1 = c.val
    rw [dimsTake.batchCoord_eq_zero _ 1 (by decide), dimsTake.offCoord_eq_zero _ 1 (by decide)]
    unfold GatherDims.start
    rw [dif_pos (by decide)]
    have hsi : dimsTake.siIdx (ix2 r 0) ⟨List.idxOf (1 : Fin 2) dimsTake.startIndexMap, List.idxOf_lt_length_iff.2 (by decide)⟩
        = ix3 r 0 0 := by
      funext b
      refine Fin.ext ?_
      match b with
      | ⟨0, _⟩ => rfl
      | ⟨1, _⟩ => rfl
      | ⟨2, _⟩ => rfl
    rw [hsi, h]
    have hs : S131072x10.size 1 - dimsTake.sliceSizes 1 = 9 := rfl
    rw [hs]
    have := c.isLt
    omega

/-- What the take picks on a row: the log-probability of the row's label. -/
theorem picked_ref (hl : Cert.Proto.LabOk (labs x1)) (r : Fin 131072) :
    ReadP.val_main_v29 (F := Ideal) x0 x1 (ix2 r 0)
      = Cert.Proto.sel (feat x0) (labs x1) (Cert.Proto.proto (feat x0) (labs x1)) (Cert.Proto.sqp (feat x0) (labs x1)) r := by
  obtain ⟨c, hc⟩ := Cert.Proto.LabOk.cls hl r
  have hc' : BitVec.ofNat 32 c.val = x1 (ix1 r) := hc
  rw [ReadP.val_main_v29_apply, inrange_ref x1 hl r, select_one]
  show ReadP.val_main_v27 (F := Ideal) x0 x1 (dimsTake.operandIdx (ix2 r 0) (ReadP.val_main_call1_v5 (F := Ideal) x1)) = _
  rw [G_operand r _ c (by rw [take_idx x1 r c hc', toInt_cls]), logp_ref x0 x1 hl]
  exact (Cert.Proto.sel_eq_logp _ _ _ _ r c hc).symm

/-- The reference's loss. -/
theorem loss_ref (hl : Cert.Proto.LabOk (labs x1)) :
    Cert.ReferenceIdeal.ReadP.val_main_v32 (F := Ideal) x0 x1 ix0
      = -(Ideal.div (0 + ∑ r : Fin 131072, Cert.Proto.sel (feat x0) (labs x1) (Cert.Proto.proto (feat x0) (labs x1)) (Cert.Proto.sqp (feat x0) (labs x1)) r) Cert.Proto.nRows) := by
  rw [ReadP.val_main_v32_apply, ReadP.val_main_v31_apply, ReadP.val_main_v30_apply, ReadP.val_main_cst_6_apply,
    ReadP.val_main_cst_7_apply, Ideal.ofBits_def, Ideal.ofBits_def, Ideal.ofBits_zero_f32, Ideal.hostDivf_def,
    Ideal.hostNegf_def, Ideal.negf_def, sum_idx2]
  have e : ∀ r : Fin 131072, ∑ b : Fin 1, ReadP.val_main_v29 (F := Ideal) x0 x1 (ix2 r b)
      = Cert.Proto.sel (feat x0) (labs x1) (Cert.Proto.proto (feat x0) (labs x1)) (Cert.Proto.sqp (feat x0) (labs x1)) r :=
    fun r => by
      rw [Fin.sum_univ_one]
      exact picked_ref x0 x1 hl r
  rw [Finset.sum_congr rfl (fun r _ => e r)]
  rfl

end Cert.ReferenceIdeal.RefValue

end
-- ==== Proof.lean ====
/- Both programs compute a prototypical-network loss over 131072 rows of 512 features and 10 classes: the class means of the
   rows (per-class sums over per-class counts), the clamped squared distances of every row to every mean, their negatives
   as logits, and minus the mean over the rows of the log-softmax entry at the row's own label.
   The tiled program adds by halves and blocks and keeps per-half partial results; the reference adds all at once. Over the
   extended reals sums regroup freely, so the logits agree whatever the labels' classes hold; the two losses agree because
   every row's picked log-probability is a real number — every feature is real and every label names a class that the row
   itself makes non-empty — so minus a total is the total of the minuses. The claim holds where every label is a class number
   from 0 to 9: outside that range the reference's own indexing leaves its arrays (its scatter drops the row and its gather
   wraps or fills), which is the domain the precondition states. -/
import proofs.«407835_j64536178589961_3_alg».proof.Defs
import proofs.«407835_j64536178589961_3_alg».proof.Proof.Gen.Kernel
import proofs.«407835_j64536178589961_3_alg».proof.Proof.Gen.Kernel.Skeleton
import proofs.«407835_j64536178589961_3_alg».proof.Proof.Gen.Kernel.Launch
import proofs.«407835_j64536178589961_3_alg».proof.Proof.Gen.Kernel.Points
import proofs.«407835_j64536178589961_3_alg».proof.Proof.Gen.Kernel.Frame
import proofs.«407835_j64536178589961_3_alg».proof.Proof.Gen.KernelIdeal
import proofs.«407835_j64536178589961_3_alg».proof.Proof.Gen.KernelIdeal.Skeleton
import proofs.«407835_j64536178589961_3_alg».proof.Proof.Gen.KernelIdeal.Launch
import proofs.«407835_j64536178589961_3_alg».proof.Proof.Gen.KernelIdeal.Points
import proofs.«407835_j64536178589961_3_alg».proof.Proof.Gen.KernelIdeal.Frame
import proofs.«407835_j64536178589961_3_alg».proof.Proof.Gen.ReferenceIdeal
import proofs.«407835_j64536178589961_3_alg».proof.Proof.Gen.Pre_finite_inputs
import proofs.«407835_j64536178589961_3_alg».proof.Proof.Math
import proofs.«407835_j64536178589961_3_alg».proof.Proof.PreDecode
import proofs.«407835_j64536178589961_3_alg».proof.Proof.KRun
import proofs.«407835_j64536178589961_3_alg».proof.Proof.KHost
import proofs.«407835_j64536178589961_3_alg».proof.Proof.RefRun
import proofs.«407835_j64536178589961_3_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.RefRun.run (F := Ideal) m ρ)

/-- The ideal pass rewrote nothing. -/
theorem preserves : Cert.preserves_Kernel_KernelIdeal := trivial

/-- The two programs' results, from memories agreeing on the arguments: the tiled program's loss is the halves' loss sums over
    the number of rows and its logits the logits of the class means; the reference's loss is minus the mean of the rows' picked
    log-probabilities and its logits the same function of the same class means. -/
theorem algebraic : Cert.algebraic_KernelIdeal_ReferenceIdeal := by
  intro m ρ m' ρ' hpre hagree
  refine ⟨fun c => Cert.KernelIdeal.Gen.W5 m ρ c (Proc.devRef .tc Cert.KernelIdeal.main_v13),
    fun c => Cert.KernelIdeal.Gen.W5 m ρ c (Proc.devRef .tc Cert.KernelIdeal.main_v11_0),
    Cert.KernelIdeal.RunV.run_results (F := Ideal) m ρ, ?_⟩
  refine (θ_run Cert.ReferenceIdeal.defs _ _).mono (fun _ h c => ⟨(h c).1.trans ?_, (h c).2.1.trans ?_, (h c).2.2.1, (h c).2.2.2⟩)
    (Cert.ReferenceIdeal.RefRun.run (F := Ideal) m' ρ')
  · rw [(hagree c).1, (hagree c).2]
    obtain ⟨hx, hl⟩ := Cert.PreDecode.decode _ _ (hpre c)
    funext i
    obtain rfl := eq_ix0 i
    exact (Cert.ReferenceIdeal.RefValue.loss_ref _ _ hl).trans
      ((Cert.Proto.loss_total _ _ hx hl).symm.trans (Cert.KernelIdeal.HostV.W5_loss m ρ c).symm)
  · rw [(hagree c).1, (hagree c).2]
    obtain ⟨hx, hl⟩ := Cert.PreDecode.decode _ _ (hpre c)
    funext i
    obtain ⟨r, cl, rfl⟩ : ∃ (r : Fin 131072) (cl : Fin 10), i = ix2 r cl := ⟨i 0, i 1, eq_ix2 i⟩
    exact (Cert.ReferenceIdeal.RefValue.logits_ref _ _ hl r cl).trans (Cert.KernelIdeal.HostV.W5_logits m ρ c r cl).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
